-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v55) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x3 : Shape := ⟨3, ![4, 4096, 3]⟩
abbrev S4x64x4096 : Shape := ⟨3, ![4, 64, 4096]⟩
abbrev S4x4096 : Shape := ⟨2, ![4, 4096]⟩
abbrev S_ : Shape := ⟨0, ![]⟩

class Facts : Prop where
  bcast_S_S4x4096x3 : S_.BroadcastsInDim S4x4096x3 (![] : Fin 0 → Fin S4x4096x3.rank)
  reducesTo_S4x4096x3_S_d0_1_2 : S4x4096x3.ReducesTo [0, 1, 2] S_
  h_S_ : 0 < S_.numel
  bcast_S_S4x64x4096 : S_.BroadcastsInDim S4x64x4096 (![] : Fin 0 → Fin S4x64x4096.rank)
  reducesTo_S4x64x4096_S_d0_1_2 : S4x64x4096.ReducesTo [0, 1, 2] S_
  bcast_S_S4x4096 : S_.BroadcastsInDim S4x4096 (![] : Fin 0 → Fin S4x4096.rank)
  reducesTo_S4x4096_S_d0_1 : S4x4096.ReducesTo [0, 1] S_

variable [Facts]

def fn_part1 {F : FTy → Type} [FloatOps F] (main_v12 : IVec S_ 1) (main_v15 : IVec S_ 1) : IVec S_ 1 :=
  let main_v16 : IVec S_ 1 := andi main_v12 main_v15
  main_v16

def fn {F : FTy → Type} [FloatOps F] (main_arg0 : FVec F S4x4096x3 .f32) (main_arg1 : FVec F S4x64x4096 .f32) (main_arg2 : IVec S4x4096 32) : IVec S_ 1 :=
  let main_v0 : FVec F S4x4096x3 .f32 := Host.absf main_arg0
  let main_cst : FVec F S_ .f32 := constant S_ .f32 0x7F800000#32
  let main_v1 : FVec F S4x4096x3 .f32 := broadcastInDim S4x4096x3 ![] bcast_S_S4x4096x3 main_cst
  let main_v2 : IVec S4x4096x3 1 := cmpf .olt main_v0 main_v1
  let main_c : IVec S_ 1 := constantI S_ 1 1#1
  let main_v3 : IVec S_ 1 := (fun x v => Host.reduce IntOp.andi x v reducesTo_S4x4096x3_S_d0_1_2 h_S_) main_v2 main_c
  let main_v4 : FVec F S4x64x4096 .f32 := Host.absf main_arg1
  let main_cst_0 : FVec F S_ .f32 := constant S_ .f32 0x7F800000#32
  let main_v5 : FVec F S4x64x4096 .f32 := broadcastInDim S4x64x4096 ![] bcast_S_S4x64x4096 main_cst_0
  let main_v6 : IVec S4x64x4096 1 := cmpf .olt main_v4 main_v5
  let main_c_1 : IVec S_ 1 := constantI S_ 1 1#1
  let main_v7 : IVec S_ 1 := (fun x v => Host.reduce IntOp.andi x v reducesTo_S4x64x4096_S_d0_1_2 h_S_) main_v6 main_c_1
  let main_v8 : IVec S_ 1 := andi main_v3 main_v7
  let main_c_2 : IVec S_ 32 := constantI S_ 32 4294967295#32
  let main_v9 : IVec S4x4096 32 := broadcastInDim S4x4096 ![] bcast_S_S4x4096 main_c_2
  let main_v10 : IVec S4x4096 1 := cmpi .sge main_arg2 main_v9
  let main_c_3 : IVec S_ 1 := constantI S_ 1 1#1
  let main_v11 : IVec S_ 1 := (fun x v => Host.reduce IntOp.andi x v reducesTo_S4x4096_S_d0_1 h_S_) main_v10 main_c_3
  let main_v12 : IVec S_ 1 := andi main_v8 main_v11
  let main_c_4 : IVec S_ 32 := constantI S_ 32 50#32
  let main_v13 : IVec S4x4096 32 := broadcastInDim S4x4096 ![] bcast_S_S4x4096 main_c_4
  let main_v14 : IVec S4x4096 1 := cmpi .slt main_arg2 main_v13
  let main_c_5 : IVec S_ 1 := constantI S_ 1 1#1
  let main_v15 : IVec S_ 1 := (fun x v => Host.reduce IntOp.andi x v reducesTo_S4x4096_S_d0_1 h_S_) main_v14 main_c_5
  fn_part1 (F := F) main_v12 main_v15
-- ==== Kernel.lean ====
abbrev S4x4096x3 : Shape := ⟨3, ![4, 4096, 3]⟩
abbrev S4x64x4096 : Shape := ⟨3, ![4, 64, 4096]⟩
abbrev S4x4096 : Shape := ⟨2, ![4, 4096]⟩
abbrev S4x1x4096 : Shape := ⟨3, ![4, 1, 4096]⟩
abbrev S4x8x128 : Shape := ⟨3, ![4, 8, 128]⟩
abbrev S1x64x4096 : Shape := ⟨3, ![1, 64, 4096]⟩
abbrev S1x1x4096 : Shape := ⟨3, ![1, 1, 4096]⟩
abbrev S1x8x128 : Shape := ⟨3, ![1, 8, 128]⟩
abbrev S64x4096 : Shape := ⟨2, ![64, 4096]⟩
abbrev S1x4096 : Shape := ⟨2, ![1, 4096]⟩
abbrev S4096 : Shape := ⟨1, ![4096]⟩
abbrev S64x256 : Shape := ⟨2, ![64, 256]⟩
abbrev S256x64 : Shape := ⟨2, ![256, 64]⟩
abbrev S256 : Shape := ⟨1, ![256]⟩
abbrev S1x256 : Shape := ⟨2, ![1, 256]⟩
abbrev S256x1 : Shape := ⟨2, ![256, 1]⟩
abbrev S64x512 : Shape := ⟨2, ![64, 512]⟩
abbrev S256x512 : Shape := ⟨2, ![256, 512]⟩
abbrev S1x512 : Shape := ⟨2, ![1, 512]⟩
abbrev S1 : Shape := ⟨1, ![1]⟩
abbrev S1x1 : Shape := ⟨2, ![1, 1]⟩
abbrev S1x1x1 : Shape := ⟨3, ![1, 1, 1]⟩
abbrev S4x1x1 : Shape := ⟨3, ![4, 1, 1]⟩
abbrev S4 : Shape := ⟨1, ![4]⟩
abbrev S_ : Shape := ⟨0, ![]⟩

abbrev nBuf : Space → Nat
  | .hbm => 11
  | .vmem => 8
  | .smem => 0
  | _ => 0

abbrev bufTy : (tb : Table) → Fin (tcTables nBuf tb) → BufTy
  | .hbm, ⟨0, _⟩ => ⟨S4x4096x3, .f32⟩
  | .hbm, ⟨1, _⟩ => ⟨S4x64x4096, .f32⟩
  | .hbm, ⟨2, _⟩ => ⟨S4x4096, .i32⟩
  | .hbm, ⟨3, _⟩ => ⟨S4x1x4096, .i32⟩
  | .hbm, ⟨4, _⟩ => ⟨S4x8x128, .f32⟩
  | .hbm, ⟨5, _⟩ => ⟨S4x1x1, .f32⟩
  | .hbm, ⟨6, _⟩ => ⟨S4, .f32⟩
  | .hbm, ⟨7, _⟩ => ⟨S_, .f32⟩
  | .hbm, ⟨8, _⟩ => ⟨S_, .f32⟩
  | .hbm, ⟨9, _⟩ => ⟨S_, .f32⟩
  | .hbm, ⟨10, _⟩ => ⟨S_, .f32⟩
  | .local _ .vmem, ⟨0, _⟩ => ⟨S1x64x4096, .f32⟩
  | .local _ .vmem, ⟨1, _⟩ => ⟨S1x64x4096, .f32⟩
  | .local _ .vmem, ⟨2, _⟩ => ⟨S1x1x4096, .i32⟩
  | .local _ .vmem, ⟨3, _⟩ => ⟨S1x1x4096, .i32⟩
  | .local _ .vmem, ⟨4, _⟩ => ⟨S1x8x128, .f32⟩
  | .local _ .vmem, ⟨5, _⟩ => ⟨S1x8x128, .f32⟩
  | .local _ .vmem, ⟨6, _⟩ => ⟨S64x4096, .bf16⟩
  | .local _ .vmem, ⟨7, _⟩ => ⟨S1x4096, .f32⟩
  | _, _ => ⟨S4x4096x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_cst_0 : Ref sig .tc := ⟨.hbm, 9, rfl⟩
abbrev main_v5 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_scratch1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg1 : BitVec 32 := BitVec.ofNat 32 (i 1).val
  let c256_i32 : BitVec 32 := 256#32
  let v3 : BitVec 32 := Scalar.muli arg1 c256_i32
  v3
def k0_off1 (i : grid0.Coords) : Fin 2 → Nat :=
  let c0 : Index := 0#32
  let arg1 : BitVec 32 := BitVec.ofNat 32 (i 1).val
  let c256_i32 : BitVec 32 := 256#32
  let v3 : BitVec 32 := Scalar.muli arg1 c256_i32
  let v4 : BitVec 32 := v3
  let v7 : Index := Scalar.indexCast v4
  ![0, v7.toNat]
def k0_off2 (i : grid0.Coords) : Fin 2 → Nat :=
  let c0_7 : Index := 0#32
  let arg1 : BitVec 32 := BitVec.ofNat 32 (i 1).val
  let c256_i32 : BitVec 32 := 256#32
  let v3 : BitVec 32 := Scalar.muli arg1 c256_i32
  let v4 : BitVec 32 := v3
  let v17 : Index := Scalar.indexCast v4
  ![0, v17.toNat]
def k0_mult2 : BitVec 32 :=
  let c0_i32_11 : BitVec 32 := 0#32
  let c512_i32 : BitVec 32 := 512#32
  let v32 : BitVec 32 := Scalar.muli c0_i32_11 c512_i32
  v32
def k0_off3 (c0_i32_11 : BitVec 32) : Fin 2 → Nat :=
  let c0_12 : Index := 0#32
  let c512_i32 : BitVec 32 := 512#32
  let v32 : BitVec 32 := Scalar.muli c0_i32_11 c512_i32
  let v33 : BitVec 32 := v32
  let v34 : Index := Scalar.indexCast v33
  ![0, v34.toNat]
def k0_off4 (c0_i32_11 : BitVec 32) : Fin 2 → Nat :=
  let c0_14 : Index := 0#32
  let c512_i32 : BitVec 32 := 512#32
  let v32 : BitVec 32 := Scalar.muli c0_i32_11 c512_i32
  let v33 : BitVec 32 := v32
  let v37 : Index := Scalar.indexCast v33
  ![0, v37.toNat]
def k0_mult3 : BitVec 32 :=
  let c1_i32 : BitVec 32 := 1#32
  let c512_i32_26 : BitVec 32 := 512#32
  let v84 : BitVec 32 := Scalar.muli c1_i32 c512_i32_26
  v84
def k0_mult4 : BitVec 32 :=
  let c2_i32 : BitVec 32 := 2#32
  let c512_i32_41 : BitVec 32 := 512#32
  let v136 : BitVec 32 := Scalar.muli c2_i32 c512_i32_41
  v136
def k0_mult5 : BitVec 32 :=
  let c3_i32 : BitVec 32 := 3#32
  let c512_i32_56 : BitVec 32 := 512#32
  let v188 : BitVec 32 := Scalar.muli c3_i32 c512_i32_56
  v188
def k0_mult6 : BitVec 32 :=
  let c4_i32 : BitVec 32 := 4#32
  let c512_i32_71 : BitVec 32 := 512#32
  let v240 : BitVec 32 := Scalar.muli c4_i32 c512_i32_71
  v240
def k0_mult7 : BitVec 32 :=
  let c5_i32 : BitVec 32 := 5#32
  let c512_i32_86 : BitVec 32 := 512#32
  let v292 : BitVec 32 := Scalar.muli c5_i32 c512_i32_86
  v292
def k0_mult8 : BitVec 32 :=
  let c6_i32 : BitVec 32 := 6#32
  let c512_i32_101 : BitVec 32 := 512#32
  let v344 : BitVec 32 := Scalar.muli c6_i32 c512_i32_101
  v344
def k0_mult9 : BitVec 32 :=
  let c7_i32 : BitVec 32 := 7#32
  let c512_i32_116 : BitVec 32 := 512#32
  let v396 : BitVec 32 := Scalar.muli c7_i32 c512_i32_116
  v396
def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x64x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

class Facts₀ : Prop where
  shapeCasts_S4x4096_S4x1x4096 : S4x4096.ShapeCasts S4x1x4096
  inb_S1x8x128_S1x8x128_0_0_0 : ∀ a, (![0, 0, 0] : Fin 3 → Nat) a + S1x8x128.size a ≤ S1x8x128.size a
  h_S1x8x128 : 0 < S1x8x128.numel
  inb_S1x64x4096_S1x64x4096_0_0_0 : ∀ a, (![0, 0, 0] : Fin 3 → Nat) a + S1x64x4096.size a ≤ S1x64x4096.size a
  h_S1x64x4096 : 0 < S1x64x4096.numel
  shapeCasts_S1x64x4096_S64x4096 : S1x64x4096.ShapeCasts S64x4096
  bitsLt_bf16_f32 : FTy.bits .bf16 < FTy.bits .f32
  inb_S64x4096_S64x4096_0_0 : ∀ a, (![0, 0] : Fin 2 → Nat) a + S64x4096.size a ≤ S64x4096.size a
  h_S64x4096 : 0 < S64x4096.numel
  shapeCasts_S64x4096_S64x4096 : S64x4096.ShapeCasts S64x4096
  packedbf16_S64x4096_S64x4096_0_0 : (Rect.unit (s := S64x4096) ![0, 0] S64x4096.size inb_S64x4096_S64x4096_0_0).PackedRows (EltTy.packing .bf16)
  reduces_S64x4096_S4096 : S64x4096.Reduces [0] S4096
  shapeCasts_S4096_S1x4096 : S4096.ShapeCasts S1x4096
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  squeezes_S1x64x4096_S64x4096 : S1x64x4096.Squeezes S64x4096
  h_S64x256 : 0 < S64x256.numel
  transposes_S64x256_p1_0_S256x64 : S64x256.Transposes [1, 0] S256x64
  reduces_S64x256_S256 : S64x256.Reduces [0] S256
  shapeCasts_S256_S1x256 : S256.ShapeCasts S1x256
  transposes_S1x256_p1_0_S256x1 : S1x256.Transposes [1, 0] S256x1
  inb_S1x1x4096_S1x1x4096_0_0_0 : ∀ a, (![0, 0, 0] : Fin 3 → Nat) a + S1x1x4096.size a ≤ S1x1x4096.size a
  squeezes_S1x1x4096_S1x4096 : S1x1x4096.Squeezes S1x4096
  h_S1x256 : 0 < S1x256.numel
  shapeCasts_S1x256_S1x256 : S1x256.ShapeCasts S1x256
  iota_S256x1_d0_w32 : S256x1.Iotas .tc 32 [0]
  h_S64x512 : 0 < S64x512.numel
  h_S1x512 : 0 < S1x512.numel
  broadcasts_S256x1_S256x512 : S256x1.Broadcasts S256x512
  broadcasts_S1x512_S256x512 : S1x512.Broadcasts S256x512
  shapeCasts_S1x512_S1x512 : S1x512.ShapeCasts S1x512
  iota_S1x512_d1_w32 : S1x512.Iotas .tc 32 [1]
  iota_S256x512_d1_w32 : S256x512.Iotas .tc 32 [1]
  reduces_S256x512_S256 : S256x512.Reduces [1] S256
  shapeCasts_S256_S256x1 : S256.ShapeCasts S256x1
  reduces_S256x1_S1 : S256x1.Reduces [0] S1
  shapeCasts_S1_S1x1 : S1.ShapeCasts S1x1
  shapeCasts_S1x8x128_S1x8x128 : S1x8x128.ShapeCasts S1x8x128
  shapeCasts_S1x1_S1x1x1 : S1x1.ShapeCasts S1x1x1
  broadcasts_S1x1x1_S1x8x128 : S1x1x1.Broadcasts S1x8x128
  slices_S4x8x128_S4x1x1_0_0_0 : S4x8x128.Slices ![0, 0, 0] S4x1x1
  shapeCasts_S4x1x1_S4 : S4x1x1.ShapeCasts S4
  reducesTo_S4_S_d0 : S4.ReducesTo [0] S_
  h_S_ : 0 < S_.numel
  dot_S256x64_S64x512_S256x512_1_0_0_1_n_n_wf : DotDims.WF S256x64 S64x512 S256x512 [1] [0] [0] [1] [] []
  hrank0 : 0 < grid0.rank
  k0_mult1_dvd : ∀ i : grid0.Coords, 128 ∣ (k0_mult1 i).toNat
  k0_off1_inb : ∀ i : grid0.Coords, ∀ a, (k0_off1 i) a + S64x256.size a ≤ S64x4096.size a
  k0_off2_inb : ∀ i : grid0.Coords, ∀ a, (k0_off2 i) a + S1x256.size a ≤ S1x4096.size a
  k0_mult2_dvd : 128 ∣ k0_mult2.toNat
  k0_off3_inb : ∀ (r : Fin 8), ∀ a, (k0_off3 (BitVec.ofNat 32 r.val)) a + S64x512.size a ≤ S64x4096.size a
  k0_off4_inb : ∀ (r : Fin 8), ∀ a, (k0_off4 (BitVec.ofNat 32 r.val)) a + S1x512.size a ≤ S1x4096.size a
  k0_mult3_dvd : 128 ∣ k0_mult3.toNat
  k0_mult4_dvd : 128 ∣ k0_mult4.toNat
  k0_mult5_dvd : 128 ∣ k0_mult5.toNat
  k0_mult6_dvd : 128 ∣ k0_mult6.toNat
  k0_mult7_dvd : 128 ∣ k0_mult7.toNat
  k0_mult8_dvd : 128 ∣ k0_mult8.toNat
  k0_mult9_dvd : 128 ∣ k0_mult9.toNat
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x64x4096.size a ≤ S4x64x4096.size a
  hwx0_0 : ∀ i : grid0.Coords, EltTy.bits .f32 = 32 ∨ (Rect.block (s := S4x64x4096) S1x64x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x4096.size a ≤ S4x1x4096.size a
  hwx0_1 : ∀ i : grid0.Coords, EltTy.bits .i32 = 32 ∨ (Rect.block (s := S4x1x4096) S1x1x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x8x128.size a ≤ S4x8x128.size a
  hwx0_2 : ∀ i : grid0.Coords, EltTy.bits .f32 = 32 ∨ (Rect.block (s := S4x8x128) S1x8x128.size (cc0_transform_2 i) (hinb0_2 i)).WholeWords (EltTy.packing .f32)

variable [Facts₀]

def dot_S256x64_S64x512_S256x512_1_0_0_1_n_n : DotDims S256x64 S64x512 S256x512 where
  lhsContracting := [1]
  rhsContracting := [0]
  lhsNonContracting := [0]
  rhsNonContracting := [1]
  lhsBatch := []
  rhsBatch := []
  wf := dot_S256x64_S64x512_S256x512_1_0_0_1_n_n_wf

abbrev win0_0 : Pipeline.Window sig grid0 :=
  Pipeline.Window.ofSpec (Memref.whole main_arg1) S1x64x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x1x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x8x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S4x4096x3 : Shape := ⟨3, ![4, 4096, 3]⟩
abbrev S4x64x4096 : Shape := ⟨3, ![4, 64, 4096]⟩
abbrev S4x4096 : Shape := ⟨2, ![4, 4096]⟩
abbrev S_ : Shape := ⟨0, ![]⟩
abbrev S4x4096x4096 : Shape := ⟨3, ![4, 4096, 4096]⟩
abbrev S4x4096x1 : Shape := ⟨3, ![4, 4096, 1]⟩
abbrev S4x1x4096 : Shape := ⟨3, ![4, 1, 4096]⟩
abbrev S1x1x50 : Shape := ⟨3, ![1, 1, 50]⟩
abbrev S4x4096x50 : Shape := ⟨3, ![4, 4096, 50]⟩
abbrev S4096x4096 : Shape := ⟨2, ![4096, 4096]⟩
abbrev S1x4096x4096 : Shape := ⟨3, ![1, 4096, 4096]⟩

abbrev nBuf : Space → Nat
  | .hbm => 79
  | .vmem => 0
  | .smem => 0
  | _ => 0

abbrev bufTy : (tb : Table) → Fin (tcTables nBuf tb) → BufTy
  | .hbm, ⟨0, _⟩ => ⟨S4x4096x3, .f32⟩
  | .hbm, ⟨1, _⟩ => ⟨S4x64x4096, .f32⟩
  | .hbm, ⟨2, _⟩ => ⟨S4x4096, .i32⟩
  | .hbm, ⟨3, _⟩ => ⟨S4x64x4096, .f32⟩
  | .hbm, ⟨4, _⟩ => ⟨S_, .f32⟩
  | .hbm, ⟨5, _⟩ => ⟨S4x4096, .f32⟩
  | .hbm, ⟨6, _⟩ => ⟨S4x4096x4096, .f32⟩
  | .hbm, ⟨7, _⟩ => ⟨S4x4096x1, .f32⟩
  | .hbm, ⟨8, _⟩ => ⟨S4x1x4096, .f32⟩
  | .hbm, ⟨9, _⟩ => ⟨S4x4096x4096, .f32⟩
  | .hbm, ⟨10, _⟩ => ⟨S4x4096x4096, .f32⟩
  | .hbm, ⟨11, _⟩ => ⟨S4x4096x4096, .f32⟩
  | .hbm, ⟨12, _⟩ => ⟨S_, .f32⟩
  | .hbm, ⟨13, _⟩ => ⟨S4x4096x4096, .f32⟩
  | .hbm, ⟨14, _⟩ => ⟨S4x4096x4096, .f32⟩
  | .hbm, ⟨15, _⟩ => ⟨S4x4096x4096, .f32⟩
  | .hbm, ⟨16, _⟩ => ⟨S_, .f32⟩
  | .hbm, ⟨17, _⟩ => ⟨S4x4096x4096, .f32⟩
  | .hbm, ⟨18, _⟩ => ⟨S4x4096x4096, .f32⟩
  | .hbm, ⟨19, _⟩ => ⟨S_, .i32⟩
  | .hbm, ⟨20, _⟩ => ⟨S4x4096, .i32⟩
  | .hbm, ⟨21, _⟩ => ⟨S4x4096, .i1⟩
  | .hbm, ⟨22, _⟩ => ⟨S_, .i32⟩
  | .hbm, ⟨23, _⟩ => ⟨S_, .i32⟩
  | .hbm, ⟨24, _⟩ => ⟨S4x4096, .i32⟩
  | .hbm, ⟨25, _⟩ => ⟨S4x4096, .i32⟩
  | .hbm, ⟨26, _⟩ => ⟨S4x4096x1, .i32⟩
  | .hbm, ⟨27, _⟩ => ⟨S1x1x50, .i32⟩
  | .hbm, ⟨28, _⟩ => ⟨S4x4096x50, .i32⟩
  | .hbm, ⟨29, _⟩ => ⟨S4x4096x50, .i32⟩
  | .hbm, ⟨30, _⟩ => ⟨S4x4096x50, .i1⟩
  | .hbm, ⟨31, _⟩ => ⟨S4x4096x50, .f32⟩
  | .hbm, ⟨32, _⟩ => ⟨S4x4096x1, .i1⟩
  | .hbm, ⟨33, _⟩ => ⟨S4x4096x1, .f32⟩
  | .hbm, ⟨34, _⟩ => ⟨S4x4096x50, .f32⟩
  | .hbm, ⟨35, _⟩ => ⟨S4x4096x50, .f32⟩
  | .hbm, ⟨36, _⟩ => ⟨S4x4096x4096, .f32⟩
  | .hbm, ⟨37, _⟩ => ⟨S4096x4096, .i32⟩
  | .hbm, ⟨38, _⟩ => ⟨S4096x4096, .i32⟩
  | .hbm, ⟨39, _⟩ => ⟨S_, .i32⟩
  | .hbm, ⟨40, _⟩ => ⟨S4096x4096, .i32⟩
  | .hbm, ⟨41, _⟩ => ⟨S4096x4096, .i32⟩
  | .hbm, ⟨42, _⟩ => ⟨S4096x4096, .i1⟩
  | .hbm, ⟨43, _⟩ => ⟨S4096x4096, .f32⟩
  | .hbm, ⟨44, _⟩ => ⟨S_, .f32⟩
  | .hbm, ⟨45, _⟩ => ⟨S4096x4096, .f32⟩
  | .hbm, ⟨46, _⟩ => ⟨S4096x4096, .f32⟩
  | .hbm, ⟨47, _⟩ => ⟨S1x4096x4096, .f32⟩
  | .hbm, ⟨48, _⟩ => ⟨S4x4096x4096, .f32⟩
  | .hbm, ⟨49, _⟩ => ⟨S4x4096x4096, .f32⟩
  | .hbm, ⟨50, _⟩ => ⟨S1x4096x4096, .f32⟩
  | .hbm, ⟨51, _⟩ => ⟨S4x4096x4096, .f32⟩
  | .hbm, ⟨52, _⟩ => ⟨S4x4096x4096, .f32⟩
  | .hbm, ⟨53, _⟩ => ⟨S_, .f32⟩
  | .hbm, ⟨54, _⟩ => ⟨S4x4096x4096, .f32⟩
  | .hbm, ⟨55, _⟩ => ⟨S4x4096x4096, .f32⟩
  | .hbm, ⟨56, _⟩ => ⟨S4x4096x4096, .f32⟩
  | .hbm, ⟨57, _⟩ => ⟨S_, .f32⟩
  | .hbm, ⟨58, _⟩ => ⟨S4x4096x4096, .f32⟩
  | .hbm, ⟨59, _⟩ => ⟨S4x4096x4096, .f32⟩
  | .hbm, ⟨60, _⟩ => ⟨S_, .f32⟩
  | .hbm, ⟨61, _⟩ => ⟨S4x4096x4096, .f32⟩
  | .hbm, ⟨62, _⟩ => ⟨S4x4096x4096, .f32⟩
  | .hbm, ⟨63, _⟩ => ⟨S_, .f32⟩
  | .hbm, ⟨64, _⟩ => ⟨S4x4096x4096, .f32⟩
  | .hbm, ⟨65, _⟩ => ⟨S4x4096x4096, .f32⟩
  | .hbm, ⟨66, _⟩ => ⟨S4x4096x4096, .f32⟩
  | .hbm, ⟨67, _⟩ => ⟨S4x4096, .f32⟩
  | .hbm, ⟨68, _⟩ => ⟨S4x4096x1, .f32⟩
  | .hbm, ⟨69, _⟩ => ⟨S4x1x4096, .f32⟩
  | .hbm, ⟨70, _⟩ => ⟨S4x4096x4096, .f32⟩
  | .hbm, ⟨71, _⟩ => ⟨S4x4096x4096, .f32⟩
  | .hbm, ⟨72, _⟩ => ⟨S4x4096x4096, .f32⟩
  | .hbm, ⟨73, _⟩ => ⟨S4x4096x4096, .f32⟩
  | .hbm, ⟨74, _⟩ => ⟨S4x4096x4096, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | _, _ => ⟨S4x4096x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_0 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_cst_1 : Ref sig .tc := ⟨.hbm, 16, rfl⟩
abbrev main_v11 : Ref sig .tc := ⟨.hbm, 17, rfl⟩
abbrev main_v12 : Ref sig .tc := ⟨.hbm, 18, rfl⟩
abbrev main_c : Ref sig .tc := ⟨.hbm, 19, rfl⟩
abbrev main_v13 : Ref sig .tc := ⟨.hbm, 20, rfl⟩
abbrev main_v14 : Ref sig .tc := ⟨.hbm, 21, rfl⟩
abbrev main_c_2 : Ref sig .tc := ⟨.hbm, 22, rfl⟩
abbrev main_call0_v0 : Ref sig .tc := ⟨.hbm, 23, rfl⟩
abbrev main_call0_v1 : Ref sig .tc := ⟨.hbm, 24, rfl⟩
abbrev main_v15 : Ref sig .tc := ⟨.hbm, 25, rfl⟩
abbrev main_call1_v0 : Ref sig .tc := ⟨.hbm, 26, rfl⟩
abbrev main_call1_v1 : Ref sig .tc := ⟨.hbm, 27, rfl⟩
abbrev main_call1_v2 : Ref sig .tc := ⟨.hbm, 28, rfl⟩
abbrev main_call1_v3 : Ref sig .tc := ⟨.hbm, 29, rfl⟩
abbrev main_call1_v4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_3 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_4 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_cst_5 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_cst_6 : Ref sig .tc := ⟨.hbm, 57, rfl⟩
abbrev main_v39 : Ref sig .tc := ⟨.hbm, 58, rfl⟩
abbrev main_v40 : Ref sig .tc := ⟨.hbm, 59, rfl⟩
abbrev main_cst_7 : Ref sig .tc := ⟨.hbm, 60, rfl⟩
abbrev main_v41 : Ref sig .tc := ⟨.hbm, 61, rfl⟩
abbrev main_v42 : Ref sig .tc := ⟨.hbm, 62, rfl⟩
abbrev main_cst_8 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_cst_9 : Ref sig .tc := ⟨.hbm, 75, rfl⟩
abbrev main_v54 : Ref sig .tc := ⟨.hbm, 76, rfl⟩
abbrev main_cst_10 : Ref sig .tc := ⟨.hbm, 77, rfl⟩
abbrev main_v55 : Ref sig .tc := ⟨.hbm, 78, rfl⟩

abbrev nD : Nat := 1
abbrev τ : Topo := Topo.v7x

variable {F : FTy → Type} [FloatOps F]

class Facts₀ : Prop where
  reducesTo_S4x64x4096_S4x4096_d1 : S4x64x4096.ReducesTo [1] S4x4096
  h_S_ : 0 < S_.numel
  bcast_S4x4096_S4x4096x1_0_1 : S4x4096.BroadcastsInDim S4x4096x1 (![0, 1] : Fin 2 → Fin S4x4096x1.rank)
  bcast_S4x4096_S4x1x4096_0_2 : S4x4096.BroadcastsInDim S4x1x4096 (![0, 2] : Fin 2 → Fin S4x1x4096.rank)
  bcast_S4x4096x1_S4x4096x4096_0_1_2 : S4x4096x1.BroadcastsInDim S4x4096x4096 (![0, 1, 2] : Fin 3 → Fin S4x4096x4096.rank)
  bcast_S4x1x4096_S4x4096x4096_0_1_2 : S4x1x4096.BroadcastsInDim S4x4096x4096 (![0, 1, 2] : Fin 3 → Fin S4x4096x4096.rank)
  bcast_S_S4x4096x4096 : S_.BroadcastsInDim S4x4096x4096 (![] : Fin 0 → Fin S4x4096x4096.rank)
  bcast_S_S4x4096 : S_.BroadcastsInDim S4x4096 (![] : Fin 0 → Fin S4x4096.rank)
  bcast_S4x4096x1_S4x4096x50_0_1_2 : S4x4096x1.BroadcastsInDim S4x4096x50 (![0, 1, 2] : Fin 3 → Fin S4x4096x50.rank)
  bcast_S1x1x50_S4x4096x50_0_1_2 : S1x1x50.BroadcastsInDim S4x4096x50 (![0, 1, 2] : Fin 3 → Fin S4x4096x50.rank)
  bcast_S_S4096x4096 : S_.BroadcastsInDim S4096x4096 (![] : Fin 0 → Fin S4096x4096.rank)
  bcast_S4096x4096_S1x4096x4096_1_2 : S4096x4096.BroadcastsInDim S1x4096x4096 (![1, 2] : Fin 2 → Fin S1x4096x4096.rank)
  bcast_S1x4096x4096_S4x4096x4096_0_1_2 : S1x4096x4096.BroadcastsInDim S4x4096x4096 (![0, 1, 2] : Fin 3 → Fin S4x4096x4096.rank)
  reducesTo_S4x4096x4096_S_d0_1_2 : S4x4096x4096.ReducesTo [0, 1, 2] S_
  dot_S4x64x4096_S4x64x4096_S4x4096x4096_1_1_2_2_0_0_wf : DotDims.WF S4x64x4096 S4x64x4096 S4x4096x4096 [1] [1] [2] [2] [0] [0]
  dot_S4x4096x50_S4x4096x50_S4x4096x4096_2_2_1_1_0_0_wf : DotDims.WF S4x4096x50 S4x4096x50 S4x4096x4096 [2] [2] [1] [1] [0] [0]

variable [Facts₀]

def dot_S4x64x4096_S4x64x4096_S4x4096x4096_1_1_2_2_0_0 : DotDims S4x64x4096 S4x64x4096 S4x4096x4096 where
  lhsContracting := [1]
  rhsContracting := [1]
  lhsNonContracting := [2]
  rhsNonContracting := [2]
  lhsBatch := [0]
  rhsBatch := [0]
  wf := dot_S4x64x4096_S4x64x4096_S4x4096x4096_1_1_2_2_0_0_wf
def dot_S4x4096x50_S4x4096x50_S4x4096x4096_2_2_1_1_0_0 : DotDims S4x4096x50 S4x4096x50 S4x4096x4096 where
  lhsContracting := [2]
  rhsContracting := [2]
  lhsNonContracting := [1]
  rhsNonContracting := [1]
  lhsBatch := [0]
  rhsBatch := [0]
  wf := dot_S4x4096x50_S4x4096x50_S4x4096x4096_2_2_1_1_0_0_wf

class Facts : Prop extends Facts₀ where

variable [Facts]
-- ==== Proof.BodyK.Shared.lean ====
/-
  What the two runs of the kernel body share. The grid is 4 batches by 16 row tiles; the body branches on
  "this is the first row tile of its batch": there it clears the output block and fills the two scratch buffers
  (the features in the narrow format, and every point's squared norm), and at every tile it adds the tile's
  partial sum into the output block. So there are two cases, told apart by the point's number modulo 16.
-/
import proofs.«414545_j15650860827299_3_alg».proof.Proof.Gen.Kernel.Frame
import proofs.«414545_j15650860827299_3_alg».proof.Proof.Gen.Kernel.Skeleton

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The point is the first row tile of its batch: its second grid coordinate is zero (the body's branch condition,
    as the body computes it). -/
abbrev firstTile (i : grid0.Coords) : Prop :=
  (Scalar.cmpi .ne (Scalar.extui (Scalar.cmpi .eq (BitVec.ofNat 32 (i 1).val) 0#32)) 0#32) = 1#1

/-- The first tiles are the points whose number is a multiple of 16. -/
theorem firstTile_iff : ∀ t : Fin cfg0.N, firstTile (grid0.coords t) ↔ t.val % 16 = 0 :=
  (by decide +kernel : ∀ t : Fin grid0.N, firstTile (grid0.coords t) ↔ t.val % 16 = 0)

/-- No window is ever idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel

/-- Each window's current staging memref at point `t`, as the pipeline passes it, and its wholeness. -/
abbrev featM (t : Fin cfg0.N) : Memref sig .tc .vmem S1x64x4096 .f32 := win0_0.stage (cfg0.slots t 0)
abbrev featW (t : Fin cfg0.N) : (featM t).IsWhole := hstage0_0 ((cfg0.slots t 0).cast nbuf0_0)
abbrev labM (t : Fin cfg0.N) : Memref sig .tc .vmem S1x1x4096 .i32 := win0_1.stage (cfg0.slots t 1)
abbrev labW (t : Fin cfg0.N) : (labM t).IsWhole := hstage0_1 ((cfg0.slots t 1).cast nbuf0_1)
abbrev outM (t : Fin cfg0.N) : Memref sig .tc .vmem S1x8x128 .f32 := win0_2.stage (cfg0.slots t 2)
abbrev outW (t : Fin cfg0.N) : (outM t).IsWhole := hstage0_2 ((cfg0.slots t 2).cast nbuf0_2)
/-- The two scratch operands: the narrow-format copy of the batch's features, and the squared norms. -/
abbrev narrowM : Memref sig .tc .vmem S64x4096 .bf16 := Memref.whole cc0_scratch0
abbrev normM : Memref sig .tc .vmem S1x4096 .f32 := Memref.whole cc0_scratch1
/-- Views through which buffer contents are stated. -/
abbrev outV : View sig .tc .vmem S1x8x128 .f32 := (Memref.whole cc0_stg2_0 : Memref sig .tc .vmem S1x8x128 .f32).view
abbrev narrowV : View sig .tc .vmem S64x4096 .bf16 := narrowM.view
abbrev normV : View sig .tc .vmem S1x4096 .f32 := normM.view

/-- What the region's invariant holds besides the windows: the two scratch buffers at some contents and the
    generator register at some state. -/
theorem rest_eq (c : Dev nD) :
    (Pipeline.ΦA spec0 c : sProp 𝕄)
      = iprop(iprop((∃ d, owns (c : Thread nD τ) narrowM fullShare d) ∗ (∃ d, owns (c : Thread nD τ) normM fullShare d)) ∗ (∃ r, prngReg c r)) := by
  unfold Pipeline.ΦA; rw [scopedRest0_eq]; simp only [narrowM, normM, owns_whole]; try rfl

end Cert.Kernel.Body

end
-- ==== Proof.BodyK.RunFirst.lean ====
/-
  The body at the first row tile of a batch: whatever the output block and the two scratch buffers held, it
  clears the output block, fills the scratch buffers from the feature block (the narrow-format copy and the
  squared norms), and then does what every tile does, reading the scratch buffers it has just filled.
-/
import proofs.«414545_j15650860827299_3_alg».proof.Proof.BodyK.Shared

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the output block and in the two scratch buffers at a first tile, with the proof
    that from whole staging memrefs — features at `xf`, labels at `xl`, the output block and the scratch buffers at
    anything — the body runs to a continuation that holds the inputs as they were and the three buffers with
    those pieces written. -/
noncomputable def runFirst (c : Dev nD) (i : grid0.Coords)
    (arg2 : Memref sig .tc .vmem S1x64x4096 .f32) (harg2 : arg2.IsWhole) (arg3 : Memref sig .tc .vmem S1x1x4096 .i32) (harg3 : arg3.IsWhole)
    (arg4 : Memref sig .tc .vmem S1x8x128 .f32) (harg4 : arg4.IsWhole) (arg5 : Memref sig .tc .vmem S64x4096 .bf16) (harg5 : arg5.IsWhole)
    (arg6 : Memref sig .tc .vmem S1x4096 .f32) (harg6 : arg6.IsWhole) (hc : firstTile i)
    (xf : Vec F S1x64x4096 .f32) (xl : Vec F S1x1x4096 .i32) :
    Σ' (L : List (View.Piece (Elt F) S1x8x128 .f32)) (LN : List (View.Piece (Elt F) S64x4096 .bf16)), { LQ : List (View.Piece (Elt F) S1x4096 .f32) //
      ∀ (E : Set ℕ) (K : PUnit → sProp 𝕄),
        iprop(owns (c : Thread nD τ) arg2 fullShare xf ∗ owns (c : Thread nD τ) arg3 fullShare xl ∗ (∃ d, owns (c : Thread nD τ) arg4 fullShare d)
            ∗ (∃ d, owns (c : Thread nD τ) arg5 fullShare d) ∗ (∃ d, owns (c : Thread nD τ) arg6 fullShare d)
            ∗ (iprop(owns (c : Thread nD τ) arg2 fullShare xf ∗ owns (c : Thread nD τ) arg3 fullShare xl
                ∗ (∃ f, arg4.view.loc (c : Thread nD τ) ↦[arg4.view.set]{fullShare} arg4.view.writes (Elt F) f L)
                ∗ (∃ f, arg5.view.loc (c : Thread nD τ) ↦[arg5.view.set]{fullShare} arg5.view.writes (Elt F) f LN)
                ∗ (∃ f, arg6.view.loc (c : Thread nD τ) ↦[arg6.view.set]{fullShare} arg6.view.writes (Elt F) f LQ)) -∗ K ⟨⟩))
          ⊢ wp frame (wpE (defs₀ (F := F)) Variants.none c none) E (cc0__sgpn_kernel i arg2 harg2 arg3 harg3 arg4 harg4 arg5 harg5 arg6 harg6) K } := by
  refine ⟨?_, ?_, ?_, fun E K => ?run⟩
  case run =>
    simp only [cc0__sgpn_kernel_eq_skeleton]; unfold cc0__sgpn_kernel_skel
    unfold owns
    iintro ⟨⟨%f2, %hf2, H2⟩, ⟨%f3, %hf3, H3⟩, ⟨%d4, %f4, -, H4⟩, ⟨%d5, %f5, -, H5⟩, ⟨%d6, %f6, -, H6⟩, Hk⟩
    obtain rfl := harg2.eq_unread hf2; obtain rfl := harg3.eq_unread hf3
    sl_exec (disch := first | exact hc)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; iexact H4
    isplitl [H5]
    · iexists _; iexact H5
    iexists _; iexact H6

end Cert.Kernel.Body

end
-- ==== Proof.BodyK.RunLater.lean ====
/-
  The body at a row tile that is not the first of its batch: it reads the feature block, the label block, the
  two scratch buffers (as the first tile left them) and the output block (as the tile before left it), and stores
  the output block once, whole: the old block plus the tile's partial sum.
-/
import proofs.«414545_j15650860827299_3_alg».proof.Proof.BodyK.Shared

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the output block at a later tile, with the proof that from whole staging
    memrefs — features at `xf`, labels at `xl`, the output block at `xo`, the scratch buffers at `sn`, `sq` — the body
    runs to a continuation that holds the inputs and the scratch buffers as they were and the output block with
    those pieces written. -/
noncomputable def runLater (c : Dev nD) (i : grid0.Coords)
    (arg2 : Memref sig .tc .vmem S1x64x4096 .f32) (harg2 : arg2.IsWhole) (arg3 : Memref sig .tc .vmem S1x1x4096 .i32) (harg3 : arg3.IsWhole)
    (arg4 : Memref sig .tc .vmem S1x8x128 .f32) (harg4 : arg4.IsWhole) (arg5 : Memref sig .tc .vmem S64x4096 .bf16) (harg5 : arg5.IsWhole)
    (arg6 : Memref sig .tc .vmem S1x4096 .f32) (harg6 : arg6.IsWhole) (hc : ¬firstTile i)
    (xf : Vec F S1x64x4096 .f32) (xl : Vec F S1x1x4096 .i32) (xo : Vec F S1x8x128 .f32) (sn : Vec F S64x4096 .bf16) (sq : Vec F S1x4096 .f32) :
    { L : List (View.Piece (Elt F) S1x8x128 .f32) //
      ∀ (E : Set ℕ) (K : PUnit → sProp 𝕄),
        iprop(owns (c : Thread nD τ) arg2 fullShare xf ∗ owns (c : Thread nD τ) arg3 fullShare xl ∗ owns (c : Thread nD τ) arg4 fullShare xo
            ∗ owns (c : Thread nD τ) arg5 fullShare sn ∗ owns (c : Thread nD τ) arg6 fullShare sq
            ∗ (iprop(owns (c : Thread nD τ) arg2 fullShare xf ∗ owns (c : Thread nD τ) arg3 fullShare xl
                ∗ (∃ f, arg4.view.loc (c : Thread nD τ) ↦[arg4.view.set]{fullShare} arg4.view.writes (Elt F) f L)
                ∗ owns (c : Thread nD τ) arg5 fullShare sn ∗ owns (c : Thread nD τ) arg6 fullShare sq) -∗ K ⟨⟩))
          ⊢ wp frame (wpE (defs₀ (F := F)) Variants.none c none) E (cc0__sgpn_kernel i arg2 harg2 arg3 harg3 arg4 harg4 arg5 harg5 arg6 harg6) K } := by
  refine ⟨?_, fun E K => ?run⟩
  case run =>
    simp only [cc0__sgpn_kernel_eq_skeleton]; unfold cc0__sgpn_kernel_skel
    unfold owns
    iintro ⟨⟨%f2, %hf2, H2⟩, ⟨%f3, %hf3, H3⟩, ⟨%f4, %hf4, H4⟩, ⟨%f5, %hf5, H5⟩, ⟨%f6, %hf6, H6⟩, Hk⟩
    obtain rfl := harg2.eq_unread hf2; obtain rfl := harg3.eq_unread hf3; obtain rfl := harg4.eq_unread hf4
    obtain rfl := harg5.eq_unread hf5; obtain rfl := harg6.eq_unread hf6
    sl_exec (disch := first | exact hc)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; iexact H4
    isplitl [H5]
    · iexists _; isplitr; · ipureintro; exact harg5.read_unread _
      iexact H5
    iexists _; isplitr; · ipureintro; exact harg6.read_unread _
    iexact H6

end Cert.Kernel.Body

end
-- ==== Proof.BodyK.Frame.lean ====
/-
  The frame of the program: it runs to its end, faults nowhere, and leaves its argument arrays unchanged.

  Between grid points the kernel carries three things: the output block's staging buffer (an accumulator over
  the 16 row tiles of a batch, written back after the last of them) and its two scratch buffers (filled at a
  batch's first tile, read by all 16). `carried` says what the three hold after each point, by recursion on the
  point: at a first tile what that run leaves; at a later tile the output block as that run leaves it over the
  tile before, the scratch buffers as they were. The region's invariant holds the scratch buffers at `carried`'s
  components, the proof data the output block at its first component; the body obligation is then the two runs.
-/
import proofs.«414545_j15650860827299_3_alg».proof.Proof.BodyK.RunFirst
import proofs.«414545_j15650860827299_3_alg».proof.Proof.BodyK.RunLater

set_option maxRecDepth 16384

noncomputable section

namespace Cert.Kernel.Body

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two runs at a grid point -/

/-- The first-tile run at point `t`, on the memrefs the pipeline passes and the point's input blocks. -/
abbrev firstAt (c : Dev nD) (t : Fin cfg0.N) (h : firstTile (grid0.coords t)) :=
  runFirst (F := F) c (grid0.coords t) (featM t) (featW t) (labM t) (labW t) (outM t) (outW t) narrowM (Memref.isWhole_whole _) normM (Memref.isWhole_whole _) h
    (iblk m c 0 t) (iblk m c 1 t)

/-- The later-tile run at point `t`, over what the output block and the scratch buffers held before it. -/
abbrev laterAt (c : Dev nD) (t : Fin cfg0.N) (h : ¬firstTile (grid0.coords t))
    (xo : Vec F S1x8x128 .f32) (sn : Vec F S64x4096 .bf16) (sq : Vec F S1x4096 .f32) :=
  runLater (F := F) c (grid0.coords t) (featM t) (featW t) (labM t) (labW t) (outM t) (outW t) narrowM (Memref.isWhole_whole _) normM (Memref.isWhole_whole _) h
    (iblk m c 0 t) (iblk m c 1 t) xo sn sq

/-- The output block, the narrow-format copy and the squared norms: what the kernel carries between points. -/
abbrev Carried (F : FTy → Type) [FloatOps F] := Vec F S1x8x128 .f32 × Vec F S64x4096 .bf16 × Vec F S1x4096 .f32

/-- What a first tile leaves in the three buffers: its pieces read back. -/
def leftFirst (c : Dev nD) (t : Fin cfg0.N) (h : firstTile (grid0.coords t)) : Carried F :=
  (outV.read (Elt F) (outV.writes (Elt F) outV.junk (firstAt m c t h).1),
   narrowV.read (Elt F) (narrowV.writes (Elt F) narrowV.junk (firstAt m c t h).2.1),
   normV.read (Elt F) (normV.writes (Elt F) normV.junk (firstAt m c t h).2.2.1))

/-- What a later tile leaves: the output block's pieces read back, the scratch buffers untouched. -/
def leftLater (c : Dev nD) (t : Fin cfg0.N) (h : ¬firstTile (grid0.coords t)) (p : Carried F) : Carried F :=
  (outV.read (Elt F) (outV.writes (Elt F) outV.junk (laterAt m c t h p.1 p.2.1 p.2.2).1), p.2.1, p.2.2)

/-- Each run's pieces cover the buffer they are stored into. -/
theorem cover_out_first (c : Dev nD) (t : Fin cfg0.N) (h : firstTile (grid0.coords t)) (y : S1x8x128.Idx) :
    ∃ pc ∈ (firstAt m c t h).1, y ∈ pc.1.set :=
  View.cover_of_wholeMem (firstAt m c t h).1 (by sl_whole_mem) y
theorem cover_narrow_first (c : Dev nD) (t : Fin cfg0.N) (h : firstTile (grid0.coords t)) (y : S64x4096.Idx) :
    ∃ pc ∈ (firstAt m c t h).2.1, y ∈ pc.1.set :=
  View.cover_of_tiledL (firstAt m c t h).2.1 S64x4096.size (by sl_kernel_rfl) y
theorem cover_norm_first (c : Dev nD) (t : Fin cfg0.N) (h : firstTile (grid0.coords t)) (y : S1x4096.Idx) :
    ∃ pc ∈ (firstAt m c t h).2.2.1, y ∈ pc.1.set :=
  View.cover_of_tiledL (firstAt m c t h).2.2.1 S1x4096.size (by sl_kernel_rfl) y
theorem cover_out_later (c : Dev nD) (t : Fin cfg0.N) (h : ¬firstTile (grid0.coords t))
    (xo : Vec F S1x8x128 .f32) (sn : Vec F S64x4096 .bf16) (sq : Vec F S1x4096 .f32) (y : S1x8x128.Idx) :
    ∃ pc ∈ (laterAt m c t h xo sn sq).1, y ∈ pc.1.set :=
  View.cover_of_tiledL (laterAt m c t h xo sn sq).1 S1x8x128.size (by sl_kernel_rfl) y

/-! ## What the kernel carries after each point -/

/-- After point `n`: a first tile (`n` a multiple of 16) leaves its own three; a later tile updates the output block
    over what point `n - 1` left and keeps the scratch buffers. -/
def carried (c : Dev nD) : (n : ℕ) → n < cfg0.N → Carried F
  | 0, hn => leftFirst m c ⟨0, hn⟩ ((firstTile_iff ⟨0, hn⟩).mpr (Nat.zero_mod _))
  | n + 1, hn =>
    if h : (n + 1) % 16 = 0 then leftFirst m c ⟨n + 1, hn⟩ ((firstTile_iff ⟨n + 1, hn⟩).mpr h)
    else leftLater m c ⟨n + 1, hn⟩ (fun hf => h ((firstTile_iff ⟨n + 1, hn⟩).mp hf)) (carried c n (Nat.lt_of_succ_lt hn))

theorem carried_first (c : Dev nD) (t : Fin cfg0.N) (h : t.val % 16 = 0) :
    carried m c t.val t.isLt = leftFirst m c t ((firstTile_iff t).mpr h) := by
  obtain ⟨n, hn⟩ := t
  cases n with
  | zero => rfl
  | succ n => exact dif_pos h

theorem carried_later (c : Dev nD) (t : Fin cfg0.N) (h : ¬t.val % 16 = 0) :
    carried m c t.val t.isLt = leftLater m c t (fun hf => h ((firstTile_iff t).mp hf))
      (carried m c (t.val - 1) (Nat.lt_of_le_of_lt (Nat.sub_le _ _) t.isLt)) := by
  obtain ⟨n, hn⟩ := t
  cases n with
  | zero => exact absurd (Nat.zero_mod _) h
  | succ n => exact dif_neg h

/-! ## The region's invariant and the proof data -/

/-- Before point `n`: at the start anything in the scratch buffers; afterwards the scratch buffers at what point
    `n - 1` left in them; the generator register at some state throughout. -/
def inv (c : Dev nD) : (n : ℕ) → n ≤ cfg0.N → sProp 𝕄
  | 0, _ => Pipeline.ΦA spec0 c
  | n + 1, hn => iprop(iprop(owns (c : Thread nD τ) narrowM fullShare (carried m c n hn).2.1 ∗ owns (c : Thread nD τ) normM fullShare (carried m c n hn).2.2) ∗ (∃ r, prngReg c r))

theorem inv_zero (c : Dev nD) (n : ℕ) (h : n ≤ cfg0.N) (hz : n = 0) : inv m c n h = Pipeline.ΦA spec0 c := by
  subst hz; rfl

theorem inv_succ (c : Dev nD) (n : ℕ) (hn : n < cfg0.N) :
    inv m c (n + 1) hn = iprop(iprop(owns (c : Thread nD τ) narrowM fullShare (carried m c n hn).2.1 ∗ owns (c : Thread nD τ) normM fullShare (carried m c n hn).2.2) ∗ (∃ r, prngReg c r)) := rfl

theorem inv_pos (c : Dev nD) (n : ℕ) (h : n ≤ cfg0.N) (hz : n ≠ 0) :
    inv m c n h = iprop(iprop(owns (c : Thread nD τ) narrowM fullShare (carried m c (n - 1) (by omega)).2.1 ∗ owns (c : Thread nD τ) normM fullShare (carried m c (n - 1) (by omega)).2.2) ∗ (∃ r, prngReg c r)) := by
  cases n with
  | zero => exact absurd rfl hz
  | succ n => rfl

/-- The proof data of the one pipeline on core `c`: the arrays as the region finds them; after the body each input's
    buffer at its block and the output's at `carried`'s first component; the invariant `inv`; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (carried m c t.val t.isLt).1
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = inv m c t.val (Nat.le_of_lt t.isLt) := by
  dsimp only [dats]; simp only [Fin.coe_castSucc]

theorem after_feat (c : Dev nD) (t : Fin cfg0.N) : (dats m 0 c).after 0 t = iblk m c 0 t := by dsimp only [dats]
theorem after_lab (c : Dev nD) (t : Fin cfg0.N) : (dats m 0 c).after 1 t = iblk m c 1 t := by dsimp only [dats]
theorem after_out (c : Dev nD) (t : Fin cfg0.N) : (dats m 0 c).after 2 t = (carried m c t.val t.isLt).1 := by dsimp only [dats]

/-- The two inputs' staging buffers hold their blocks at every point. -/
theorem before_feat (c : Dev nD) (t : Fin cfg0.N) (d) : (dats m 0 c).before 0 t d = iblk m c 0 t :=
  before0_0_of m (dats m 0 c) (A_eq m c 0) (after_feat m c) t d
theorem before_lab (c : Dev nD) (t : Fin cfg0.N) (d) : (dats m 0 c).before 1 t d = iblk m c 1 t :=
  before0_1_of m (dats m 0 c) (A_eq m c 1) (after_lab m c) t d

/-- At a first tile the output block's staging buffer is fresh: the first point, or the point after a write-back. -/
theorem before_out_first (c : Dev nD) (t : Fin cfg0.N) (h : t.val % 16 = 0) (d) : (dats m 0 c).before 2 t d = d := by
  have hN : t.val < 64 := lt_of_lt_of_eq t.isLt (show cfg0.N = 64 from N_0)
  refine Dat.before_out_reset _ 2 rfl t ?_ d
  by_cases hz : t.val = 0
  · exact .inl hz
  · exact .inr ⟨hz, (flush0_2 _).mpr (by dsimp only; omega)⟩

/-- At a later tile it holds what the tile before left: not written back between. -/
theorem before_out_later (c : Dev nD) (t : Fin cfg0.N) (h : ¬t.val % 16 = 0) (d) :
    (dats m 0 c).before 2 t d = (carried m c (t.val - 1) (Nat.lt_of_le_of_lt (Nat.sub_le _ _) t.isLt)).1 := by
  have hN : t.val < 64 := lt_of_lt_of_eq t.isLt (show cfg0.N = 64 from N_0)
  rw [Dat.before_out_kept _ 2 rfl t (by omega) (Bool.eq_false_iff.mpr fun hf => by have := (flush0_2 _).mp hf; dsimp only at this; omega)
    (fun _ => rfl) (fun _ _ => rfl)]
  dsimp only [dats]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (featM t) fullShare ((dats m 0 c).before 0 t d))
    ∗ (∃ d, owns (c : Thread nD τ) (labM t) fullShare ((dats m 0 c).before 1 t d))
    ∗ (∃ d, owns (c : Thread nD τ) (outM t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

theorem leaves_feat (c : Dev nD) (t : Fin cfg0.N) :
    (dats m 0 c).leavesExact 0 t = owns (c : Thread nD τ) (featM t) fullShare (iblk m c 0 t) := by
  unfold Dat.leavesExact; rw [live0 t, after_feat]
theorem leaves_lab (c : Dev nD) (t : Fin cfg0.N) :
    (dats m 0 c).leavesExact 1 t = owns (c : Thread nD τ) (labM t) fullShare (iblk m c 1 t) := by
  unfold Dat.leavesExact; rw [live1 t, after_lab]
theorem leaves_out (c : Dev nD) (t : Fin cfg0.N) :
    (dats m 0 c).leavesExact 2 t = owns (c : Thread nD τ) (outM t) fullShare (carried m c t.val t.isLt).1 := by
  unfold Dat.leavesExact; rw [live2 t, after_out]

set_option maxHeartbeats 4800000 in
/-- The body at any point: the inputs' buffers hold their blocks; the point's number modulo 16 says which run applies;
    the invariant hands the run the scratch buffers (at anything before the very first point, else at what the
    point before left) and takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_feat, before_lab]
  rw [show (dats m 0 c).owesAt () t.succ = (dats m 0 c).owesAt () t.castSucc from rfl]
  rw [show (dats m 0 c).Φ t.succ = inv m c (t.val + 1) t.isLt from rfl, inv_succ]
  rw [leaves_feat, leaves_lab, leaves_out]
  have hN : t.val < 64 := lt_of_lt_of_eq t.isLt (show cfg0.N = 64 from N_0)
  by_cases h : t.val % 16 = 0
  · simp only [before_out_first m c t h]
    rw [carried_first m c t h]
    unfold leftFirst; dsimp only
    by_cases hz : t.val = 0
    · rw [inv_castSucc m c t, inv_zero m c _ _ hz, rest_eq]
      iintro ⟨⟨⟨HN, HQ⟩, Hg⟩, Ho, ⟨%d0, H0⟩, ⟨%d1, H1⟩, H2⟩
      iapply ((firstAt m c t ((firstTile_iff t).mpr h)).2.2.2 Set.univ _)
      isplitl [H0]; · iexact H0
      isplitl [H1]; · iexact H1
      isplitl [H2]; · iexact H2
      isplitl [HN]; · iexact HN
      isplitl [HQ]; · iexact HQ
      iintro ⟨H0, H1, ⟨%e2, H2⟩, ⟨%e5, HN⟩, ⟨%e6, HQ⟩⟩
      isplitl [HN HQ Hg]
      · isplitl [HN HQ]
        · isplitl [HN]
          · unfold owns; iexists _; isplitr
            swap; · iexact HN
            ipureintro; exact View.read_writes_of_cover _ _ _ _ _ (cover_narrow_first m c t _)
          · unfold owns; iexists _; isplitr
            swap; · iexact HQ
            ipureintro; exact View.read_writes_of_cover _ _ _ _ _ (cover_norm_first m c t _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover_out_first m c t _)
    · rw [inv_castSucc m c t, inv_pos m c _ _ hz]
      iintro ⟨⟨⟨HN, HQ⟩, Hg⟩, Ho, ⟨%d0, H0⟩, ⟨%d1, H1⟩, H2⟩
      iapply ((firstAt m c t ((firstTile_iff t).mpr h)).2.2.2 Set.univ _)
      isplitl [H0]; · iexact H0
      isplitl [H1]; · iexact H1
      isplitl [H2]; · iexact H2
      isplitl [HN]; · iexists _; iexact HN
      isplitl [HQ]; · iexists _; iexact HQ
      iintro ⟨H0, H1, ⟨%e2, H2⟩, ⟨%e5, HN⟩, ⟨%e6, HQ⟩⟩
      isplitl [HN HQ Hg]
      · isplitl [HN HQ]
        · isplitl [HN]
          · unfold owns; iexists _; isplitr
            swap; · iexact HN
            ipureintro; exact View.read_writes_of_cover _ _ _ _ _ (cover_narrow_first m c t _)
          · unfold owns; iexists _; isplitr
            swap; · iexact HQ
            ipureintro; exact View.read_writes_of_cover _ _ _ _ _ (cover_norm_first m c t _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover_out_first m c t _)
  · have hz : t.val ≠ 0 := fun h0 => h (by rw [h0])
    simp only [before_out_later m c t h]
    rw [carried_later m c t h]
    unfold leftLater; dsimp only
    rw [inv_castSucc m c t, inv_pos m c _ _ hz]
    iintro ⟨⟨⟨HN, HQ⟩, Hg⟩, Ho, ⟨%d0, H0⟩, ⟨%d1, H1⟩, ⟨%d2, H2⟩⟩
    iapply ((laterAt m c t (fun hf => h ((firstTile_iff t).mp hf)) _ _ _).2 Set.univ _)
    isplitl [H0]; · iexact H0
    isplitl [H1]; · iexact H1
    isplitl [H2]; · iexact H2
    isplitl [HN]; · iexact HN
    isplitl [HQ]; · iexact HQ
    iintro ⟨H0, H1, ⟨%e2, H2⟩, HN, HQ⟩
    isplitl [HN HQ Hg]
    · isplitl [HN HQ]
      · isplitl [HN]; · iexact HN
        iexact HQ
      iexact Hg
    isplitl [Ho]; · iexact Ho
    isplitl [H0]; · iexact H0
    isplitl [H1]; · iexact H1
    unfold owns; iexists _; isplitr
    swap; · iexact H2
    ipureintro; exact View.read_writes_of_cover _ _ _ _ _ (cover_out_later m c t _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = inv m c 0 (Nat.zero_le _) from rfl, inv_zero m c 0 _ rfl]
  try exact Idealize.SL.BI.Entails.refl _

/-- After the last point the invariant gives the scratch buffers back at some contents. -/
theorem hout (c : Dev nD) : (dats m 0 c).Φ (Fin.last cfg0.N) ⊢ Pipeline.ΦA spec0 c := by
  rw [show (dats m 0 c).Φ (Fin.last cfg0.N) = inv m c (Fin.last cfg0.N).val (Nat.le_of_lt_succ (Fin.last cfg0.N).isLt) from rfl,
    inv_pos m c _ _ (by rw [Fin.val_last]; have : cfg0.N = 64 := N_0; omega), rest_eq]
  iintro ⟨⟨HN, HQ⟩, Hg⟩
  isplitl [HN HQ]
  · isplitl [HN]
    · iexists _; iexact HN
    iexists _; iexact HQ
  iexact Hg

/-! ## The run and the frame -/

set_option backward.isDefEq.respectTransparency.types false in
/-- Every weakly fair execution of the program terminates, and every final state has the pipeline's arrays at what
    the proof data gives and every other unscoped buffer at what the host lines after the region compute. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to its end, faults nowhere, and leaves its three argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Body

end
-- ==== Proof.BodyKI.Shared.lean ====
/-
  What the two runs of the kernel body share. The grid is 4 batches by 16 row tiles; the body branches on
  "this is the first row tile of its batch": there it clears the output block and fills the two scratch buffers
  (the features in the narrow format, and every point's squared norm), and at every tile it adds the tile's
  partial sum into the output block. So there are two cases, told apart by the point's number modulo 16.
-/
import proofs.«414545_j15650860827299_3_alg».proof.Proof.Gen.KernelIdeal.Frame
import proofs.«414545_j15650860827299_3_alg».proof.Proof.Gen.KernelIdeal.Skeleton

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The point is the first row tile of its batch: its second grid coordinate is zero (the body's branch condition,
    as the body computes it). -/
abbrev firstTile (i : grid0.Coords) : Prop :=
  (Scalar.cmpi .ne (Scalar.extui (Scalar.cmpi .eq (BitVec.ofNat 32 (i 1).val) 0#32)) 0#32) = 1#1

/-- The first tiles are the points whose number is a multiple of 16. -/
theorem firstTile_iff : ∀ t : Fin cfg0.N, firstTile (grid0.coords t) ↔ t.val % 16 = 0 :=
  (by decide +kernel : ∀ t : Fin grid0.N, firstTile (grid0.coords t) ↔ t.val % 16 = 0)

/-- No window is ever idle. -/
theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel

/-- Each window's current staging memref at point `t`, as the pipeline passes it, and its wholeness. -/
abbrev featM (t : Fin cfg0.N) : Memref sig .tc .vmem S1x64x4096 .f32 := win0_0.stage (cfg0.slots t 0)
abbrev featW (t : Fin cfg0.N) : (featM t).IsWhole := hstage0_0 ((cfg0.slots t 0).cast nbuf0_0)
abbrev labM (t : Fin cfg0.N) : Memref sig .tc .vmem S1x1x4096 .i32 := win0_1.stage (cfg0.slots t 1)
abbrev labW (t : Fin cfg0.N) : (labM t).IsWhole := hstage0_1 ((cfg0.slots t 1).cast nbuf0_1)
abbrev outM (t : Fin cfg0.N) : Memref sig .tc .vmem S1x8x128 .f32 := win0_2.stage (cfg0.slots t 2)
abbrev outW (t : Fin cfg0.N) : (outM t).IsWhole := hstage0_2 ((cfg0.slots t 2).cast nbuf0_2)
/-- The two scratch operands: the narrow-format copy of the batch's features, and the squared norms. -/
abbrev narrowM : Memref sig .tc .vmem S64x4096 .bf16 := Memref.whole cc0_scratch0
abbrev normM : Memref sig .tc .vmem S1x4096 .f32 := Memref.whole cc0_scratch1
/-- Views through which buffer contents are stated. -/
abbrev outV : View sig .tc .vmem S1x8x128 .f32 := (Memref.whole cc0_stg2_0 : Memref sig .tc .vmem S1x8x128 .f32).view
abbrev narrowV : View sig .tc .vmem S64x4096 .bf16 := narrowM.view
abbrev normV : View sig .tc .vmem S1x4096 .f32 := normM.view

/-- What the region's invariant holds besides the windows: the two scratch buffers at some contents and the
    generator register at some state. -/
theorem rest_eq (c : Dev nD) :
    (Pipeline.ΦA spec0 c : sProp 𝕄)
      = iprop(iprop((∃ d, owns (c : Thread nD τ) narrowM fullShare d) ∗ (∃ d, owns (c : Thread nD τ) normM fullShare d)) ∗ (∃ r, prngReg c r)) := by
  unfold Pipeline.ΦA; rw [scopedRest0_eq]; simp only [narrowM, normM, owns_whole]; try rfl

end Cert.KernelIdeal.Body

end
-- ==== Proof.BodyKI.RunFirst.lean ====
/-
  The body at the first row tile of a batch: whatever the output block and the two scratch buffers held, it
  clears the output block, fills the scratch buffers from the feature block (the narrow-format copy and the
  squared norms), and then does what every tile does, reading the scratch buffers it has just filled.
-/
import proofs.«414545_j15650860827299_3_alg».proof.Proof.BodyKI.Shared

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the output block and in the two scratch buffers at a first tile, with the proof
    that from whole staging memrefs — features at `xf`, labels at `xl`, the output block and the scratch buffers at
    anything — the body runs to a continuation that holds the inputs as they were and the three buffers with
    those pieces written. -/
noncomputable def runFirst (c : Dev nD) (i : grid0.Coords)
    (arg2 : Memref sig .tc .vmem S1x64x4096 .f32) (harg2 : arg2.IsWhole) (arg3 : Memref sig .tc .vmem S1x1x4096 .i32) (harg3 : arg3.IsWhole)
    (arg4 : Memref sig .tc .vmem S1x8x128 .f32) (harg4 : arg4.IsWhole) (arg5 : Memref sig .tc .vmem S64x4096 .bf16) (harg5 : arg5.IsWhole)
    (arg6 : Memref sig .tc .vmem S1x4096 .f32) (harg6 : arg6.IsWhole) (hc : firstTile i)
    (xf : Vec F S1x64x4096 .f32) (xl : Vec F S1x1x4096 .i32) :
    Σ' (L : List (View.Piece (Elt F) S1x8x128 .f32)) (LN : List (View.Piece (Elt F) S64x4096 .bf16)), { LQ : List (View.Piece (Elt F) S1x4096 .f32) //
      ∀ (E : Set ℕ) (K : PUnit → sProp 𝕄),
        iprop(owns (c : Thread nD τ) arg2 fullShare xf ∗ owns (c : Thread nD τ) arg3 fullShare xl ∗ (∃ d, owns (c : Thread nD τ) arg4 fullShare d)
            ∗ (∃ d, owns (c : Thread nD τ) arg5 fullShare d) ∗ (∃ d, owns (c : Thread nD τ) arg6 fullShare d)
            ∗ (iprop(owns (c : Thread nD τ) arg2 fullShare xf ∗ owns (c : Thread nD τ) arg3 fullShare xl
                ∗ (∃ f, arg4.view.loc (c : Thread nD τ) ↦[arg4.view.set]{fullShare} arg4.view.writes (Elt F) f L)
                ∗ (∃ f, arg5.view.loc (c : Thread nD τ) ↦[arg5.view.set]{fullShare} arg5.view.writes (Elt F) f LN)
                ∗ (∃ f, arg6.view.loc (c : Thread nD τ) ↦[arg6.view.set]{fullShare} arg6.view.writes (Elt F) f LQ)) -∗ K ⟨⟩))
          ⊢ wp frame (wpE (defs₀ (F := F)) Variants.none c none) E (cc0__sgpn_kernel i arg2 harg2 arg3 harg3 arg4 harg4 arg5 harg5 arg6 harg6) K } := by
  refine ⟨?_, ?_, ?_, fun E K => ?run⟩
  case run =>
    simp only [cc0__sgpn_kernel_eq_skeleton]; unfold cc0__sgpn_kernel_skel
    unfold owns
    iintro ⟨⟨%f2, %hf2, H2⟩, ⟨%f3, %hf3, H3⟩, ⟨%d4, %f4, -, H4⟩, ⟨%d5, %f5, -, H5⟩, ⟨%d6, %f6, -, H6⟩, Hk⟩
    obtain rfl := harg2.eq_unread hf2; obtain rfl := harg3.eq_unread hf3
    sl_exec (disch := first | exact hc)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; iexact H4
    isplitl [H5]
    · iexists _; iexact H5
    iexists _; iexact H6

end Cert.KernelIdeal.Body

end
-- ==== Proof.BodyKI.RunLater.lean ====
/-
  The body at a row tile that is not the first of its batch: it reads the feature block, the label block, the
  two scratch buffers (as the first tile left them) and the output block (as the tile before left it), and stores
  the output block once, whole: the old block plus the tile's partial sum.
-/
import proofs.«414545_j15650860827299_3_alg».proof.Proof.BodyKI.Shared

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
/-- The pieces the body leaves in the output block at a later tile, with the proof that from whole staging
    memrefs — features at `xf`, labels at `xl`, the output block at `xo`, the scratch buffers at `sn`, `sq` — the body
    runs to a continuation that holds the inputs and the scratch buffers as they were and the output block with
    those pieces written. -/
noncomputable def runLater (c : Dev nD) (i : grid0.Coords)
    (arg2 : Memref sig .tc .vmem S1x64x4096 .f32) (harg2 : arg2.IsWhole) (arg3 : Memref sig .tc .vmem S1x1x4096 .i32) (harg3 : arg3.IsWhole)
    (arg4 : Memref sig .tc .vmem S1x8x128 .f32) (harg4 : arg4.IsWhole) (arg5 : Memref sig .tc .vmem S64x4096 .bf16) (harg5 : arg5.IsWhole)
    (arg6 : Memref sig .tc .vmem S1x4096 .f32) (harg6 : arg6.IsWhole) (hc : ¬firstTile i)
    (xf : Vec F S1x64x4096 .f32) (xl : Vec F S1x1x4096 .i32) (xo : Vec F S1x8x128 .f32) (sn : Vec F S64x4096 .bf16) (sq : Vec F S1x4096 .f32) :
    { L : List (View.Piece (Elt F) S1x8x128 .f32) //
      ∀ (E : Set ℕ) (K : PUnit → sProp 𝕄),
        iprop(owns (c : Thread nD τ) arg2 fullShare xf ∗ owns (c : Thread nD τ) arg3 fullShare xl ∗ owns (c : Thread nD τ) arg4 fullShare xo
            ∗ owns (c : Thread nD τ) arg5 fullShare sn ∗ owns (c : Thread nD τ) arg6 fullShare sq
            ∗ (iprop(owns (c : Thread nD τ) arg2 fullShare xf ∗ owns (c : Thread nD τ) arg3 fullShare xl
                ∗ (∃ f, arg4.view.loc (c : Thread nD τ) ↦[arg4.view.set]{fullShare} arg4.view.writes (Elt F) f L)
                ∗ owns (c : Thread nD τ) arg5 fullShare sn ∗ owns (c : Thread nD τ) arg6 fullShare sq) -∗ K ⟨⟩))
          ⊢ wp frame (wpE (defs₀ (F := F)) Variants.none c none) E (cc0__sgpn_kernel i arg2 harg2 arg3 harg3 arg4 harg4 arg5 harg5 arg6 harg6) K } := by
  refine ⟨?_, fun E K => ?run⟩
  case run =>
    simp only [cc0__sgpn_kernel_eq_skeleton]; unfold cc0__sgpn_kernel_skel
    unfold owns
    iintro ⟨⟨%f2, %hf2, H2⟩, ⟨%f3, %hf3, H3⟩, ⟨%f4, %hf4, H4⟩, ⟨%f5, %hf5, H5⟩, ⟨%f6, %hf6, H6⟩, Hk⟩
    obtain rfl := harg2.eq_unread hf2; obtain rfl := harg3.eq_unread hf3; obtain rfl := harg4.eq_unread hf4
    obtain rfl := harg5.eq_unread hf5; obtain rfl := harg6.eq_unread hf6
    sl_exec (disch := first | exact hc)
    sl_step
    iapply Hk
    isplitl [H2]
    · iexists _; isplitr; · ipureintro; exact harg2.read_unread _
      iexact H2
    isplitl [H3]
    · iexists _; isplitr; · ipureintro; exact harg3.read_unread _
      iexact H3
    isplitl [H4]
    · iexists _; iexact H4
    isplitl [H5]
    · iexists _; isplitr; · ipureintro; exact harg5.read_unread _
      iexact H5
    iexists _; isplitr; · ipureintro; exact harg6.read_unread _
    iexact H6

end Cert.KernelIdeal.Body

end
-- ==== Proof.BodyKI.Frame.lean ====
/-
  The frame of the program: it runs to its end, faults nowhere, and leaves its argument arrays unchanged.

  Between grid points the kernel carries three things: the output block's staging buffer (an accumulator over
  the 16 row tiles of a batch, written back after the last of them) and its two scratch buffers (filled at a
  batch's first tile, read by all 16). `carried` says what the three hold after each point, by recursion on the
  point: at a first tile what that run leaves; at a later tile the output block as that run leaves it over the
  tile before, the scratch buffers as they were. The region's invariant holds the scratch buffers at `carried`'s
  components, the proof data the output block at its first component; the body obligation is then the two runs.
-/
import proofs.«414545_j15650860827299_3_alg».proof.Proof.BodyKI.RunFirst
import proofs.«414545_j15650860827299_3_alg».proof.Proof.BodyKI.RunLater

set_option maxRecDepth 16384

noncomputable section

namespace Cert.KernelIdeal.Body

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two runs at a grid point -/

/-- The first-tile run at point `t`, on the memrefs the pipeline passes and the point's input blocks. -/
abbrev firstAt (c : Dev nD) (t : Fin cfg0.N) (h : firstTile (grid0.coords t)) :=
  runFirst (F := F) c (grid0.coords t) (featM t) (featW t) (labM t) (labW t) (outM t) (outW t) narrowM (Memref.isWhole_whole _) normM (Memref.isWhole_whole _) h
    (iblk m c 0 t) (iblk m c 1 t)

/-- The later-tile run at point `t`, over what the output block and the scratch buffers held before it. -/
abbrev laterAt (c : Dev nD) (t : Fin cfg0.N) (h : ¬firstTile (grid0.coords t))
    (xo : Vec F S1x8x128 .f32) (sn : Vec F S64x4096 .bf16) (sq : Vec F S1x4096 .f32) :=
  runLater (F := F) c (grid0.coords t) (featM t) (featW t) (labM t) (labW t) (outM t) (outW t) narrowM (Memref.isWhole_whole _) normM (Memref.isWhole_whole _) h
    (iblk m c 0 t) (iblk m c 1 t) xo sn sq

/-- The output block, the narrow-format copy and the squared norms: what the kernel carries between points. -/
abbrev Carried (F : FTy → Type) [FloatOps F] := Vec F S1x8x128 .f32 × Vec F S64x4096 .bf16 × Vec F S1x4096 .f32

/-- What a first tile leaves in the three buffers: its pieces read back. -/
def leftFirst (c : Dev nD) (t : Fin cfg0.N) (h : firstTile (grid0.coords t)) : Carried F :=
  (outV.read (Elt F) (outV.writes (Elt F) outV.junk (firstAt m c t h).1),
   narrowV.read (Elt F) (narrowV.writes (Elt F) narrowV.junk (firstAt m c t h).2.1),
   normV.read (Elt F) (normV.writes (Elt F) normV.junk (firstAt m c t h).2.2.1))

/-- What a later tile leaves: the output block's pieces read back, the scratch buffers untouched. -/
def leftLater (c : Dev nD) (t : Fin cfg0.N) (h : ¬firstTile (grid0.coords t)) (p : Carried F) : Carried F :=
  (outV.read (Elt F) (outV.writes (Elt F) outV.junk (laterAt m c t h p.1 p.2.1 p.2.2).1), p.2.1, p.2.2)

/-- Each run's pieces cover the buffer they are stored into. -/
theorem cover_out_first (c : Dev nD) (t : Fin cfg0.N) (h : firstTile (grid0.coords t)) (y : S1x8x128.Idx) :
    ∃ pc ∈ (firstAt m c t h).1, y ∈ pc.1.set :=
  View.cover_of_wholeMem (firstAt m c t h).1 (by sl_whole_mem) y
theorem cover_narrow_first (c : Dev nD) (t : Fin cfg0.N) (h : firstTile (grid0.coords t)) (y : S64x4096.Idx) :
    ∃ pc ∈ (firstAt m c t h).2.1, y ∈ pc.1.set :=
  View.cover_of_tiledL (firstAt m c t h).2.1 S64x4096.size (by sl_kernel_rfl) y
theorem cover_norm_first (c : Dev nD) (t : Fin cfg0.N) (h : firstTile (grid0.coords t)) (y : S1x4096.Idx) :
    ∃ pc ∈ (firstAt m c t h).2.2.1, y ∈ pc.1.set :=
  View.cover_of_tiledL (firstAt m c t h).2.2.1 S1x4096.size (by sl_kernel_rfl) y
theorem cover_out_later (c : Dev nD) (t : Fin cfg0.N) (h : ¬firstTile (grid0.coords t))
    (xo : Vec F S1x8x128 .f32) (sn : Vec F S64x4096 .bf16) (sq : Vec F S1x4096 .f32) (y : S1x8x128.Idx) :
    ∃ pc ∈ (laterAt m c t h xo sn sq).1, y ∈ pc.1.set :=
  View.cover_of_tiledL (laterAt m c t h xo sn sq).1 S1x8x128.size (by sl_kernel_rfl) y

/-! ## What the kernel carries after each point -/

/-- After point `n`: a first tile (`n` a multiple of 16) leaves its own three; a later tile updates the output block
    over what point `n - 1` left and keeps the scratch buffers. -/
def carried (c : Dev nD) : (n : ℕ) → n < cfg0.N → Carried F
  | 0, hn => leftFirst m c ⟨0, hn⟩ ((firstTile_iff ⟨0, hn⟩).mpr (Nat.zero_mod _))
  | n + 1, hn =>
    if h : (n + 1) % 16 = 0 then leftFirst m c ⟨n + 1, hn⟩ ((firstTile_iff ⟨n + 1, hn⟩).mpr h)
    else leftLater m c ⟨n + 1, hn⟩ (fun hf => h ((firstTile_iff ⟨n + 1, hn⟩).mp hf)) (carried c n (Nat.lt_of_succ_lt hn))

theorem carried_first (c : Dev nD) (t : Fin cfg0.N) (h : t.val % 16 = 0) :
    carried m c t.val t.isLt = leftFirst m c t ((firstTile_iff t).mpr h) := by
  obtain ⟨n, hn⟩ := t
  cases n with
  | zero => rfl
  | succ n => exact dif_pos h

theorem carried_later (c : Dev nD) (t : Fin cfg0.N) (h : ¬t.val % 16 = 0) :
    carried m c t.val t.isLt = leftLater m c t (fun hf => h ((firstTile_iff t).mp hf))
      (carried m c (t.val - 1) (Nat.lt_of_le_of_lt (Nat.sub_le _ _) t.isLt)) := by
  obtain ⟨n, hn⟩ := t
  cases n with
  | zero => exact absurd (Nat.zero_mod _) h
  | succ n => exact dif_neg h

/-! ## The region's invariant and the proof data -/

/-- Before point `n`: at the start anything in the scratch buffers; afterwards the scratch buffers at what point
    `n - 1` left in them; the generator register at some state throughout. -/
def inv (c : Dev nD) : (n : ℕ) → n ≤ cfg0.N → sProp 𝕄
  | 0, _ => Pipeline.ΦA spec0 c
  | n + 1, hn => iprop(iprop(owns (c : Thread nD τ) narrowM fullShare (carried m c n hn).2.1 ∗ owns (c : Thread nD τ) normM fullShare (carried m c n hn).2.2) ∗ (∃ r, prngReg c r))

theorem inv_zero (c : Dev nD) (n : ℕ) (h : n ≤ cfg0.N) (hz : n = 0) : inv m c n h = Pipeline.ΦA spec0 c := by
  subst hz; rfl

theorem inv_succ (c : Dev nD) (n : ℕ) (hn : n < cfg0.N) :
    inv m c (n + 1) hn = iprop(iprop(owns (c : Thread nD τ) narrowM fullShare (carried m c n hn).2.1 ∗ owns (c : Thread nD τ) normM fullShare (carried m c n hn).2.2) ∗ (∃ r, prngReg c r)) := rfl

theorem inv_pos (c : Dev nD) (n : ℕ) (h : n ≤ cfg0.N) (hz : n ≠ 0) :
    inv m c n h = iprop(iprop(owns (c : Thread nD τ) narrowM fullShare (carried m c (n - 1) (by omega)).2.1 ∗ owns (c : Thread nD τ) normM fullShare (carried m c (n - 1) (by omega)).2.2) ∗ (∃ r, prngReg c r)) := by
  cases n with
  | zero => exact absurd rfl hz
  | succ n => rfl

/-- The proof data of the one pipeline on core `c`: the arrays as the region finds them; after the body each input's
    buffer at its block and the output's at `carried`'s first component; the invariant `inv`; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => (carried m c t.val t.isLt).1
  Φ t := inv m c t.val (Nat.le_of_lt_succ t.isLt)
  q _ := fullShare
  owed _ := 0

theorem A_eq (c : Dev nD) (w : Fin cfg0.W) : (dats m 0 c).A w = V m c (Pipeline.arrRef spec0 w) := by
  dsimp only [dats]

theorem inv_castSucc (c : Dev nD) (t : Fin cfg0.N) :
    (dats m 0 c).Φ t.castSucc = inv m c t.val (Nat.le_of_lt t.isLt) := by
  dsimp only [dats]; simp only [Fin.coe_castSucc]

theorem after_feat (c : Dev nD) (t : Fin cfg0.N) : (dats m 0 c).after 0 t = iblk m c 0 t := by dsimp only [dats]
theorem after_lab (c : Dev nD) (t : Fin cfg0.N) : (dats m 0 c).after 1 t = iblk m c 1 t := by dsimp only [dats]
theorem after_out (c : Dev nD) (t : Fin cfg0.N) : (dats m 0 c).after 2 t = (carried m c t.val t.isLt).1 := by dsimp only [dats]

/-- The two inputs' staging buffers hold their blocks at every point. -/
theorem before_feat (c : Dev nD) (t : Fin cfg0.N) (d) : (dats m 0 c).before 0 t d = iblk m c 0 t :=
  before0_0_of m (dats m 0 c) (A_eq m c 0) (after_feat m c) t d
theorem before_lab (c : Dev nD) (t : Fin cfg0.N) (d) : (dats m 0 c).before 1 t d = iblk m c 1 t :=
  before0_1_of m (dats m 0 c) (A_eq m c 1) (after_lab m c) t d

/-- At a first tile the output block's staging buffer is fresh: the first point, or the point after a write-back. -/
theorem before_out_first (c : Dev nD) (t : Fin cfg0.N) (h : t.val % 16 = 0) (d) : (dats m 0 c).before 2 t d = d := by
  have hN : t.val < 64 := lt_of_lt_of_eq t.isLt (show cfg0.N = 64 from N_0)
  refine Dat.before_out_reset _ 2 rfl t ?_ d
  by_cases hz : t.val = 0
  · exact .inl hz
  · exact .inr ⟨hz, (flush0_2 _).mpr (by dsimp only; omega)⟩

/-- At a later tile it holds what the tile before left: not written back between. -/
theorem before_out_later (c : Dev nD) (t : Fin cfg0.N) (h : ¬t.val % 16 = 0) (d) :
    (dats m 0 c).before 2 t d = (carried m c (t.val - 1) (Nat.lt_of_le_of_lt (Nat.sub_le _ _) t.isLt)).1 := by
  have hN : t.val < 64 := lt_of_lt_of_eq t.isLt (show cfg0.N = 64 from N_0)
  rw [Dat.before_out_kept _ 2 rfl t (by omega) (Bool.eq_false_iff.mpr fun hf => by have := (flush0_2 _).mp hf; dsimp only at this; omega)
    (fun _ => rfl) (fun _ _ => rfl)]
  dsimp only [dats]

/-! ## The body obligation -/

/-- What the body is called with at point `t`, -/
def bodyPre (c : Dev nD) (t : Fin cfg0.N) : sProp 𝕄 :=
  iprop((dats m 0 c).Φ t.castSucc ∗ (dats m 0 c).owesAt () t.castSucc
    ∗ (∃ d, owns (c : Thread nD τ) (featM t) fullShare ((dats m 0 c).before 0 t d))
    ∗ (∃ d, owns (c : Thread nD τ) (labM t) fullShare ((dats m 0 c).before 1 t d))
    ∗ (∃ d, owns (c : Thread nD τ) (outM t) fullShare ((dats m 0 c).before 2 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t)

theorem leaves_feat (c : Dev nD) (t : Fin cfg0.N) :
    (dats m 0 c).leavesExact 0 t = owns (c : Thread nD τ) (featM t) fullShare (iblk m c 0 t) := by
  unfold Dat.leavesExact; rw [live0 t, after_feat]
theorem leaves_lab (c : Dev nD) (t : Fin cfg0.N) :
    (dats m 0 c).leavesExact 1 t = owns (c : Thread nD τ) (labM t) fullShare (iblk m c 1 t) := by
  unfold Dat.leavesExact; rw [live1 t, after_lab]
theorem leaves_out (c : Dev nD) (t : Fin cfg0.N) :
    (dats m 0 c).leavesExact 2 t = owns (c : Thread nD τ) (outM t) fullShare (carried m c t.val t.isLt).1 := by
  unfold Dat.leavesExact; rw [live2 t, after_out]

set_option maxHeartbeats 4800000 in
/-- The body at any point: the inputs' buffers hold their blocks; the point's number modulo 16 says which run applies;
    the invariant hands the run the scratch buffers (at anything before the very first point, else at what the
    point before left) and takes them back at this point's contents. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_feat, before_lab]
  rw [show (dats m 0 c).owesAt () t.succ = (dats m 0 c).owesAt () t.castSucc from rfl]
  rw [show (dats m 0 c).Φ t.succ = inv m c (t.val + 1) t.isLt from rfl, inv_succ]
  rw [leaves_feat, leaves_lab, leaves_out]
  have hN : t.val < 64 := lt_of_lt_of_eq t.isLt (show cfg0.N = 64 from N_0)
  by_cases h : t.val % 16 = 0
  · simp only [before_out_first m c t h]
    rw [carried_first m c t h]
    unfold leftFirst; dsimp only
    by_cases hz : t.val = 0
    · rw [inv_castSucc m c t, inv_zero m c _ _ hz, rest_eq]
      iintro ⟨⟨⟨HN, HQ⟩, Hg⟩, Ho, ⟨%d0, H0⟩, ⟨%d1, H1⟩, H2⟩
      iapply ((firstAt m c t ((firstTile_iff t).mpr h)).2.2.2 Set.univ _)
      isplitl [H0]; · iexact H0
      isplitl [H1]; · iexact H1
      isplitl [H2]; · iexact H2
      isplitl [HN]; · iexact HN
      isplitl [HQ]; · iexact HQ
      iintro ⟨H0, H1, ⟨%e2, H2⟩, ⟨%e5, HN⟩, ⟨%e6, HQ⟩⟩
      isplitl [HN HQ Hg]
      · isplitl [HN HQ]
        · isplitl [HN]
          · unfold owns; iexists _; isplitr
            swap; · iexact HN
            ipureintro; exact View.read_writes_of_cover _ _ _ _ _ (cover_narrow_first m c t _)
          · unfold owns; iexists _; isplitr
            swap; · iexact HQ
            ipureintro; exact View.read_writes_of_cover _ _ _ _ _ (cover_norm_first m c t _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover_out_first m c t _)
    · rw [inv_castSucc m c t, inv_pos m c _ _ hz]
      iintro ⟨⟨⟨HN, HQ⟩, Hg⟩, Ho, ⟨%d0, H0⟩, ⟨%d1, H1⟩, H2⟩
      iapply ((firstAt m c t ((firstTile_iff t).mpr h)).2.2.2 Set.univ _)
      isplitl [H0]; · iexact H0
      isplitl [H1]; · iexact H1
      isplitl [H2]; · iexact H2
      isplitl [HN]; · iexists _; iexact HN
      isplitl [HQ]; · iexists _; iexact HQ
      iintro ⟨H0, H1, ⟨%e2, H2⟩, ⟨%e5, HN⟩, ⟨%e6, HQ⟩⟩
      isplitl [HN HQ Hg]
      · isplitl [HN HQ]
        · isplitl [HN]
          · unfold owns; iexists _; isplitr
            swap; · iexact HN
            ipureintro; exact View.read_writes_of_cover _ _ _ _ _ (cover_narrow_first m c t _)
          · unfold owns; iexists _; isplitr
            swap; · iexact HQ
            ipureintro; exact View.read_writes_of_cover _ _ _ _ _ (cover_norm_first m c t _)
        iexact Hg
      isplitl [Ho]; · iexact Ho
      isplitl [H0]; · iexact H0
      isplitl [H1]; · iexact H1
      unfold owns; iexists _; isplitr
      swap; · iexact H2
      ipureintro; exact View.read_writes_of_cover _ _ _ _ _ (cover_out_first m c t _)
  · have hz : t.val ≠ 0 := fun h0 => h (by rw [h0])
    simp only [before_out_later m c t h]
    rw [carried_later m c t h]
    unfold leftLater; dsimp only
    rw [inv_castSucc m c t, inv_pos m c _ _ hz]
    iintro ⟨⟨⟨HN, HQ⟩, Hg⟩, Ho, ⟨%d0, H0⟩, ⟨%d1, H1⟩, ⟨%d2, H2⟩⟩
    iapply ((laterAt m c t (fun hf => h ((firstTile_iff t).mp hf)) _ _ _).2 Set.univ _)
    isplitl [H0]; · iexact H0
    isplitl [H1]; · iexact H1
    isplitl [H2]; · iexact H2
    isplitl [HN]; · iexact HN
    isplitl [HQ]; · iexact HQ
    iintro ⟨H0, H1, ⟨%e2, H2⟩, HN, HQ⟩
    isplitl [HN HQ Hg]
    · isplitl [HN HQ]
      · isplitl [HN]; · iexact HN
        iexact HQ
      iexact Hg
    isplitl [Ho]; · iexact Ho
    isplitl [H0]; · iexact H0
    isplitl [H1]; · iexact H1
    unfold owns; iexists _; isplitr
    swap; · iexact H2
    ipureintro; exact View.read_writes_of_cover _ _ _ _ _ (cover_out_later m c t _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = inv m c 0 (Nat.zero_le _) from rfl, inv_zero m c 0 _ rfl]
  try exact Idealize.SL.BI.Entails.refl _

/-- After the last point the invariant gives the scratch buffers back at some contents. -/
theorem hout (c : Dev nD) : (dats m 0 c).Φ (Fin.last cfg0.N) ⊢ Pipeline.ΦA spec0 c := by
  rw [show (dats m 0 c).Φ (Fin.last cfg0.N) = inv m c (Fin.last cfg0.N).val (Nat.le_of_lt_succ (Fin.last cfg0.N).isLt) from rfl,
    inv_pos m c _ _ (by rw [Fin.val_last]; have : cfg0.N = 64 := N_0; omega), rest_eq]
  iintro ⟨⟨HN, HQ⟩, Hg⟩
  isplitl [HN HQ]
  · isplitl [HN]
    · iexists _; iexact HN
    iexists _; iexact HQ
  iexact Hg

/-! ## The run and the frame -/

set_option backward.isDefEq.respectTransparency.types false in
/-- Every weakly fair execution of the program terminates, and every final state has the pipeline's arrays at what
    the proof data gives and every other unscoped buffer at what the host lines after the region compute. -/
theorem run_main : θ_run defs (onTc (τ := τ) (main (F := F))) (s₀ m ρ)
    (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame: the program runs to its end, faults nowhere, and leaves its three argument arrays unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Body

end
-- ==== Proof.KerValue.Tile.lean ====
/-
  The row tile's partial sum as a function of what the body loads.

  The body's loop over the 8 column chunks is unrolled; `chunkRows` is one trip: from the tile's rows (the
  transposed narrow-format features, their squared norms, their labels as numbers, their point numbers and coded
  labels) and one chunk's columns (the narrow-format features, squared norms and labels at 512 consecutive
  points starting at `base`) it forms, for each of the 256 rows, the sum over the chunk's 512 columns of the
  pair's loss term. `tileSum` adds the 8 chunks' row sums onto zero, in order, and sums the 256 rows.
-/
import proofs.«414545_j15650860827299_3_alg».proof.Proof.BodyKI.Frame
import Idealize.ShloMosaic.Lib.Pipeline.Value

set_option maxRecDepth 16384

noncomputable section

namespace Cert.KernelIdeal.KerValue

open Cert.KernelIdeal Cert.KernelIdeal.Gen Cert.KernelIdeal.Body
open Idealize.ShloMosaic Idealize.ShloMosaic.TcCoe Idealize.ShloMosaic.Tactic Idealize.SL.Sem
open Idealize.ShloMosaic.Pipeline (Dat)

variable {F : FTy → Type} [FloatOps F]

/-- One column chunk: for each row of the tile the sum over the chunk's columns of the pair terms (the statements of
    one trip of the body's unrolled loop, from the matrix product to the lane sum). -/
def chunkRows (fiT : FVec F S256x64 .bf16) (ri : FVec F S256x1 .f32) (tf : FVec F S256x1 .f32) (rowIdx rowCode : IVec S256x1 32)
    (base : BitVec 32) (ff : Vec F S64x512 .bf16) (rf : Vec F S1x512 .f32) (tt : Vec F S1x512 .i32) : FVec F S256x1 .f32 :=
  have v36 : FVec F S256x512 .f32 := matmul dot_S256x64_S64x512_S256x512_1_0_0_1_n_n none fiT ff (constant S256x512 .f32 0x00000000#32)
  have v39 : FVec F S256x512 .f32 := broadcastTo S256x512 ri broadcasts_S256x1_S256x512
  have v40 : FVec F S256x512 .f32 := broadcastTo S256x512 rf broadcasts_S1x512_S256x512
  have v41 : FVec F S256x512 .f32 := addf v39 v40
  have cst_15 : F .f32 := Scalar.ofBits .f32 0x40000000#32
  have v42 : FVec F S256x512 .f32 := broadcast S256x512 cst_15
  have v43 : FVec F S256x512 .f32 := mulf v42 v36
  have v44 : FVec F S256x512 .f32 := subf v41 v43
  have cst_16 : F .f32 := Scalar.ofBits .f32 0x00000000#32
  have v45 : FVec F S256x512 .f32 := broadcast S256x512 cst_16
  have v46 : FVec F S256x512 .f32 := maximumf v44 v45
  have v51 : IVec S1x512 32 := shapeCast S1x512 tt shapeCasts_S1x512_S1x512
  have v52 : IVec S1x512 32 := iota .tc S1x512 32 [1] iota_S1x512_d1_w32
  have v53 : IVec S1x512 32 := broadcast S1x512 base
  have v54 : IVec S1x512 32 := addi v53 v52
  have v55 : IVec S1x512 32 := broadcast S1x512 4294967294#32
  have v56 : IVec S1x512 32 := subi v55 v54
  have v57 : IVec S1x512 32 := broadcast S1x512 4294967295#32
  have v58 : IVec S1x512 1 := cmpi .eq v51 v57
  have v59 : IVec S1x512 32 := select v58 v56 v51
  have v60 : IVec S256x512 32 := broadcastTo S256x512 rowCode broadcasts_S256x1_S256x512
  have v61 : IVec S256x512 32 := broadcastTo S256x512 v59 broadcasts_S1x512_S256x512
  have v62 : IVec S256x512 1 := cmpi .eq v60 v61
  have v63 : IVec S256x512 32 := iota .tc S256x512 32 [1] iota_S256x512_d1_w32
  have v64 : IVec S256x512 32 := broadcast S256x512 base
  have v65 : IVec S256x512 32 := addi v64 v63
  have v66 : IVec S256x512 32 := broadcastTo S256x512 rowIdx broadcasts_S256x1_S256x512
  have v67 : IVec S256x512 1 := cmpi .eq v66 v65
  have v68 : IVec S256x512 1 := ori v62 v67
  have v69 : FVec F S1x512 .f32 := sitofp .f32 v51
  have v70 : FVec F S256x512 .f32 := broadcastTo S256x512 tf broadcasts_S256x1_S256x512
  have v71 : FVec F S256x512 .f32 := broadcastTo S256x512 v69 broadcasts_S1x512_S256x512
  have v72 : FVec F S256x512 .f32 := mulf v70 v71
  have cst_22 : F .f32 := Scalar.ofBits .f32 0x3F4CCCCD#32
  have v73 : FVec F S256x512 .f32 := broadcast S256x512 cst_22
  have v74 : FVec F S256x512 .f32 := subf v73 v46
  have cst_23 : F .f32 := Scalar.ofBits .f32 0x00000000#32
  have v75 : FVec F S256x512 .f32 := broadcast S256x512 cst_23
  have v76 : FVec F S256x512 .f32 := maximumf v74 v75
  have cst_24 : F .f32 := Scalar.ofBits .f32 0x40000000#32
  have v77 : FVec F S256x512 .f32 := broadcast S256x512 cst_24
  have v78 : FVec F S256x512 .f32 := mulf v77 v76
  have v79 : FVec F S256x512 .f32 := select v68 v46 v78
  have v80 : FVec F S256x512 .f32 := mulf v79 v72
  have cst_25 : FVec F S256 .f32 := constant S256 .f32 0x00000000#32
  have v81 : FVec F S256 .f32 := multiReduction .add [1] S256 v80 0x00000000#32 reduces_S256x512_S256 (.inl rfl) rfl
  have v82 : FVec F S256x1 .f32 := shapeCast S256x1 v81 shapeCasts_S256_S256x1
  v82

/-- The 8 chunks' row sums added onto zero, first to last. -/
def rowAcc (fiT : FVec F S256x64 .bf16) (ri : FVec F S256x1 .f32) (tf : FVec F S256x1 .f32) (rowIdx rowCode : IVec S256x1 32)
    (ff : Fin 8 → Vec F S64x512 .bf16) (rf : Fin 8 → Vec F S1x512 .f32) (tt : Fin 8 → Vec F S1x512 .i32) : FVec F S256x1 .f32 :=
  addf (addf (addf (addf (addf (addf (addf (addf (k0_pay12 (F := F))
    (chunkRows fiT ri tf rowIdx rowCode 0#32 (ff 0) (rf 0) (tt 0)))
    (chunkRows fiT ri tf rowIdx rowCode 512#32 (ff 1) (rf 1) (tt 1)))
    (chunkRows fiT ri tf rowIdx rowCode 1024#32 (ff 2) (rf 2) (tt 2)))
    (chunkRows fiT ri tf rowIdx rowCode 1536#32 (ff 3) (rf 3) (tt 3)))
    (chunkRows fiT ri tf rowIdx rowCode 2048#32 (ff 4) (rf 4) (tt 4)))
    (chunkRows fiT ri tf rowIdx rowCode 2560#32 (ff 5) (rf 5) (tt 5)))
    (chunkRows fiT ri tf rowIdx rowCode 3072#32 (ff 6) (rf 6) (tt 6)))
    (chunkRows fiT ri tf rowIdx rowCode 3584#32 (ff 7) (rf 7) (tt 7))

/-- The tile's partial sum: the 256 row accumulators summed. -/
def tileSum (fiT : FVec F S256x64 .bf16) (ri : FVec F S256x1 .f32) (tf : FVec F S256x1 .f32) (rowIdx rowCode : IVec S256x1 32)
    (ff : Fin 8 → Vec F S64x512 .bf16) (rf : Fin 8 → Vec F S1x512 .f32) (tt : Fin 8 → Vec F S1x512 .i32) : FVec F S1x1 .f32 :=
  shapeCast S1x1 (multiReduction .add [0] S1 (rowAcc fiT ri tf rowIdx rowCode ff rf tt) 0x00000000#32 reduces_S256x1_S1 (.inl rfl) rfl) shapeCasts_S1_S1x1

/-! ## What the body loads -/

/-- The feature block read as 64 channels by 4096 points (through the squeezed view of its staging buffer). -/
def featFlat (t : Fin cfg0.N) (xf : Vec F S1x64x4096 .f32) : Vec F S64x4096 .f32 :=
  View.read (Elt F) (((featM t).view.slice (Rect.unit (s := S1x64x4096) ![0, 0, 0] S1x64x4096.size inb_S1x64x4096_S1x64x4096_0_0_0)).reshape
    S64x4096 (Shape.Squeezes.numel_eq squeezes_S1x64x4096_S64x4096)) ((featW t).unread xf)
/-- The label block read as one row of 4096 points. -/
def labFlat (t : Fin cfg0.N) (xl : Vec F S1x1x4096 .i32) : Vec F S1x4096 .i32 :=
  View.read (Elt F) (((labM t).view.slice (Rect.unit (s := S1x1x4096) ![0, 0, 0] S1x1x4096.size inb_S1x1x4096_S1x1x4096_0_0_0)).reshape
    S1x4096 (Shape.Squeezes.numel_eq squeezes_S1x1x4096_S1x4096)) ((labW t).unread xl)
/-- The row tile's 256 feature columns. -/
def featTile (t : Fin cfg0.N) (xf : Vec F S1x64x4096 .f32) : Vec F S64x256 .f32 :=
  View.ld (featFlat t xf) (Rect.unit (s := S64x4096) (k0_off1 (grid0.coords t)) S64x256.size (k0_off1_inb (grid0.coords t)))
/-- The row tile's 256 labels. -/
def labTile (t : Fin cfg0.N) (xl : Vec F S1x1x4096 .i32) : Vec F S1x256 .i32 :=
  View.ld (labFlat t xl) (Rect.unit (s := S1x4096) (k0_off2 (grid0.coords t)) S1x256.size (k0_off2_inb (grid0.coords t)))
/-- Column chunk `j`'s 512 labels. -/
def labChunk (t : Fin cfg0.N) (xl : Vec F S1x1x4096 .i32) (j : Fin 8) : Vec F S1x512 .i32 :=
  View.ld (labFlat t xl) (Rect.unit (s := S1x4096) (k0_off4 (BitVec.ofNat 32 j.val)) S1x512.size (k0_off4_inb j))
/-- The two scratch buffers' contents read through their own views: the contents themselves. -/
def narrowFlat (sn : Vec F S64x4096 .bf16) : Vec F S64x4096 .bf16 :=
  View.read (Elt F) narrowM.view ((Memref.isWhole_whole cc0_scratch0).unread sn)
def normFlat (sq : Vec F S1x4096 .f32) : Vec F S1x4096 .f32 :=
  View.read (Elt F) normM.view ((Memref.isWhole_whole cc0_scratch1).unread sq)
theorem narrowFlat_eq (sn : Vec F S64x4096 .bf16) : narrowFlat sn = sn := (Memref.isWhole_whole cc0_scratch0).read_unread sn
theorem normFlat_eq (sq : Vec F S1x4096 .f32) : normFlat sq = sq := (Memref.isWhole_whole cc0_scratch1).read_unread sq
/-- Column chunk `j` of the narrow-format copy. -/
def narrowChunk (sn : Vec F S64x4096 .bf16) (j : Fin 8) : Vec F S64x512 .bf16 :=
  View.ld (narrowFlat sn) (Rect.unit (s := S64x4096) (k0_off3 (BitVec.ofNat 32 j.val)) S64x512.size (k0_off3_inb j))
/-- Column chunk `j` of the squared norms. -/
def normChunk (sq : Vec F S1x4096 .f32) (j : Fin 8) : Vec F S1x512 .f32 :=
  View.ld (normFlat sq) (Rect.unit (s := S1x4096) (k0_off4 (BitVec.ofNat 32 j.val)) S1x512.size (k0_off4_inb j))

/-- The tile's partial sum at point `t`, from the point's two input blocks and the scratch contents. -/
def tilePartial (t : Fin cfg0.N) (xf : Vec F S1x64x4096 .f32) (xl : Vec F S1x1x4096 .i32) (sn : Vec F S64x4096 .bf16) (sq : Vec F S1x4096 .f32) :
    FVec F S1x1 .f32 :=
  tileSum (k0_pay6 (featTile t xf)) (k0_pay7 (featTile t xf)) (k0_pay9 (labTile t xl)) (k0_pay10 (grid0.coords t))
    (k0_pay11 (grid0.coords t) (labTile t xl)) (narrowChunk sn) (normChunk sq) (labChunk t xl)

variable (m : (ℓ : Loc nD τ sig) → Buf (Elt F) ℓ)

theorem hz3 : (![0, 0, 0] : Fin 3 → Nat) = fun _ => 0 := funext fun a => by fin_cases a <;> rfl
theorem hz2 : (![0, 0] : Fin 2 → Nat) = fun _ => 0 := funext fun a => by fin_cases a <;> rfl

set_option maxHeartbeats 2000000 in
/-- A later tile leaves the old output block plus the tile's partial sum (spread over the block). -/
theorem later_out (c : Dev nD) (t : Fin cfg0.N) (h : ¬firstTile (grid0.coords t)) (p : Carried F) :
    (leftLater m c t h p).1 = k0_pay1 (tilePartial t (iblk m c 0 t) (iblk m c 1 t) p.2.1 p.2.2) p.1 := by
  unfold leftLater
  dsimp only
  rw [View.read_writes_eq_canon _ _ _ (cover_out_later m c t h _ _ _)]
  unfold laterAt runLater
  dsimp only
  sl_unfold_words
  rw [View.canon_unit_zero hz3]
  simp only [View.readAt_eq_ld, (outW t).read_unread, View.ld_unit_zero (S := S1x8x128) hz3]
  rfl

end Cert.KernelIdeal.KerValue

end
-- ==== Proof.KerValue.First.lean ====
/-
  What a batch's first row tile leaves: the narrow-format copy of the batch's features and their squared norms in
  the two scratch buffers, and in the output block zero plus the tile's partial sum — the partial sum computed
  from the scratch contents just stored.
-/
import proofs.«414545_j15650860827299_3_alg».proof.Proof.KerValue.Tile

set_option maxRecDepth 16384

noncomputable section

namespace Cert.KernelIdeal.KerValue

open Cert.KernelIdeal Cert.KernelIdeal.Gen Cert.KernelIdeal.Body
open Idealize.ShloMosaic Idealize.ShloMosaic.TcCoe Idealize.ShloMosaic.Tactic Idealize.SL.Sem
open Idealize.ShloMosaic.Pipeline (Dat)

variable {F : FTy → Type} [FloatOps F]

variable (m : (ℓ : Loc nD τ sig) → Buf (Elt F) ℓ)

/-- The first tile stores the narrow-format copy of the feature block, -/
theorem first_narrow (c : Dev nD) (t : Fin cfg0.N) (h : firstTile (grid0.coords t)) :
    (leftFirst m c t h).2.1 = k0_pay4 (iblk m c 0 t) := by
  unfold leftFirst
  dsimp only
  rw [View.read_writes_eq_canon _ _ _ (cover_narrow_first m c t h)]
  unfold firstAt runFirst
  dsimp only
  sl_unfold_words
  rw [View.canon_unit_zero hz2]
  simp only [View.readAt_eq_ld, (featW t).read_unread, View.ld_unit_zero (S := S1x64x4096) hz3]

/-- and every point's squared norm. -/
theorem first_norm (c : Dev nD) (t : Fin cfg0.N) (h : firstTile (grid0.coords t)) :
    (leftFirst m c t h).2.2 = k0_pay5 (iblk m c 0 t) := by
  unfold leftFirst
  dsimp only
  rw [View.read_writes_eq_canon _ _ _ (cover_norm_first m c t h)]
  unfold firstAt runFirst
  dsimp only
  sl_unfold_words
  rw [View.canon_unit_zero hz2]
  simp only [View.readAt_eq_ld, (featW t).read_unread, View.ld_unit_zero (S := S1x64x4096) hz3]

/-- A load through a rectangle of what ONE store of the whole buffer left reads the stored contents there. -/
theorem readCov_whole {S : Shape} {e : EltTy} {κ : Kind} {sp : Space} (v : View sig κ sp S e) {off : Fin S.rank → Nat} (h : off = fun _ => 0)
    (inb : ∀ a, off a + S.size a ≤ S.size a) (X : S.Idx → Elt F e) (r : Rect S) :
    v.readCov [(⟨Rect.unit off S.size inb, X⟩ : View.Piece (Elt F) S e)] r.toLoadRect = View.ld X r := by
  rw [View.readCov_eq_canon', View.canon_unit_zero h]

set_option maxHeartbeats 2000000 in
/-- It leaves in the output block the cleared block plus its own partial sum. -/
theorem first_out (c : Dev nD) (t : Fin cfg0.N) (h : firstTile (grid0.coords t)) :
    (leftFirst m c t h).1
      = k0_pay1 (tilePartial t (iblk m c 0 t) (iblk m c 1 t) (k0_pay4 (iblk m c 0 t)) (k0_pay5 (iblk m c 0 t))) (k0_pay2 (F := F)) := by
  conv_rhs => unfold tilePartial narrowChunk normChunk; simp only [narrowFlat_eq, normFlat_eq]
  unfold leftFirst
  dsimp only
  rw [View.read_writes_eq_canon _ _ _ (cover_out_first m c t h)]
  unfold firstAt runFirst
  dsimp only
  sl_unfold_words
  rw [View.canon_cons_unit_zero (S := S1x8x128) hz3]
  simp only [View.readAt_eq_ld, (featW t).read_unread, View.ld_unit_zero (S := S1x8x128) hz3, View.ld_unit_zero (S := S1x64x4096) hz3,
    View.readCov_unit_zero (S := S1x8x128) _ hz3, readCov_whole (S := S64x4096) _ hz2, readCov_whole (S := S1x4096) _ hz2]
  rfl

end Cert.KernelIdeal.KerValue

end
-- ==== Proof.Sgpn.Spec.lean ====
/-
  The mathematics both programs compute: a pairwise margin loss over point features.

  For a batch `b`, features `x b c n` (channel `c`, point `n`) and integer labels `t b n`:
  the squared distance of points `n`, `m` is `max (|x_n|² + |x_m|² − 2·⟨x_n, x_m⟩) 0`;
  two points are in the same group when they are the same point, or carry the same label
  and that label is a proper group label (not the marker `-1`, and below the group count 50);
  a same-group pair contributes its distance, any other pair twice the hinge `max (margin − distance) 0`;
  every pair is weighted by the product of its two labels read as numbers; the loss is the sum over
  all batches and pairs (the final division by the pair count is the same operation in both programs
  and stays outside).
-/
import Idealize.ShloMosaic.PureOps.Ideal
import Mathlib.Algebra.BigOperators.Group.Finset.Basic

noncomputable section

namespace Sgpn

open Idealize.ShloMosaic

/-- Features: batch, channel, point. -/
abbrev Feat := Fin 4 → Fin 64 → Fin 4096 → EReal
/-- Labels: batch, point. -/
abbrev Lab := Fin 4 → Fin 4096 → BitVec 32

/-- The literal two, as both programs carry it. -/
def two : EReal := Ideal.ofBits .f32 0x40000000#32
/-- The margin literal, as both programs carry it. -/
def margin : EReal := Ideal.ofBits .f32 0x3F4CCCCD#32

variable (x : Feat) (t : Lab)

/-- Squared norm of point `n`'s feature vector. -/
def sq (b : Fin 4) (n : Fin 4096) : EReal := ∑ c : Fin 64, x b c n * x b c n
/-- Inner product of the feature vectors of points `n` and `m`. -/
def gram (b : Fin 4) (n m : Fin 4096) : EReal := ∑ c : Fin 64, x b c n * x b c m
/-- Squared distance, clamped at zero. -/
def dist (b : Fin 4) (n m : Fin 4096) : EReal := max (sq x b n + sq x b m - two * gram x b n m) 0
/-- A label read as a number. -/
def labNum (b : Fin 4) (n : Fin 4096) : EReal := (((t b n).toInt : ℝ) : EReal)
/-- The pair's weight. -/
def weight (b : Fin 4) (n m : Fin 4096) : EReal := labNum t b n * labNum t b m
/-- Same point, or the same proper group label. -/
def sameGroup (b : Fin 4) (n m : Fin 4096) : Prop :=
  n = m ∨ (t b n ≠ 4294967295#32 ∧ t b m ≠ 4294967295#32 ∧ t b n = t b m ∧ (t b n).toNat < 50)

open Classical in
/-- One pair's contribution. -/
def term (b : Fin 4) (n m : Fin 4096) : EReal :=
  (if sameGroup t b n m then dist x b n m else two * max (margin - dist x b n m) 0) * weight t b n m

/-- The loss before its final division. -/
def total : EReal := ∑ b : Fin 4, ∑ n : Fin 4096, ∑ m : Fin 4096, term x t b n m

/-- A feature array of shape 4×64×4096 read by coordinates. -/
def featOf (a : (⟨3, ![4, 64, 4096]⟩ : Shape).Idx → EReal) : Feat :=
  fun b c n => a (fun d => match d with | ⟨0, _⟩ => b | ⟨1, _⟩ => c | ⟨2, _⟩ => n)
/-- A label array of shape 4×4096 read by coordinates. -/
def labOf (a : (⟨2, ![4, 4096]⟩ : Shape).Idx → BitVec 32) : Lab :=
  fun b n => a (fun d => match d with | ⟨0, _⟩ => b | ⟨1, _⟩ => n)

/-- The final divisor literal (the pair count 4·4096·4096), as both programs carry it. -/
def count : EReal := Ideal.ofBits .f32 0x4C800000#32

end Sgpn

end
-- ==== Proof.LibSums.lean ====
/-
  Two general facts about finite sums over `Fin`: a sum over `Fin N` of a function that vanishes from `n` on is
  the sum of its restriction to `Fin n`; and a sum over `Fin (B * S)` is the sum over `B` consecutive blocks of
  `S` terms.
-/
import Mathlib.Algebra.BigOperators.Fin
import Mathlib.Data.Fintype.BigOperators
import Mathlib.Data.Fin.SuccPred
import Mathlib.Logic.Equiv.Fin.Basic

namespace Cert.LibSums

/-- A function on `Fin N` that is `f` below `n` and zero from `n` on sums to the sum of `f`. -/
theorem sum_dite_lt {M : Type*} [AddCommMonoid M] {n N : ℕ} (h : n ≤ N) (f : Fin n → M) :
    ∑ k : Fin N, (if hk : k.val < n then f ⟨k.val, hk⟩ else 0) = ∑ k : Fin n, f k := by
  -- The inclusion `Fin n → Fin N` is injective, the summand vanishes off its range, and on its range the
  -- summand is `f`.
  refine (Fintype.sum_of_injective (Fin.castLE h) (Fin.castLE_injective h) f _ ?_ ?_).symm
  · intro i hi
    by_cases hk : i.val < n
    · exact absurd ⟨⟨i.val, hk⟩, Fin.ext rfl⟩ hi
    · simp only [hk, dite_false]
  · intro i
    have hi : (Fin.castLE h i).val < n := i.isLt
    simp only [hi, dite_true]
    rfl

/-- A sum over `B * S` indices, block by block. -/
theorem blocks_lt {B S : ℕ} (b : Fin B) (s : Fin S) : b.val * S + s.val < B * S :=
  calc b.val * S + s.val < b.val * S + S := Nat.add_lt_add_left s.isLt _
    _ = (b.val + 1) * S := (Nat.succ_mul _ _).symm
    _ ≤ B * S := Nat.mul_le_mul_right _ b.isLt

theorem sum_blocks {M : Type*} [AddCommMonoid M] (B S : ℕ) (f : Fin (B * S) → M) :
    ∑ b : Fin B, ∑ s : Fin S, f ⟨b.val * S + s.val, blocks_lt b s⟩ = ∑ k : Fin (B * S), f k := by
  -- The double sum is a sum over pairs `(b, s)`; the bijection `(b, s) ↦ s + S * b` onto `Fin (B * S)`
  -- carries each summand to the corresponding one.
  rw [← Fintype.sum_prod_type' (fun (b : Fin B) (s : Fin S) => f ⟨b.val * S + s.val, blocks_lt b s⟩)]
  refine Fintype.sum_equiv finProdFinEquiv _ _ ?_
  rintro ⟨b, s⟩
  refine congrArg f (Fin.ext ?_)
  show b.val * S + s.val = s.val + S * b.val
  rw [Nat.mul_comm, Nat.add_comm]

end Cert.LibSums
-- ==== Proof.Sgpn.Laws.lean ====
/-
  Laws of the pair loss: the position-coded labels decide the same groups as the specification's test when
  every label is the marker or a proper group label, and the sum over all pairs can be taken tile by tile.
-/
import proofs.«414545_j15650860827299_3_alg».proof.Proof.Sgpn.Spec
import proofs.«414545_j15650860827299_3_alg».proof.Proof.LibSums

noncomputable section

namespace Sgpn

open Idealize.ShloMosaic

variable (x : Feat) (t : Lab)

/-- Every label is the marker −1 or a group label below 50. -/
def InRange : Prop := ∀ (b : Fin 4) (n : Fin 4096), (-1 : ℤ) ≤ (t b n).toInt ∧ (t b n).toInt < 50

/-- A label with the marker replaced by a code unique to its position: −2 − n. -/
def coded (b : Fin 4) (n : Fin 4096) : BitVec 32 :=
  if t b n = 4294967295#32 then 4294967294#32 - BitVec.ofNat 32 n.val else t b n

/-- A 32-bit word whose signed value lies in [−1, 50) is the all-ones word or an unsigned value below 50:
    a word of unsigned value at least 2³¹ has signed value (unsigned − 2³²), which is ≥ −1 only at 2³² − 1. -/
theorem marker_or_small (v : BitVec 32) (h : (-1 : ℤ) ≤ v.toInt ∧ v.toInt < 50) :
    v = 4294967295#32 ∨ v.toNat < 50 := by
  have hlt := v.isLt
  rw [BitVec.toInt_eq_toNat_cond] at h
  by_cases hv : v.toNat < 50
  · exact Or.inr hv
  · left
    apply BitVec.eq_of_toNat_eq
    simp only [BitVec.toNat_ofNat]
    split_ifs at h <;> omega

/-- The unsigned value of the position code −2 − n is 2³² − 2 − n. -/
theorem code_toNat (n : Fin 4096) :
    (4294967294#32 - BitVec.ofNat 32 n.val).toNat = 4294967294 - n.val := by
  have hn := n.isLt
  rw [BitVec.toNat_sub, BitVec.toNat_ofNat, BitVec.toNat_ofNat]
  omega

theorem coded_eq_iff (ht : InRange t) (b : Fin 4) (n m : Fin 4096) :
    (coded t b n = coded t b m ∨ n = m) ↔ sameGroup t b n m := by
  have hn := marker_or_small (t b n) (ht b n)
  have hm := marker_or_small (t b m) (ht b m)
  have hnlt := n.isLt
  have hmlt := m.isLt
  have cn := code_toNat n
  have cm := code_toNat m
  unfold coded sameGroup
  by_cases en : t b n = 4294967295#32
  · by_cases em : t b m = 4294967295#32
    · -- Both are markers: the codes −2 − n and −2 − m agree only when n = m.
      rw [if_pos en, if_pos em]
      constructor
      · rintro (h | h)
        · left
          have h' := congrArg BitVec.toNat h
          rw [cn, cm] at h'
          exact Fin.ext (by omega)
        · exact Or.inl h
      · rintro (h | ⟨h, _⟩)
        · exact Or.inr h
        · exact absurd en h
    · -- One marker: its code is at least 2³² − 4097, the other label is below 50.
      rw [if_pos en, if_neg em]
      have hm' : (t b m).toNat < 50 := hm.resolve_left em
      constructor
      · rintro (h | h)
        · exfalso
          have h' := congrArg BitVec.toNat h
          rw [cn] at h'
          omega
        · exact Or.inl h
      · rintro (h | ⟨h, _⟩)
        · exact Or.inr h
        · exact absurd en h
  · by_cases em : t b m = 4294967295#32
    · rw [if_neg en, if_pos em]
      have hn' : (t b n).toNat < 50 := hn.resolve_left en
      constructor
      · rintro (h | h)
        · exfalso
          have h' := congrArg BitVec.toNat h
          rw [cm] at h'
          omega
        · exact Or.inl h
      · rintro (h | ⟨_, h, _⟩)
        · exact Or.inr h
        · exact absurd em h
    · -- No marker: both labels are group labels below 50, and the codes are the labels themselves.
      rw [if_neg en, if_neg em]
      have hn' : (t b n).toNat < 50 := hn.resolve_left en
      constructor
      · rintro (h | h)
        · exact Or.inr ⟨en, em, h, hn'⟩
        · exact Or.inl h
      · rintro (h | ⟨_, _, h, _⟩)
        · exact Or.inr h
        · exact Or.inl h

open Classical in
theorem term_of_coded (ht : InRange t) (b : Fin 4) (n m : Fin 4096) :
    (if coded t b n = coded t b m ∨ n = m then dist x b n m else two * max (margin - dist x b n m) 0) * weight t b n m
      = term x t b n m := by
  unfold term
  congr 1
  by_cases h : sameGroup t b n m
  · rw [if_pos h, if_pos ((coded_eq_iff t ht b n m).mpr h)]
  · rw [if_neg h, if_neg (fun h' => h ((coded_eq_iff t ht b n m).mp h'))]

theorem tile_lt_rows (i : Fin 16) (r : Fin 256) : i.val * 256 + r.val < 4096 := by omega
theorem tile_lt_cols (j : Fin 8) (q : Fin 512) : j.val * 512 + q.val < 4096 := by omega

/-- A sum over `N = B · S` indices taken block by block, the product being named `N`. -/
theorem sum_blocks_eq {B S N : ℕ} (h : B * S = N) (g : Fin N → EReal) :
    ∑ b : Fin B, ∑ s : Fin S, g ⟨b.val * S + s.val, h ▸ Cert.LibSums.blocks_lt b s⟩ = ∑ k : Fin N, g k := by
  subst h
  exact Cert.LibSums.sum_blocks B S g

/-- A sum over the 4096 points, taken over 16 consecutive tiles of 256 (4096 = 16 · 256). -/
theorem sum_rows (g : Fin 4096 → EReal) :
    ∑ i : Fin 16, ∑ r : Fin 256, g ⟨i.val * 256 + r.val, tile_lt_rows i r⟩ = ∑ n : Fin 4096, g n :=
  sum_blocks_eq (B := 16) (S := 256) (by norm_num) g

/-- A sum over the 4096 points, taken over 8 consecutive chunks of 512 (4096 = 8 · 512). -/
theorem sum_cols (g : Fin 4096 → EReal) :
    ∑ j : Fin 8, ∑ q : Fin 512, g ⟨j.val * 512 + q.val, tile_lt_cols j q⟩ = ∑ m : Fin 4096, g m :=
  sum_blocks_eq (B := 8) (S := 512) (by norm_num) g

/-- The sum over all pairs of points, taken over 16 row tiles of 256 and, inside a tile row, 8 column chunks of 512. -/
theorem sum_tiles (f : Fin 4096 → Fin 4096 → EReal) :
    ∑ i : Fin 16, ∑ r : Fin 256, ∑ j : Fin 8, ∑ q : Fin 512,
        f ⟨i.val * 256 + r.val, tile_lt_rows i r⟩ ⟨j.val * 512 + q.val, tile_lt_cols j q⟩
      = ∑ n : Fin 4096, ∑ m : Fin 4096, f n m := by
  -- For a fixed row the column chunks add up to the whole row; the rows then add up tile by tile.
  rw [← sum_rows (fun n => ∑ m : Fin 4096, f n m)]
  refine Finset.sum_congr rfl (fun i _ => Finset.sum_congr rfl (fun r _ => ?_))
  exact sum_cols (fun m => f ⟨i.val * 256 + r.val, tile_lt_rows i r⟩ m)

end Sgpn

end
-- ==== Proof.KerValue.Loads.lean ====
/-
  What the body loads, entry by entry: each load is a rectangle of a block (or of a scratch buffer) read at an
  offset; and each input block is one batch of its argument array.
-/
import proofs.«414545_j15650860827299_3_alg».proof.Proof.KerValue.Tile
import proofs.«414545_j15650860827299_3_alg».proof.Proof.Sgpn.Laws
import Idealize.ShloMosaic.Lib.ValueIdx
import Idealize.ShloMosaic.Lib.ValueLayout
import Idealize.ShloMosaic.PureOps.Ideal.Laws

set_option maxRecDepth 16384

noncomputable section

namespace Cert.KernelIdeal.KerValue

open Cert.KernelIdeal Cert.KernelIdeal.Gen Cert.KernelIdeal.Body
open Idealize.ShloMosaic Idealize.ShloMosaic.TcCoe Idealize.ShloMosaic.Tactic Idealize.SL.Sem
open Idealize.ShloMosaic.Pipeline (Dat)

variable {F : FTy → Type} [FloatOps F]

open ValueIdx

theorem tile_col_lt (t : Fin cfg0.N) (r : Fin 256) : (grid0.coords t 1).val * 256 + r.val < 4096 := by
  have h : (grid0.coords t 1).val < 16 := (grid0.coords t 1).isLt
  have hr : r.val < 256 := r.isLt
  omega

/-! ## The loads -/

/-- A load through a unit-stride rectangle of a rank-2 array reads, at `(p, q)`, the array at the rectangle's offsets plus
    `(p, q)`; the offsets are given in closed form and the target coordinates by their values. -/
theorem ld_rect2_apply {Val : EltTy → Type} {e : EltTy} {n0 n1 m0 m1 : ℕ}
    (X : (⟨2, ![n0, n1]⟩ : Shape).Idx → Val e) {off : Fin 2 → ℕ} {o0 o1 : ℕ} (hoff : off = ![o0, o1])
    (inb : ∀ a, off a + (⟨2, ![m0, m1]⟩ : Shape).size a ≤ (⟨2, ![n0, n1]⟩ : Shape).size a)
    (p : Fin m0) (q : Fin m1) (p' : Fin n0) (q' : Fin n1) (h0 : p'.val = o0 + p.val) (h1 : q'.val = o1 + q.val) :
    View.ld X (Rect.unit (s := ⟨2, ![n0, n1]⟩) off (⟨2, ![m0, m1]⟩ : Shape).size inb) (ix2 p q) = X (ix2 p' q') := by
  subst hoff
  show X _ = X _
  congr 1
  funext a
  apply Fin.ext
  match a with
  | ⟨0, _⟩ => show o0 + 1 * p.val = p'.val; omega
  | ⟨1, _⟩ => show o1 + 1 * q.val = q'.val; omega

theorem featFlat_apply (t : Fin cfg0.N) (xf : Vec F S1x64x4096 .f32) (k : Fin 64) (n : Fin 4096) :
    featFlat t xf (ix2 k n) = xf (ix3 0 k n) := by
  have h1 : featFlat t xf (ix2 k n)
      = (featM t).view.read (Elt F) ((featW t).unread xf)
          ((Rect.unit (s := S1x64x4096) ![0, 0, 0] S1x64x4096.size inb_S1x64x4096_S1x64x4096_0_0_0).emb
            (Shape.reshapeEquiv (Shape.Squeezes.numel_eq squeezes_S1x64x4096_S64x4096) (ix2 k n))) := rfl
  rw [h1, (featW t).read_unread, reshapeEquiv_ix2_1ab]
  congr 1
  funext a
  apply Fin.ext
  rw [Rect.emb_apply]
  match a with
  | ⟨0, _⟩ => show 0 + 1 * 0 = 0; omega
  | ⟨1, _⟩ => show 0 + 1 * k.val = k.val; omega
  | ⟨2, _⟩ => show 0 + 1 * n.val = n.val; omega
theorem labFlat_apply (t : Fin cfg0.N) (xl : Vec F S1x1x4096 .i32) (n : Fin 4096) :
    labFlat t xl (ix2 0 n) = xl (ix3 0 0 n) := by
  have h1 : labFlat t xl (ix2 0 n)
      = (labM t).view.read (Elt F) ((labW t).unread xl)
          ((Rect.unit (s := S1x1x4096) ![0, 0, 0] S1x1x4096.size inb_S1x1x4096_S1x1x4096_0_0_0).emb
            (Shape.reshapeEquiv (Shape.Squeezes.numel_eq squeezes_S1x1x4096_S1x4096) (ix2 0 n))) := rfl
  rw [h1, (labW t).read_unread, reshapeEquiv_ix2_1ab]
  congr 1
  funext a
  apply Fin.ext
  rw [Rect.emb_apply]
  match a with
  | ⟨0, _⟩ => show 0 + 1 * 0 = 0; omega
  | ⟨1, _⟩ => show 0 + 1 * 0 = 0; omega
  | ⟨2, _⟩ => show 0 + 1 * n.val = n.val; omega
theorem featTile_apply (t : Fin cfg0.N) (xf : Vec F S1x64x4096 .f32) (k : Fin 64) (r : Fin 256) :
    featTile t xf (ix2 k r) = xf (ix3 0 k ⟨(grid0.coords t 1).val * 256 + r.val, tile_col_lt t r⟩) :=
  (ld_rect2_apply (featFlat t xf) (k0_off1_eq (grid0.coords t)) (k0_off1_inb (grid0.coords t)) k r k
    ⟨(grid0.coords t 1).val * 256 + r.val, tile_col_lt t r⟩ (by omega) (by show _ * 256 + _ = 256 * _ + _; omega)).trans
    (featFlat_apply t xf k _)
theorem labTile_apply (t : Fin cfg0.N) (xl : Vec F S1x1x4096 .i32) (r : Fin 256) :
    labTile t xl (ix2 0 r) = xl (ix3 0 0 ⟨(grid0.coords t 1).val * 256 + r.val, tile_col_lt t r⟩) :=
  (ld_rect2_apply (labFlat t xl) (k0_off2_eq (grid0.coords t)) (k0_off2_inb (grid0.coords t)) 0 r 0
    ⟨(grid0.coords t 1).val * 256 + r.val, tile_col_lt t r⟩ (by omega) (by show _ * 256 + _ = 256 * _ + _; omega)).trans
    (labFlat_apply t xl _)
theorem labChunk_apply (t : Fin cfg0.N) (xl : Vec F S1x1x4096 .i32) (j : Fin 8) (q : Fin 512) :
    labChunk t xl j (ix2 0 q) = xl (ix3 0 0 ⟨j.val * 512 + q.val, Sgpn.tile_lt_cols j q⟩) :=
  (ld_rect2_apply (labFlat t xl) (k0_off4_eq j) (k0_off4_inb j) 0 q 0
    ⟨j.val * 512 + q.val, Sgpn.tile_lt_cols j q⟩ (by omega) (by show _ * 512 + _ = 512 * _ + _; omega)).trans
    (labFlat_apply t xl _)
theorem narrowChunk_apply (sn : Vec F S64x4096 .bf16) (j : Fin 8) (k : Fin 64) (q : Fin 512) :
    narrowChunk sn j (ix2 k q) = sn (ix2 k ⟨j.val * 512 + q.val, Sgpn.tile_lt_cols j q⟩) :=
  (ld_rect2_apply (narrowFlat sn) (k0_off3_eq j) (k0_off3_inb j) k q k
    ⟨j.val * 512 + q.val, Sgpn.tile_lt_cols j q⟩ (by omega) (by show _ * 512 + _ = 512 * _ + _; omega)).trans
    (congrFun (narrowFlat_eq sn) _)
theorem normChunk_apply (sq : Vec F S1x4096 .f32) (j : Fin 8) (q : Fin 512) :
    normChunk sq j (ix2 0 q) = sq (ix2 0 ⟨j.val * 512 + q.val, Sgpn.tile_lt_cols j q⟩) :=
  (ld_rect2_apply (normFlat sq) (k0_off4_eq j) (k0_off4_inb j) 0 q 0
    ⟨j.val * 512 + q.val, Sgpn.tile_lt_cols j q⟩ (by omega) (by show _ * 512 + _ = 512 * _ + _; omega)).trans
    (congrFun (normFlat_eq sq) _)

/-! ## The input blocks -/

variable (m : (ℓ : Loc nD τ sig) → Buf (Elt F) ℓ)

theorem batch_lt (t : Fin cfg0.N) : t.val / 16 < 4 := by
  have : t.val < 64 := lt_of_lt_of_eq t.isLt (show cfg0.N = 64 from N_0)
  omega

/-- The feature block at point `t` is batch `t / 16` of the feature array. -/
theorem featBlk_apply (c : Dev nD) (t : Fin cfg0.N) (k : Fin 64) (n : Fin 4096) :
    (iblk m c 0 t : Vec F S1x64x4096 .f32) (ix3 0 k n) = m ((c.tc : Thread nD τ).loc main_arg1) (ix3 ⟨t.val / 16, batch_lt t⟩ k n) := by
  have hi : win0_0.index t 0 = t.val / 16 ∧ win0_0.index t 1 = 0 ∧ win0_0.index t 2 = 0 :=
    (by decide +kernel : ∀ t : Fin grid0.N, win0_0.index t 0 = t.val / 16 ∧ win0_0.index t 1 = 0 ∧ win0_0.index t 2 = 0) t
  unfold iblk
  rw [View.read_apply]
  show V m c main_arg1 _ = m ((c.tc : Thread nD τ).loc main_arg1) _
  rw [V_main_arg1]
  congr 1
  funext a
  apply Fin.ext
  match a with
  | ⟨0, _⟩ => show win0_0.index t 0 * 1 + 1 * 0 = t.val / 16; rw [hi.1]; omega
  | ⟨1, _⟩ => show win0_0.index t 1 * 64 + 1 * k.val = k.val; rw [hi.2.1]; omega
  | ⟨2, _⟩ => show win0_0.index t 2 * 4096 + 1 * n.val = n.val; rw [hi.2.2]; omega
/-- The label block at point `t` is batch `t / 16` of the label array (the region sees it through a reshape). -/
theorem labBlk_apply (c : Dev nD) (t : Fin cfg0.N) (n : Fin 4096) :
    (iblk m c 1 t : Vec F S1x1x4096 .i32) (ix3 0 0 n) = m ((c.tc : Thread nD τ).loc main_arg2) (ix2 ⟨t.val / 16, batch_lt t⟩ n) := by
  have hi : win0_1.index t 0 = t.val / 16 ∧ win0_1.index t 1 = 0 ∧ win0_1.index t 2 = 0 :=
    (by decide +kernel : ∀ t : Fin grid0.N, win0_1.index t 0 = t.val / 16 ∧ win0_1.index t 1 = 0 ∧ win0_1.index t 2 = 0) t
  have e : (V m c main_v0 : S4x1x4096.Idx → Elt F .i32)
      = shapeCast S4x1x4096 (m ((c.tc : Thread nD τ).loc main_arg2)) shapeCasts_S4x4096_S4x1x4096 := by
    show StableHlo.after hostOps0 (fun b => m (c, b)) (Proc.devRef .tc main_v0) = _
    after_results
    rfl
  unfold iblk
  rw [View.read_apply]
  show V m c main_v0 _ = m ((c.tc : Thread nD τ).loc main_arg2) _
  have hidx : ((cfg0.win 1).blk t).view.emb (ix3 0 0 n) = (ix3 ⟨t.val / 16, batch_lt t⟩ 0 n : S4x1x4096.Idx) := by
    funext a
    apply Fin.ext
    match a with
    | ⟨0, _⟩ => show win0_1.index t 0 * 1 + 1 * 0 = t.val / 16; rw [hi.1]; omega
    | ⟨1, _⟩ => show win0_1.index t 1 * 1 + 1 * 0 = 0; rw [hi.2.1]
    | ⟨2, _⟩ => show win0_1.index t 2 * 4096 + 1 * n.val = n.val; rw [hi.2.2]; omega
  rw [hidx, e]
  refine shapeCast_apply _ _ _ _ ?_
  show (S4x4096.rowMajor (ix2 ⟨t.val / 16, batch_lt t⟩ n)).val = (S4x1x4096.rowMajor (ix3 ⟨t.val / 16, batch_lt t⟩ 0 n)).val
  rw [Shape.rowMajor_val_two, Shape.rowMajor_val_three]
  show t.val / 16 * 4096 + n.val = (t.val / 16 * 1 + 0) * 4096 + n.val
  omega
/-- The second grid coordinate is the point's number modulo 16. -/
theorem tile_of_point (t : Fin cfg0.N) : (grid0.coords t 1).val = t.val % 16 :=
  (by decide +kernel : ∀ t : Fin grid0.N, (grid0.coords t 1).val = t.val % 16) t

end Cert.KernelIdeal.KerValue

end
-- ==== Proof.KerValue.Final.lean ====
/-
  The output array after the run. Over a batch's 16 row tiles the output block accumulates the tiles' partial sums
  (cleared at the first tile); the scratch buffers hold throughout the batch what its first tile stored, which —
  the feature block being the same at all 16 tiles — is the narrow-format copy and the squared norms of the
  CURRENT point's feature block. The block is written back once, after the batch's last tile, so the array ends
  with batch `b`'s block at the accumulator after point `16 b + 15`.
-/
import proofs.«414545_j15650860827299_3_alg».proof.Proof.KerValue.First
import proofs.«414545_j15650860827299_3_alg».proof.Proof.KerValue.Loads
import Idealize.ShloMosaic.Lib.ValueIdx

set_option maxRecDepth 16384

noncomputable section

namespace Cert.KernelIdeal.KerValue

open Cert.KernelIdeal Cert.KernelIdeal.Gen Cert.KernelIdeal.Body
open Idealize.ShloMosaic Idealize.ShloMosaic.TcCoe Idealize.ShloMosaic.Tactic Idealize.SL.Sem
open Idealize.ShloMosaic.Pipeline (Dat)

variable {F : FTy → Type} [FloatOps F]

open ValueIdx

variable (m : (ℓ : Loc nD τ sig) → Buf (Elt F) ℓ)

/-- The row tile's partial sum at point `t`, from the point's own blocks. -/
def tileP (c : Dev nD) (t : Fin cfg0.N) : FVec F S1x1 .f32 :=
  tilePartial t (iblk m c 0 t) (iblk m c 1 t) (k0_pay4 (iblk m c 0 t)) (k0_pay5 (iblk m c 0 t))

/-- The output block's accumulator after point `n`: cleared and restarted at each batch's first tile. -/
def accAt (c : Dev nD) : (n : ℕ) → n < cfg0.N → Vec F S1x8x128 .f32
  | 0, hn => k0_pay1 (tileP m c ⟨0, hn⟩) (k0_pay2 (F := F))
  | n + 1, hn =>
    if (n + 1) % 16 = 0 then k0_pay1 (tileP m c ⟨n + 1, hn⟩) (k0_pay2 (F := F))
    else k0_pay1 (tileP m c ⟨n + 1, hn⟩) (accAt c n (Nat.lt_of_succ_lt hn))

theorem accAt_zero (c : Dev nD) (hn : 0 < cfg0.N) :
    accAt m c 0 hn = k0_pay1 (tileP m c ⟨0, hn⟩) (k0_pay2 (F := F)) := rfl

theorem accAt_succ_first (c : Dev nD) (n : ℕ) (hn : n + 1 < cfg0.N) (h : (n + 1) % 16 = 0) :
    accAt m c (n + 1) hn = k0_pay1 (tileP m c ⟨n + 1, hn⟩) (k0_pay2 (F := F)) := by
  show (if (n + 1) % 16 = 0 then _ else _) = _
  rw [if_pos h]

theorem accAt_succ_later (c : Dev nD) (n : ℕ) (hn : n + 1 < cfg0.N) (h : ¬(n + 1) % 16 = 0) :
    accAt m c (n + 1) hn = k0_pay1 (tileP m c ⟨n + 1, hn⟩) (accAt m c n (Nat.lt_of_succ_lt hn)) := by
  show (if (n + 1) % 16 = 0 then _ else _) = _
  rw [if_neg h]

/-- Two points of one batch see the same feature block: both are that batch of the feature array. -/
theorem featBlk_same (c : Dev nD) (t t' : Fin cfg0.N) (h : t.val / 16 = t'.val / 16) :
    (iblk m c 0 t : Vec F S1x64x4096 .f32) = (iblk m c 0 t' : Vec F S1x64x4096 .f32) := by
  refine funext fun (y : S1x64x4096.Idx) => ?_
  have h0 : y 0 = (0 : Fin 1) := Fin.ext (show (y 0).val = 0 from Nat.lt_one_iff.mp (y 0).isLt)
  have hy : y = ix3 (0 : Fin 1) (y 1 : Fin 64) (y 2 : Fin 4096) := by
    funext a
    match a with
    | ⟨0, _⟩ => exact h0
    | ⟨1, _⟩ => rfl
    | ⟨2, _⟩ => rfl
  obtain ⟨k, n, rfl⟩ : ∃ (k : Fin 64) (n : Fin 4096), y = ix3 (0 : Fin 1) k n := ⟨y 1, y 2, hy⟩
  have e : (⟨t.val / 16, batch_lt t⟩ : Fin 4) = ⟨t'.val / 16, batch_lt t'⟩ := Fin.ext h
  exact (featBlk_apply m c t k n).trans
    ((congrArg (fun b : Fin 4 => m ((c.tc : Thread nD τ).loc main_arg1) (ix3 b k n)) e).trans (featBlk_apply m c t' k n).symm)

/-- What the kernel carries after point `n`, in closed form. -/
theorem carried_eq (c : Dev nD) : ∀ (n : ℕ) (hn : n < cfg0.N),
    carried m c n hn = (accAt m c n hn, k0_pay4 (iblk m c 0 ⟨n, hn⟩), k0_pay5 (iblk m c 0 ⟨n, hn⟩))
  | 0, hn =>
    (carried_first m c ⟨0, hn⟩ (Nat.zero_mod _)).trans
      (Prod.ext ((first_out m c _ _).trans (accAt_zero m c hn).symm) (Prod.ext (first_narrow m c _ _) (first_norm m c _ _)))
  | n + 1, hn => by
    by_cases h : (n + 1) % 16 = 0
    · exact (carried_first m c ⟨n + 1, hn⟩ h).trans
        (Prod.ext ((first_out m c _ _).trans (accAt_succ_first m c n hn h).symm) (Prod.ext (first_narrow m c _ _) (first_norm m c _ _)))
    · have ih := carried_eq c n (Nat.lt_of_succ_lt hn)
      have hl : carried m c (n + 1) hn
          = leftLater m c ⟨n + 1, hn⟩ (fun hf => h ((firstTile_iff ⟨n + 1, hn⟩).mp hf)) (carried m c n (Nat.lt_of_succ_lt hn)) :=
        carried_later m c ⟨n + 1, hn⟩ h
      have hs : (iblk m c 0 ⟨n, Nat.lt_of_succ_lt hn⟩ : Vec F S1x64x4096 .f32) = (iblk m c 0 ⟨n + 1, hn⟩ : Vec F S1x64x4096 .f32) :=
        featBlk_same m c _ _ (by show n / 16 = (n + 1) / 16; omega)
      rw [hl, ih]
      refine Prod.ext ?_ (Prod.ext (congrArg k0_pay4 hs) (congrArg k0_pay5 hs))
      refine (later_out m c _ _ _).trans (Eq.trans ?_ (accAt_succ_later m c n hn h).symm)
      show k0_pay1 (tilePartial ⟨n + 1, hn⟩ (iblk m c 0 ⟨n + 1, hn⟩) (iblk m c 1 ⟨n + 1, hn⟩)
          (k0_pay4 (iblk m c 0 ⟨n, Nat.lt_of_succ_lt hn⟩ : Vec F S1x64x4096 .f32)) (k0_pay5 (iblk m c 0 ⟨n, Nat.lt_of_succ_lt hn⟩ : Vec F S1x64x4096 .f32)))
          (accAt m c n (Nat.lt_of_succ_lt hn))
        = k0_pay1 (tilePartial ⟨n + 1, hn⟩ (iblk m c 0 ⟨n + 1, hn⟩) (iblk m c 1 ⟨n + 1, hn⟩)
          (k0_pay4 (iblk m c 0 ⟨n + 1, hn⟩ : Vec F S1x64x4096 .f32)) (k0_pay5 (iblk m c 0 ⟨n + 1, hn⟩ : Vec F S1x64x4096 .f32)))
          (accAt m c n (Nat.lt_of_succ_lt hn))
      rw [congrArg k0_pay4 hs, congrArg k0_pay5 hs]

theorem last_lt (b : Fin 4) : 16 * b.val + 15 < cfg0.N := by
  rw [show cfg0.N = 64 from N_0]; omega

/-- The output array as the run leaves it: batch `b`'s block is the accumulator after the batch's last tile. -/
def outArr (c : Dev nD) : Vec F S4x8x128 .f32 :=
  fun y => accAt m c (16 * (y 0).val + 15) (last_lt (y 0)) (ix3 0 (y 1) (y 2))

theorem accAt_congr (c : Dev nD) {n n' : ℕ} (hn : n < cfg0.N) (hn' : n' < cfg0.N) (e : n = n') :
    accAt m c n hn = accAt m c n' hn' := by
  subst e; rfl

/-- The output window's block index at point `t`: batch `t / 16`, the whole of the other two axes. -/
theorem win2_index (t : Fin cfg0.N) : win0_2.index t 0 = t.val / 16 ∧ win0_2.index t 1 = 0 ∧ win0_2.index t 2 = 0 :=
  (by decide +kernel : ∀ t : Fin grid0.N, win0_2.index t 0 = t.val / 16 ∧ win0_2.index t 1 = 0 ∧ win0_2.index t 2 = 0) t

/-- A write-back (after a batch's last tile) writes that batch's block of `outArr`. -/
theorem flushed_eq (c : Dev nD) (t : Fin cfg0.N) (hf : (cfg0.win 2).flush t = true) :
    (dats m 0 c).flushed 2 t = ((cfg0.win 2).blk t).view.read (Elt F) (outArr m c) := by
  have h15 : t.val % 16 = 15 := (flush0_2 t).mp hf
  have hN : t.val < 64 := lt_of_lt_of_eq t.isLt (show cfg0.N = 64 from N_0)
  have hi := win2_index t
  show (cfg0.win 2).cut (grid0.coords t) ((dats m 0 c).after 2 t) = _
  rw [after_out, carried_eq]
  refine funext fun (y : S1x8x128.Idx) => ?_
  have hy0 : (y 0).val = 0 := Nat.lt_one_iff.mp (y 0).isLt
  rw [View.read_apply]
  show accAt m c t.val t.isLt ((cfg0.win 2).xinj (grid0.coords t) y) = outArr m c (((cfg0.win 2).blk t).view.emb y)
  unfold outArr
  have e0 : 16 * ((((cfg0.win 2).blk t).view.emb y) 0).val + 15 = t.val := by
    show 16 * (win0_2.index t 0 * 1 + 1 * (y 0).val) + 15 = t.val
    rw [hi.1, hy0]; omega
  refine (congrFun (accAt_congr m c _ _ e0.symm) _).trans (congrArg _ ?_)
  funext a
  apply Fin.ext
  match a with
  | ⟨0, _⟩ => show (y 0).val = 0; exact hy0
  | ⟨1, _⟩ => show (y 1).val = win0_2.index t 1 * 8 + 1 * (y 1).val; rw [hi.2.1]; omega
  | ⟨2, _⟩ => show (y 2).val = win0_2.index t 2 * 128 + 1 * (y 2).val; rw [hi.2.2]; omega

theorem final_out (c : Dev nD) : (dats m 0 c).arrAt 2 cfg0.N = outArr m c :=
  (dats m 0 c).arrAt_eq_of_cover 2 (outArr m c) (flushed_eq m c) fun i => by
    have hb : (i 0).val < 4 := (i 0).isLt
    have h1 : (i 1).val < 8 := (i 1).isLt
    have h2 : (i 2).val < 128 := (i 2).isLt
    have hlt : 16 * (i 0).val + 15 < cfg0.N := by rw [show cfg0.N = 64 from N_0]; omega
    have hi := win2_index ⟨16 * (i 0).val + 15, hlt⟩
    refine ⟨⟨16 * (i 0).val + 15, hlt⟩, (flush0_2 _).mpr (by show (16 * (i 0).val + 15) % 16 = 15; omega), ?_⟩
    show i ∈ ((View.whole main_v1).slice (win0_2.rect ⟨16 * (i 0).val + 15, hlt⟩)).set
    rw [View.set_slice_whole, Rect.mem_set_unit]
    intro a
    match a with
    | ⟨0, _⟩ =>
      show win0_2.index ⟨16 * (i 0).val + 15, hlt⟩ 0 * 1 ≤ (i 0).val ∧ (i 0).val < win0_2.index ⟨16 * (i 0).val + 15, hlt⟩ 0 * 1 + 1
      rw [hi.1]; dsimp only; omega
    | ⟨1, _⟩ =>
      show win0_2.index ⟨16 * (i 0).val + 15, hlt⟩ 1 * 8 ≤ (i 1).val ∧ (i 1).val < win0_2.index ⟨16 * (i 0).val + 15, hlt⟩ 1 * 8 + 8
      rw [hi.2.1]; omega
    | ⟨2, _⟩ =>
      show win0_2.index ⟨16 * (i 0).val + 15, hlt⟩ 2 * 128 ≤ (i 2).val ∧ (i 2).val < win0_2.index ⟨16 * (i 0).val + 15, hlt⟩ 2 * 128 + 128
      rw [hi.2.2]; omega

end Cert.KernelIdeal.KerValue

end
-- ==== Proof.KerValue.ChunkIdeal.lean ====
/-
  One column chunk at the exact reals: each row's entry of `chunkRows` is the sum over the chunk's 512 columns of
  the pair's loss term, and the tile's partial sum is the sum of those over the 256 rows and the 8 chunks.

  The reading goes operation by operation. The layout operations (a column spread over the lanes, a row spread down
  the rows, a vector stood up as a column, the lane number) are read at a pair of coordinates; the matrix product into
  zero is the sum over the 64 channels; the two add-reductions from zero are plain sums; every other operation acts
  entry by entry. The same-group bit is the `or` of two equality bits, so the select on it is the `if` on
  "same coded label, or the same point".
-/
import proofs.«414545_j15650860827299_3_alg».proof.Proof.KerValue.Tile
import proofs.«414545_j15650860827299_3_alg».proof.Proof.Sgpn.Spec
import Idealize.ShloMosaic.Lib.ValueIdx
import Idealize.ShloMosaic.Lib.ValueLayout
import Idealize.ShloMosaic.PureOps.Ideal.Laws

set_option maxRecDepth 16384

noncomputable section

namespace Cert.KernelIdeal.KerValue

open Cert.KernelIdeal Cert.KernelIdeal.Gen Cert.KernelIdeal.Body
open Idealize.ShloMosaic Idealize.ShloMosaic.TcCoe Idealize.ShloMosaic.Tactic Idealize.SL.Sem
open Idealize.ShloMosaic.Pipeline (Dat)

variable {F : FTy → Type} [FloatOps F]

open ValueIdx

/-! ## Layout operations and the two reductions, read at coordinates -/

section Layout
variable {α : Type}

/-- A column `[a, 1]` broadcast to `[a, b]` reads, at `(p, c)`, the column's entry in row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- A vector `[a]` cast to a column `[a, 1]` reads, at `(i, u)`, the vector at `i`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Layout

/-- The lane sum of a `[256, 512]` array at row `r`: the sum over the row's 512 entries. -/
theorem laneSum_apply (v : FVec Ideal S256x512 .f32) (hacc : (0x00000000#32 : BitVec 32) = 0x00000000#32) (r : Fin 256) :
    multiReduction .add [1] S256 v 0x00000000#32 reduces_S256x512_S256 (.inl rfl) hacc (ix1 r) = ∑ q : Fin 512, v (ix2 r q) := by
  refine (Ideal.multiReduction_add_single v 0x00000000#32 reduces_S256x512_S256 (.inl rfl) hacc (ix1 r)).trans ?_
  show ∑ q : Fin 512, v (reduces_S256x512_S256.lift (ix1 r) q) = _
  refine Finset.sum_congr rfl fun q _ => congrArg v ?_
  funext a
  match a with
  | ⟨0, _⟩ => rfl
  | ⟨1, _⟩ => rfl

/-- The sum down a `[256, 1]` column. -/
theorem colSum_apply (v : FVec Ideal S256x1 .f32) (hacc : (0x00000000#32 : BitVec 32) = 0x00000000#32) (u : Fin 1) :
    multiReduction .add [0] S1 v 0x00000000#32 reduces_S256x1_S1 (.inl rfl) hacc (ix1 u) = ∑ r : Fin 256, v (ix2 r 0) := by
  refine (Ideal.multiReduction_add_single v 0x00000000#32 reduces_S256x1_S1 (.inl rfl) hacc (ix1 u)).trans ?_
  show ∑ r : Fin 256, v (reduces_S256x1_S1.lift (ix1 u) r) = _
  refine Finset.sum_congr rfl fun r _ => congrArg v ?_
  funext a
  match a with
  | ⟨0, _⟩ => rfl
  | ⟨1, _⟩ => exact Fin.ext (by have := u.isLt; show u.val = 0; omega)

/-! ## The matrix product at an entry -/

theorem lhs_gram_0 (i : S256x512.Idx) (q : dot_S256x64_S64x512_S256x512_1_0_0_1_n_n.contr.Idx) :
    (dot_S256x64_S64x512_S256x512_1_0_0_1_n_n.lhsIdx i q 0).val = (i 0).val := by
  unfold DotDims.lhsIdx
  rw [dif_neg (show ¬(0 : Fin S256x64.rank) ∈ dot_S256x64_S64x512_S256x512_1_0_0_1_n_n.lhsBatch by decide), dif_pos (show (0 : Fin S256x64.rank) ∈ dot_S256x64_S64x512_S256x512_1_0_0_1_n_n.lhsNonContracting by decide)]
  rfl
theorem lhs_gram_1 (i : S256x512.Idx) (q : dot_S256x64_S64x512_S256x512_1_0_0_1_n_n.contr.Idx) :
    (dot_S256x64_S64x512_S256x512_1_0_0_1_n_n.lhsIdx i q 1).val = (q ⟨0, by decide⟩).val :=
  dot_S256x64_S64x512_S256x512_1_0_0_1_n_n.lhsIdx_val_of_single rfl i q
theorem rhs_gram_0 (i : S256x512.Idx) (q : dot_S256x64_S64x512_S256x512_1_0_0_1_n_n.contr.Idx) :
    (dot_S256x64_S64x512_S256x512_1_0_0_1_n_n.rhsIdx i q 0).val = (q ⟨0, by decide⟩).val :=
  dot_S256x64_S64x512_S256x512_1_0_0_1_n_n.rhsIdx_val_of_single rfl i q
theorem rhs_gram_1 (i : S256x512.Idx) (q : dot_S256x64_S64x512_S256x512_1_0_0_1_n_n.contr.Idx) :
    (dot_S256x64_S64x512_S256x512_1_0_0_1_n_n.rhsIdx i q 1).val = (i 1).val := by
  unfold DotDims.rhsIdx
  rw [dif_neg (show ¬(1 : Fin S64x512.rank) ∈ dot_S256x64_S64x512_S256x512_1_0_0_1_n_n.rhsBatch by decide), dif_pos (show (1 : Fin S64x512.rank) ∈ dot_S256x64_S64x512_S256x512_1_0_0_1_n_n.rhsNonContracting by decide)]
  rfl

/-- The product of the tile's rows with the chunk's columns, into zero: at `(r, q)` the sum over the 64 channels. -/
theorem gram_apply (A : FVec Ideal S256x64 .bf16) (B : FVec Ideal S64x512 .bf16) (r : Fin 256) (q : Fin 512) :
    matmul dot_S256x64_S64x512_S256x512_1_0_0_1_n_n none A B (constant (F := Ideal) S256x512 .f32 0x00000000#32) (ix2 r q)
      = ∑ k : Fin 64, A (ix2 r k) * B (ix2 k q) := by
  simp only [matmul]
  rw [Ideal.matmul_constant_zero_apply, ← Equiv.sum_comp (contrEquiv1 dot_S256x64_S64x512_S256x512_1_0_0_1_n_n 64 rfl rfl).symm]
  refine Finset.sum_congr rfl fun k _ => ?_
  have hk := contrEquiv1_symm_val dot_S256x64_S64x512_S256x512_1_0_0_1_n_n 64 rfl rfl k
  have el : dot_S256x64_S64x512_S256x512_1_0_0_1_n_n.lhsIdx (ix2 r q) ((contrEquiv1 dot_S256x64_S64x512_S256x512_1_0_0_1_n_n 64 rfl rfl).symm k) = ix2 r k := funext fun a => Fin.ext (by
    match a with
    | ⟨0, _⟩ => exact lhs_gram_0 _ _
    | ⟨1, _⟩ => exact (lhs_gram_1 _ _).trans hk)
  have er : dot_S256x64_S64x512_S256x512_1_0_0_1_n_n.rhsIdx (ix2 r q) ((contrEquiv1 dot_S256x64_S64x512_S256x512_1_0_0_1_n_n 64 rfl rfl).symm k) = ix2 k q := funext fun a => Fin.ext (by
    match a with
    | ⟨0, _⟩ => exact (rhs_gram_0 _ _).trans hk
    | ⟨1, _⟩ => exact rhs_gram_1 _ _)
  rw [el, er]

/-! ## Words -/

/-- A select on a one-bit word that says `P` is the `if` on `P`. -/
theorem select_eq_ite {α : Type} (c : BitVec 1) (P : Prop) [Decidable P] (h : c = 1#1 ↔ P) (a b : α) :
    Scalar.select c a b = if P then a else b := by
  unfold Scalar.select
  exact if_congr h rfl rfl

/-- The `or` of two one-bit words is set exactly when one of them is. -/
theorem ori_eq_one_iff (a b : BitVec 1) : IntOp.ori a b = 1#1 ↔ a = 1#1 ∨ b = 1#1 := by
  rcases BitVec.eq_zero_or_eq_one a with ha | ha <;> rcases BitVec.eq_zero_or_eq_one b with hb | hb <;> subst ha <;> subst hb <;> decide

/-- The lane number in a `[1, 512]` row, at `(0, q)`. -/
theorem laneRow_apply (u : Fin 1) (q : Fin 512) : iota .tc S1x512 32 [1] iota_S1x512_d1_w32 (ix2 u q) = BitVec.ofNat 32 q.val :=
  iota_single_apply .tc S1x512 32 1 iota_S1x512_d1_w32 (ix2 u q)
/-- The lane number in a `[256, 512]` array, at `(r, q)`. -/
theorem laneAll_apply (r : Fin 256) (q : Fin 512) : iota .tc S256x512 32 [1] iota_S256x512_d1_w32 (ix2 r q) = BitVec.ofNat 32 q.val :=
  iota_single_apply .tc S256x512 32 1 iota_S256x512_d1_w32 (ix2 r q)

/-- An equality test's bit is set exactly when the two words are equal. -/
theorem cmpi_eq_one_iff {w : Nat} (a b : BitVec w) : IntOp.cmpi .eq a b = 1#1 ↔ a = b := by
  show BitVec.ofBool (a == b) = 1#1 ↔ a = b
  cases hab : (a == b)
  · exact ⟨fun h => absurd h (by decide), fun h => by rw [beq_iff_eq.mpr h] at hab; exact absurd hab (by decide)⟩
  · exact ⟨fun _ => beq_iff_eq.mp hab, fun _ => rfl⟩

/-! ## Pointwise integer operations at an index -/

section Pointwise
variable {s : Shape} {w : Nat}
theorem cmpiV_apply (p : CmpIPredicate) (x y : IVec s w) (i : s.Idx) : cmpi p x y i = IntOp.cmpi p (x i) (y i) := rfl
theorem oriV_apply (x y : IVec s w) (i : s.Idx) : ori x y i = IntOp.ori (x i) (y i) := rfl
theorem addiV_apply (x y : IVec s w) (i : s.Idx) : addi x y i = IntOp.addi (x i) (y i) := rfl
theorem subiV_apply (x y : IVec s w) (i : s.Idx) : subi x y i = IntOp.subi (x i) (y i) := rfl
end Pointwise

/-! ## One chunk, and the tile -/

section Chunk

variable (fiT : FVec Ideal S256x64 .bf16) (ri tf : FVec Ideal S256x1 .f32) (rowIdx rowCode : IVec S256x1 32)
  (base : BitVec 32) (ff : Vec Ideal S64x512 .bf16) (rf : Vec Ideal S1x512 .f32) (tt : Vec Ideal S1x512 .i32)

/-- Squared distance of the tile's row `r` and the chunk's column `q`, clamped at zero. -/
def cDist (r : Fin 256) (q : Fin 512) : EReal :=
  max (ri (ix2 r 0) + rf (ix2 0 q) - Sgpn.two * ∑ k : Fin 64, fiT (ix2 r k) * ff (ix2 k q)) 0
/-- The column's coded label: the marker replaced by −2 − (its point number). -/
def cCode (q : Fin 512) : BitVec 32 :=
  if tt (ix2 0 q) = 4294967295#32 then 4294967294#32 - (base + BitVec.ofNat 32 q.val) else tt (ix2 0 q)
/-- Same coded label, or the same point. -/
def cSame (r : Fin 256) (q : Fin 512) : Prop :=
  rowCode (ix2 r 0) = cCode base tt q ∨ rowIdx (ix2 r 0) = base + BitVec.ofNat 32 q.val
open Classical in
/-- The pair's loss term. -/
def cTerm (r : Fin 256) (q : Fin 512) : EReal :=
  (if cSame rowIdx rowCode base tt r q then cDist fiT ri ff rf r q else Sgpn.two * max (Sgpn.margin - cDist fiT ri ff rf r q) 0)
    * (tf (ix2 r 0) * (((tt (ix2 0 q)).toInt : ℝ) : EReal))

open Classical in
theorem chunkRows_apply (r : Fin 256) :
    chunkRows (F := Ideal) fiT ri tf rowIdx rowCode base ff rf tt (ix2 r 0)
      = ∑ q : Fin 512, cTerm fiT ri tf rowIdx rowCode base ff rf tt r q := by
  unfold chunkRows
  dsimp only
  refine (shapeCast_a_a1_apply _ _ r 0).trans ((laneSum_apply _ _ r).trans (Finset.sum_congr rfl fun q _ => ?_))
  simp only [mulf_apply, subf_apply, addf_apply, maximumf_apply, select_apply, sitofp_apply, broadcast_apply,
    cmpiV_apply, oriV_apply, addiV_apply, subiV_apply,
    gram_apply, broadcastTo_a1_ab_apply, broadcastTo_1b_ab_apply, shapeCast_self,
    Ideal.ofBits_def, Ideal.ofBits_zero_f32]
  rw [laneRow_apply]
  rw [laneAll_apply]
  unfold cTerm
  rw [select_eq_ite _ (cSame rowIdx rowCode base tt r q) ?_]
  · rfl
  · rw [ori_eq_one_iff, cmpi_eq_one_iff, cmpi_eq_one_iff]
    unfold cSame cCode
    rw [select_eq_ite _ _ (cmpi_eq_one_iff _ _)]
    rfl

end Chunk

/-- The zero column the row accumulators start from. -/
theorem zeroCol_apply (i : S256x1.Idx) : k0_pay12 (F := Ideal) i = 0 := by
  unfold k0_pay12
  exact Ideal.ofBits_zero_f32

theorem tileSum_apply (fiT : FVec Ideal S256x64 .bf16) (ri tf : FVec Ideal S256x1 .f32) (rowIdx rowCode : IVec S256x1 32)
    (ff : Fin 8 → Vec Ideal S64x512 .bf16) (rf : Fin 8 → Vec Ideal S1x512 .f32) (tt : Fin 8 → Vec Ideal S1x512 .i32) :
    tileSum (F := Ideal) fiT ri tf rowIdx rowCode ff rf tt (ix2 0 0)
      = ∑ r : Fin 256, ∑ j : Fin 8, ∑ q : Fin 512,
          cTerm fiT ri tf rowIdx rowCode (BitVec.ofNat 32 (j.val * 512)) (ff j) (rf j) (tt j) r q := by
  unfold tileSum
  refine (shapeCast_a_1a_apply _ _ 0 0).trans ((colSum_apply _ _ 0).trans (Finset.sum_congr rfl fun r _ => ?_))
  unfold rowAcc
  simp only [addf_apply, chunkRows_apply]
  rw [zeroCol_apply, zero_add, Fin.sum_univ_eight]
  rfl

end Cert.KernelIdeal.KerValue

end
-- ==== Proof.KerValue.Pays.lean ====
/-
  The small values the body computes from the row tile's loads, read at a row — the transposed features, the
  squared norms, the labels as numbers, the point numbers and the coded labels — and what the first tile stores in
  the two scratch buffers, read at an entry.
-/
import proofs.«414545_j15650860827299_3_alg».proof.Proof.KerValue.Tile
import Idealize.ShloMosaic.Lib.ValueIdx
import Idealize.ShloMosaic.Lib.ValueLayout
import Idealize.ShloMosaic.PureOps.Ideal.Laws

set_option maxRecDepth 16384

noncomputable section

namespace Cert.KernelIdeal.KerValue

open Cert.KernelIdeal Cert.KernelIdeal.Gen Cert.KernelIdeal.Body
open Idealize.ShloMosaic Idealize.ShloMosaic.TcCoe Idealize.ShloMosaic.Tactic Idealize.SL.Sem
open Idealize.ShloMosaic.Pipeline (Dat)

variable {F : FTy → Type} [FloatOps F]

open ValueIdx

/-! ## Three small facts: the index a column sum inserts, and the equality bit of two words -/

/-- A sum over the leading axis of an [a, b] matrix, read at column r, runs over the entries (k, r): the index it
    inserts at position k is the pair (k, r). -/
private theorem lift0_ix1 {a b : ℕ} (h : (⟨2, ![a, b]⟩ : Shape).Reduces [0] ⟨1, ![b]⟩) (r : Fin b) (k : Fin a) :
    h.lift (ix1 r) k = ix2 k r := by
  funext c
  match c with
  | ⟨0, _⟩ => exact Fin.ext rfl
  | ⟨1, _⟩ => exact Fin.ext rfl

/-- The equality comparison of a word with itself is the set bit. -/
private theorem cmpi_eq_self {w : ℕ} (a : BitVec w) : IntOp.cmpi .eq a a = 1#1 := by
  show BitVec.ofBool (a == a) = 1#1
  rw [beq_self_eq_true]; rfl

/-- The equality comparison of two different words is the clear bit. -/
private theorem cmpi_eq_of_ne {w : ℕ} {a b : BitVec w} (h : a ≠ b) : IntOp.cmpi .eq a b = 0#1 := by
  show BitVec.ofBool (a == b) = 0#1
  rw [beq_eq_false_iff_ne.2 h]; rfl

/-! ## The row tile's values, and what the first tile stores in the scratch buffers -/

/-- The transposed features: entry (r, k) of the transpose of the 64 × 256 tile is its entry (k, r); narrowing the
    format changes no value at the extended reals. -/
theorem pay6_apply (v8 : Vec Ideal S64x256 .f32) (r : Fin 256) (k : Fin 64) :
    k0_pay6 (F := Ideal) v8 (ix2 r k) = v8 (ix2 k r) :=
  (transpose_ix2_apply (truncf .bf16 v8 bitsLt_bf16_f32 : FVec Ideal S64x256 .bf16)
    transposes_S64x256_p1_0_S256x64 r k).trans rfl

/-- The squared norms as a column: row r holds the sum over the 64 channels k of the square of entry (k, r). The
    column is the transpose of the one-row form of the sums down the columns of the entrywise square. -/
theorem pay7_apply (v8 : Vec Ideal S64x256 .f32) (r : Fin 256) :
    k0_pay7 (F := Ideal) v8 (ix2 r 0) = ∑ k : Fin 64, v8 (ix2 k r) * v8 (ix2 k r) := by
  unfold k0_pay7
  dsimp only
  -- column entry (r, 0) is row entry (0, r), which is entry r of the vector of column sums
  refine (transpose_ix2_apply _ transposes_S1x256_p1_0_S256x1 r (0 : Fin 1)).trans ?_
  refine (shapeCast_a_1a_apply _ shapeCasts_S256_S1x256 (0 : Fin 1) r).trans ?_
  -- a sum from zero down the leading axis is the plain sum over k of the entries (k, r)
  refine (Ideal.multiReduction_add_single (mulf v8 v8 : FVec Ideal S64x256 .f32) 0x00000000#32
    reduces_S64x256_S256 (.inl rfl) rfl (ix1 r)).trans ?_
  refine Finset.sum_congr rfl fun (k : Fin 64) _ => ?_
  exact congrArg (fun j => v8 j * v8 j) (lift0_ix1 reduces_S64x256_S256 r k)

/-- The labels as a column of words: row r holds the label at (0, r) of the one-row tile (any number format: the
    labels are integer words). -/
theorem pay8_apply (v18 : Vec F S1x256 .i32) (r : Fin 256) :
    k0_pay8 (F := F) v18 (ix2 r 0) = v18 (ix2 0 r) := by
  unfold k0_pay8
  refine (transpose_ix2_apply _ transposes_S1x256_p1_0_S256x1 r (0 : Fin 1)).trans ?_
  rw [shapeCast_self]

/-- The labels as numbers: row r holds the signed value of the label at (0, r), as a real. -/
theorem pay9_apply (v18 : Vec Ideal S1x256 .i32) (r : Fin 256) :
    k0_pay9 (F := Ideal) v18 (ix2 r 0) = (((v18 (ix2 0 r)).toInt : ℝ) : EReal) := by
  unfold k0_pay9
  rw [sitofp_apply, pay8_apply]
  rfl

/-- The point numbers: row r of row tile i₁ is point 256 · i₁ + r, as a 32-bit word. The word product and sum of
    the words of i₁, 256 and r are the word of the number, both sides being read modulo 2³². -/
theorem pay10_apply (i : grid0.Coords) (r : Fin 256) :
    k0_pay10 i (ix2 r 0) = BitVec.ofNat 32 ((i 1).val * 256 + r.val) := by
  unfold k0_pay10
  dsimp only
  show IntOp.addi (Scalar.muli (BitVec.ofNat 32 (i 1).val) 256#32)
      (iota .tc S256x1 32 [0] iota_S256x1_d0_w32 (ix2 r 0)) = _
  rw [iota_single_apply]
  show BitVec.ofNat 32 (i 1).val * 256#32 + BitVec.ofNat 32 r.val = _
  apply BitVec.eq_of_toNat_eq
  simp only [BitVec.toNat_add, BitVec.toNat_mul, BitVec.toNat_ofNat]
  omega

/-- The coded labels: row r keeps its label unless the label is the word of −1, in which case it holds the word of
    −2 less the point's number — a code no other point shares. -/
theorem pay11_apply (i : grid0.Coords) (v18 : Vec F S1x256 .i32) (r : Fin 256) :
    k0_pay11 (F := F) i v18 (ix2 r 0)
      = if v18 (ix2 0 r) = 4294967295#32 then 4294967294#32 - BitVec.ofNat 32 ((i 1).val * 256 + r.val) else v18 (ix2 0 r) := by
  unfold k0_pay11
  dsimp only
  rw [select_apply]
  show Scalar.select (IntOp.cmpi .eq (k0_pay8 v18 (ix2 r 0)) 4294967295#32)
      (IntOp.subi 4294967294#32 (k0_pay10 i (ix2 r 0))) (k0_pay8 v18 (ix2 r 0)) = _
  rw [pay8_apply, pay10_apply]
  by_cases h : v18 (ix2 0 r) = 4294967295#32
  · rw [if_pos h, h, cmpi_eq_self, select_one]; rfl
  · rw [if_neg h, cmpi_eq_of_ne h, select_zero]

/-- The batch's features as a 64 × 4096 matrix: entry (k, n) is entry (0, k, n) of the one-batch block. -/
theorem pay3_apply (xf : Vec F S1x64x4096 .f32) (k : Fin 64) (n : Fin 4096) :
    k0_pay3 (F := F) xf (ix2 k n) = xf (ix3 0 k n) := by
  unfold k0_pay3
  exact shapeCast_1ab_ab_apply _ shapeCasts_S1x64x4096_S64x4096 k n

/-- What the first tile stores in the narrow-format feature buffer: entry (k, n) is the feature (0, k, n);
    narrowing the format changes no value at the extended reals. -/
theorem pay4_apply (xf : Vec Ideal S1x64x4096 .f32) (k : Fin 64) (n : Fin 4096) :
    k0_pay4 (F := Ideal) xf (ix2 k n) = xf (ix3 0 k n) := by
  unfold k0_pay4
  rw [shapeCast_self]
  exact pay3_apply xf k n

/-- What the first tile stores in the squared-norm buffer: entry (0, n) is the sum over the 64 channels k of the
    square of the feature (0, k, n). -/
theorem pay5_apply (xf : Vec Ideal S1x64x4096 .f32) (n : Fin 4096) :
    k0_pay5 (F := Ideal) xf (ix2 0 n) = ∑ k : Fin 64, xf (ix3 0 k n) * xf (ix3 0 k n) := by
  unfold k0_pay5
  dsimp only
  rw [shapeCast_self]
  -- row entry (0, n) is entry n of the vector of column sums
  refine (shapeCast_a_1a_apply _ shapeCasts_S4096_S1x4096 (0 : Fin 1) n).trans ?_
  -- a sum from zero down the leading axis is the plain sum over k of the entries (k, n)
  refine (Ideal.multiReduction_add_single (mulf (k0_pay3 xf) (k0_pay3 xf) : FVec Ideal S64x4096 .f32) 0x00000000#32
    reduces_S64x4096_S4096 (.inl rfl) rfl (ix1 n)).trans ?_
  refine Finset.sum_congr rfl fun (k : Fin 64) _ => ?_
  refine (congrArg (fun j => k0_pay3 xf j * k0_pay3 xf j) (lift0_ix1 reduces_S64x4096_S4096 n k)).trans ?_
  show k0_pay3 xf (ix2 k n) * k0_pay3 xf (ix2 k n) = _
  rw [pay3_apply]

end Cert.KernelIdeal.KerValue

end
-- ==== Proof.KerValue.TileTerm.lean ====
/-
  A row tile's partial sum in the specification's terms. At the point of batch `b` and row tile `i`, row `r` of the
  tile is point `256 i + r` and column `q` of chunk `j` is point `512 j + q`; the operands of a chunk read at those
  rows and columns are the specification's quantities — features, squared norms, labels as numbers, coded labels —
  so the chunk's pair term is the specification's term of the two points, given that every label is the marker or
  a proper group label.
-/
import proofs.«414545_j15650860827299_3_alg».proof.Proof.KerValue.Final
import proofs.«414545_j15650860827299_3_alg».proof.Proof.KerValue.ChunkIdeal
import proofs.«414545_j15650860827299_3_alg».proof.Proof.KerValue.Pays
import proofs.«414545_j15650860827299_3_alg».proof.Proof.Sgpn.Laws

set_option maxRecDepth 16384

noncomputable section

namespace Cert.KernelIdeal.KerValue

open Cert.KernelIdeal Cert.KernelIdeal.Gen Cert.KernelIdeal.Body
open Idealize.ShloMosaic Idealize.ShloMosaic.TcCoe Idealize.ShloMosaic.Tactic Idealize.SL.Sem
open Idealize.ShloMosaic.Pipeline (Dat)

variable {F : FTy → Type} [FloatOps F]

open ValueIdx

variable (m : (ℓ : Loc nD τ sig) → Buf (Elt Ideal) ℓ)

theorem feat_ix (a : (⟨3, ![4, 64, 4096]⟩ : Shape).Idx → EReal) (b : Fin 4) (k : Fin 64) (n : Fin 4096) :
    Sgpn.featOf a b k n = a (ix3 b k n) :=
  congrArg a (funext fun d => by match d with | ⟨0, _⟩ => rfl | ⟨1, _⟩ => rfl | ⟨2, _⟩ => rfl)
theorem lab_ix (a : (⟨2, ![4, 4096]⟩ : Shape).Idx → BitVec 32) (b : Fin 4) (n : Fin 4096) :
    Sgpn.labOf a b n = a (ix2 b n) :=
  congrArg a (funext fun d => by match d with | ⟨0, _⟩ => rfl | ⟨1, _⟩ => rfl)

/-- The argument arrays as the specification's features and labels. -/
abbrev featArg (c : Dev nD) : Sgpn.Feat := Sgpn.featOf (m ((c.tc : Thread nD τ).loc main_arg1))
abbrev labArg (c : Dev nD) : Sgpn.Lab := Sgpn.labOf (m ((c.tc : Thread nD τ).loc main_arg2))

/-- The batch of point `t`; the point that is row `r` of the tile at point `t`; the point that is column `q` of chunk `j`. -/
abbrev bat (t : Fin cfg0.N) : Fin 4 := ⟨t.val / 16, batch_lt t⟩
abbrev rowPt (t : Fin cfg0.N) (r : Fin 256) : Fin 4096 := ⟨(grid0.coords t 1).val * 256 + r.val, tile_col_lt t r⟩
abbrev colPt (j : Fin 8) (q : Fin 512) : Fin 4096 := ⟨j.val * 512 + q.val, Sgpn.tile_lt_cols j q⟩

theorem feat_entry (c : Dev nD) (t : Fin cfg0.N) (k : Fin 64) (n : Fin 4096) :
    (iblk m c 0 t : Vec Ideal S1x64x4096 .f32) (ix3 0 k n) = featArg m c (bat t) k n := by
  rw [featBlk_apply]; exact (feat_ix _ _ _ _).symm
theorem lab_entry (c : Dev nD) (t : Fin cfg0.N) (n : Fin 4096) :
    (iblk m c 1 t : Vec Ideal S1x1x4096 .i32) (ix3 0 0 n) = labArg m c (bat t) n := by
  rw [labBlk_apply]; exact (lab_ix _ _ _).symm

theorem ofNat_pt_inj (n n' : Fin 4096) : BitVec.ofNat 32 n.val = BitVec.ofNat 32 n'.val ↔ n = n' := by
  constructor
  · intro h
    have h' := congrArg BitVec.toNat h
    rw [BitVec.toNat_ofNat, BitVec.toNat_ofNat] at h'
    have := n.isLt; have := n'.isLt
    exact Fin.ext (by omega)
  · rintro rfl; rfl

open Classical in
/-- One pair term of a chunk is the specification's term of the two points. -/
theorem cTerm_eq (c : Dev nD) (ht : Sgpn.InRange (labArg m c)) (t : Fin cfg0.N) (r : Fin 256) (j : Fin 8) (q : Fin 512) :
    cTerm (k0_pay6 (F := Ideal) (featTile (F := Ideal) t (iblk m c 0 t))) (k0_pay7 (F := Ideal) (featTile (F := Ideal) t (iblk m c 0 t)))
        (k0_pay9 (F := Ideal) (labTile (F := Ideal) t (iblk m c 1 t))) (k0_pay10 (grid0.coords t)) (k0_pay11 (F := Ideal) (grid0.coords t) (labTile (F := Ideal) t (iblk m c 1 t)))
        (BitVec.ofNat 32 (j.val * 512)) (narrowChunk (F := Ideal) (k0_pay4 (F := Ideal) (iblk m c 0 t)) j) (normChunk (F := Ideal) (k0_pay5 (F := Ideal) (iblk m c 0 t)) j)
        (labChunk (F := Ideal) t (iblk m c 1 t) j) r q
      = Sgpn.term (featArg m c) (labArg m c) (bat t) (rowPt t r) (colPt j q) := by
  have e1 : ∀ k : Fin 64, k0_pay6 (F := Ideal) (featTile (F := Ideal) t (iblk m c 0 t)) (ix2 r k) = featArg m c (bat t) k (rowPt t r) := fun k => by
    rw [pay6_apply, featTile_apply, feat_entry]
  have e2 : k0_pay7 (F := Ideal) (featTile (F := Ideal) t (iblk m c 0 t)) (ix2 r 0) = Sgpn.sq (featArg m c) (bat t) (rowPt t r) := by
    rw [pay7_apply]; unfold Sgpn.sq
    exact Finset.sum_congr rfl fun k _ => by rw [featTile_apply, feat_entry]
  have e3 : k0_pay9 (F := Ideal) (labTile (F := Ideal) t (iblk m c 1 t)) (ix2 r 0) = Sgpn.labNum (labArg m c) (bat t) (rowPt t r) := by
    rw [pay9_apply, labTile_apply, lab_entry]; rfl
  have e4 : k0_pay10 (grid0.coords t) (ix2 r 0) = BitVec.ofNat 32 (rowPt t r).val := pay10_apply _ _
  have e5 : k0_pay11 (F := Ideal) (grid0.coords t) (labTile (F := Ideal) t (iblk m c 1 t)) (ix2 r 0) = Sgpn.coded (labArg m c) (bat t) (rowPt t r) := by
    rw [pay11_apply, labTile_apply, lab_entry]; rfl
  have e6 : ∀ k : Fin 64, narrowChunk (F := Ideal) (k0_pay4 (F := Ideal) (iblk m c 0 t)) j (ix2 k q) = featArg m c (bat t) k (colPt j q) := fun k => by
    rw [narrowChunk_apply, pay4_apply, feat_entry]
  have e7 : normChunk (F := Ideal) (k0_pay5 (F := Ideal) (iblk m c 0 t)) j (ix2 0 q) = Sgpn.sq (featArg m c) (bat t) (colPt j q) := by
    rw [normChunk_apply, pay5_apply]; unfold Sgpn.sq
    exact Finset.sum_congr rfl fun k _ => by rw [feat_entry]
  have e8 : labChunk (F := Ideal) t (iblk m c 1 t) j (ix2 0 q) = labArg m c (bat t) (colPt j q) := by
    rw [labChunk_apply, lab_entry]
  have e9 : BitVec.ofNat 32 (j.val * 512) + BitVec.ofNat 32 q.val = BitVec.ofNat 32 (colPt j q).val := (BitVec.ofNat_add _ _).symm
  rw [← Sgpn.term_of_coded (featArg m c) (labArg m c) ht (bat t) (rowPt t r) (colPt j q)]
  unfold cTerm cDist cSame cCode
  simp only [e1, e2, e3, e4, e5, e6, e7, e8, e9]
  have hcode : (if labArg m c (bat t) (colPt j q) = 4294967295#32 then 4294967294#32 - BitVec.ofNat 32 (colPt j q).val else labArg m c (bat t) (colPt j q))
      = Sgpn.coded (labArg m c) (bat t) (colPt j q) := rfl
  rw [hcode]
  have hinj : (BitVec.ofNat 32 ((grid0.coords t 1).val * 256 + r.val) = BitVec.ofNat 32 (j.val * 512 + q.val)) ↔ rowPt t r = colPt j q :=
    ofNat_pt_inj (rowPt t r) (colPt j q)
  exact congrArg₂ (· * ·) (if_congr (or_congr Iff.rfl hinj) rfl rfl) rfl

/-- The tile's partial sum at point `t`: the specification's terms over the tile's 256 rows and all 4096 columns,
    chunk by chunk. -/
theorem tileP_eq (c : Dev nD) (ht : Sgpn.InRange (labArg m c)) (t : Fin cfg0.N) :
    tileP (F := Ideal) m c t (ix2 0 0)
      = ∑ r : Fin 256, ∑ j : Fin 8, ∑ q : Fin 512, Sgpn.term (featArg m c) (labArg m c) (bat t) (rowPt t r) (colPt j q) := by
  unfold tileP tilePartial
  rw [tileSum_apply]
  exact Finset.sum_congr rfl fun r _ => Finset.sum_congr rfl fun j _ => Finset.sum_congr rfl fun q _ => cTerm_eq m c ht t r j q

end Cert.KernelIdeal.KerValue

end
-- ==== Proof.KerValue.Result.lean ====
/-
  The kernel program's result. After the region three host lines take entry (b, 0, 0) of each batch's block, add
  the four onto zero, and divide by the pair count; so the result is that chain applied to the output array the
  region leaves. The argument arrays end unchanged.
-/
import proofs.«414545_j15650860827299_3_alg».proof.Proof.KerValue.Final
import Idealize.ShloMosaic.Lib.StableHlo.Run
import Idealize.ShloMosaic.Lib.Pipeline.Value

set_option maxRecDepth 16384

noncomputable section

namespace Cert.KernelIdeal.KerValue

open Cert.KernelIdeal Cert.KernelIdeal.Gen Cert.KernelIdeal.Body
open Idealize.ShloMosaic Idealize.ShloMosaic.TcCoe Idealize.ShloMosaic.Tactic Idealize.SL.Sem
open Idealize.ShloMosaic.Pipeline (Dat)

variable {F : FTy → Type} [FloatOps F]

variable (m : (ℓ : Loc nD τ sig) → Buf (Elt F) ℓ) (ρ : Dev nD → PrngReg)

/-- The host lines after the region, applied to the output array. -/
def hostTail (a : Vec F S4x8x128 .f32) : FVec F S_ .f32 :=
  Host.divf (Host.reduceAdd (shapeCast S4 (extractStridedSlice S4x1x1 ![0, 0, 0] a slices_S4x8x128_S4x1x1_0_0_0) shapeCasts_S4x1x1_S4)
    (constant S_ .f32 0x00000000#32) reducesTo_S4_S_d0 h_S_) (constant S_ .f32 0x4C800000#32)

/-- The result buffer after the host lines that follow the region. -/
theorem tail_eq (c : Dev nD) :
    Pipeline.afterTail₀ cfgs (dats m) 0 (V0 m) [hostOps1] c main_v5 = hostTail (outArr m c) := by
  unfold Pipeline.afterTail₀
  show StableHlo.after hostOps1 _ (Proc.devRef .tc main_v5) = _
  after_results
  rw [Pipeline.withArrays_arr spec0 launch0.win.arr_inj c _ _ 2, final_out]
  rfl

/-- The program's run, read: the result at the host chain of the output array, the arguments unchanged. -/
theorem run_value : θ_run defs (onTc (τ := τ) (main (F := F))) ⟨m, fun _ => 0, ρ⟩ (fun r => ∀ c : Dev nD,
      r.2.mem ((c.tc : Thread nD τ).loc main_v5) = hostTail (outArr m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_v5 (Pipeline.mem_restRefs_of main_v5 (by decide) (by decide))).trans (tail_eq m c),
      ((h c).2 main_arg0 (Pipeline.mem_restRefs_of main_arg0 (by decide) (by decide))).trans (W_main_arg0 m (dats m) c),
      ((h c).1 0).trans (((dats m 0 c).arrAt_in 0 rfl _).trans ((A_eq m c 0).trans (V_main_arg1 m c))),
      ((h c).2 main_arg2 (Pipeline.mem_restRefs_of main_arg2 (by decide) (by decide))).trans (W_main_arg2 m (dats m) c)⟩)
    (run_main m ρ)

end Cert.KernelIdeal.KerValue

end
-- ==== Proof.KerValue.Acc.lean ====
/-
  The output array and the host lines at the exact reals: a batch's block holds, at every entry, the sum of the
  batch's 16 tile partial sums; the host lines add the four batches' entries and divide by the pair count.
-/
import proofs.«414545_j15650860827299_3_alg».proof.Proof.KerValue.Result
import proofs.«414545_j15650860827299_3_alg».proof.Proof.Sgpn.Spec
import Idealize.ShloMosaic.Lib.ValueIdx
import Idealize.ShloMosaic.Lib.ValueIdxRank1
import Idealize.ShloMosaic.Lib.ValueLayout
import Idealize.ShloMosaic.PureOps.Ideal.Laws

set_option maxRecDepth 16384

noncomputable section

namespace Cert.KernelIdeal.KerValue

open Cert.KernelIdeal Cert.KernelIdeal.Gen Cert.KernelIdeal.Body
open Idealize.ShloMosaic Idealize.ShloMosaic.TcCoe Idealize.ShloMosaic.Tactic Idealize.SL.Sem
open Idealize.ShloMosaic.Pipeline (Dat)

variable {F : FTy → Type} [FloatOps F]

open ValueIdx

/-! ## The accumulator's two writes, read at an entry -/

/-- The cleared block: every entry is zero. -/
theorem pay2_apply (j : S1x8x128.Idx) : (k0_pay2 (F := Ideal)) j = 0 := by
  unfold k0_pay2
  show Ideal.ofBits .f32 0x00000000#32 = 0
  exact Ideal.ofBits_zero_f32

/-- The accumulating write: the tile's one partial sum, spread over the whole block, is added to every entry. -/
theorem pay1_apply (p : FVec Ideal S1x1 .f32) (acc : Vec Ideal S1x8x128 .f32) (s : Fin 8) (l : Fin 128) :
    k0_pay1 p acc (ix3 0 s l) = acc (ix3 0 s l) + p (ix2 0 0) := by
  unfold k0_pay1
  show shapeCast S1x8x128 acc shapeCasts_S1x8x128_S1x8x128 (ix3 0 s l)
      + broadcastTo S1x8x128 (shapeCast S1x1x1 p shapeCasts_S1x1_S1x1x1) broadcasts_S1x1x1_S1x8x128 (ix3 0 s l) = _
  rw [shapeCast_self]
  congr 1
  refine (broadcastTo_apply _ _ (ix3 0 s l) (ix3 0 0 0) (fun a => ?_)).trans ?_
  · match a with
    | ⟨0, _⟩ => rfl
    | ⟨1, _⟩ => rfl
    | ⟨2, _⟩ => rfl
  · exact shapeCast_ab_1ab_apply p _ 0 0 0

variable (m : (ℓ : Loc nD τ sig) → Buf (Elt Ideal) ℓ)

/-! ## The accumulator after a point, entry by entry -/

/-- At a batch's first tile the block is cleared before the tile's partial sum is added. -/
theorem accAt_first (c : Dev nD) (n : ℕ) (hn : n < cfg0.N) (h : n % 16 = 0) :
    accAt m c n hn = k0_pay1 (tileP m c ⟨n, hn⟩) (k0_pay2 (F := Ideal)) := by
  cases n with
  | zero => rfl
  | succ n => exact if_pos h

/-- At a later tile the partial sum is added to what the previous point left. -/
theorem accAt_later (c : Dev nD) (n : ℕ) (hn : n < cfg0.N) (h : ¬n % 16 = 0) :
    accAt m c n hn = k0_pay1 (tileP m c ⟨n, hn⟩) (accAt m c (n - 1) (Nat.lt_of_le_of_lt (Nat.sub_le _ _) hn)) := by
  cases n with
  | zero => exact absurd (Nat.zero_mod _) h
  | succ n => exact if_neg h

/-- The partial sum of the row tile at point `n`, as an extended real (zero past the last point). -/
def tileVal (c : Dev nD) (n : ℕ) : EReal :=
  if h : n < cfg0.N then tileP (F := Ideal) m c ⟨n, h⟩ (ix2 0 0) else 0

theorem tileVal_of_lt (c : Dev nD) (n : ℕ) (h : n < cfg0.N) : tileVal m c n = tileP (F := Ideal) m c ⟨n, h⟩ (ix2 0 0) :=
  dif_pos h

/-- After point `n` every entry of the block holds the sum of the partial sums of the batch's tiles up to `n`:
    the points from the last multiple of 16 up to `n`. -/
theorem accAt_entry (c : Dev nD) (s : Fin 8) (l : Fin 128) : ∀ (n : ℕ) (hn : n < cfg0.N),
    accAt m c n hn (ix3 0 s l) = ∑ i ∈ Finset.range (n % 16 + 1), tileVal m c (n - n % 16 + i) := by
  intro n
  induction n with
  | zero =>
    intro hn
    rw [accAt_first m c 0 hn (Nat.zero_mod _), pay1_apply, pay2_apply, zero_add]
    show _ = ∑ i ∈ Finset.range 1, tileVal m c (0 - 0 % 16 + i)
    rw [Finset.sum_range_one]
    exact (tileVal_of_lt m c 0 hn).symm
  | succ k ih =>
    intro hn
    by_cases h : (k + 1) % 16 = 0
    · rw [accAt_first m c (k + 1) hn h, pay1_apply, pay2_apply, zero_add, h, Finset.sum_range_one]
      exact (tileVal_of_lt m c (k + 1) hn).symm
    · rw [accAt_later m c (k + 1) hn h, pay1_apply]
      show accAt m c k _ (ix3 0 s l) + _ = _
      have e1 : k % 16 + 1 = (k + 1) % 16 := by omega
      have e2 : k - k % 16 = k + 1 - (k + 1) % 16 := by omega
      have e3 : k + 1 - (k + 1) % 16 + (k + 1) % 16 = k + 1 := by omega
      rw [ih, e1, e2, Finset.sum_range_succ _ ((k + 1) % 16), e3, tileVal_of_lt m c (k + 1) hn]

theorem tile_pt_lt (b : Fin 4) (i : Fin 16) : 16 * b.val + i.val < cfg0.N := by
  rw [show cfg0.N = 64 from N_0]; omega

/-- Every entry of batch `b`'s block of the output array is the sum of the batch's 16 tile partial sums. -/
theorem outArr_apply (c : Dev nD) (b : Fin 4) (s : Fin 8) (l : Fin 128) :
    outArr (F := Ideal) m c (ix3 b s l) = ∑ i : Fin 16, tileP (F := Ideal) m c ⟨16 * b.val + i.val, tile_pt_lt b i⟩ (ix2 0 0) := by
  unfold outArr
  show accAt m c (16 * b.val + 15) (last_lt b) (ix3 0 s l) = _
  rw [accAt_entry m c s l]
  have e1 : (16 * b.val + 15) % 16 + 1 = 16 := by omega
  have e2 : 16 * b.val + 15 - (16 * b.val + 15) % 16 = 16 * b.val := by omega
  rw [e1, e2, Finset.sum_range]
  exact Finset.sum_congr rfl fun i _ => tileVal_of_lt m c _ (tile_pt_lt b i)

/-! ## The host lines -/

/-- The host lines: the four batches' entries (b, 0, 0) summed, divided by the pair count. -/
theorem hostTail_apply (a : Vec Ideal S4x8x128 .f32) :
    hostTail (F := Ideal) a = fun _ => Ideal.div (∑ b : Fin 4, a (ix3 b 0 0)) Sgpn.count := by
  funext j
  unfold hostTail
  generalize hy : shapeCast S4 (extractStridedSlice S4x1x1 ![0, 0, 0] a slices_S4x8x128_S4x1x1_0_0_0) shapeCasts_S4x1x1_S4 = y
  have hsum : ∑ i : S4.Idx, y i = ∑ b : Fin 4, a (ix3 b 0 0) := by
    rw [← Equiv.sum_comp (idxEquiv1 (n := 4)).symm]
    refine Finset.sum_congr rfl fun b _ => ?_
    show y (ix1 b) = _
    rw [← hy]
    refine (shapeCast_apply _ _ (ix1 b) (ix3 b 0 0) ?_).trans ?_
    · rw [Shape.rowMajor_val_three, Shape.rowMajor_val_one]
      show (b.val * 1 + 0) * 1 + 0 = b.val
      omega
    · refine extractStridedSlice_apply _ a _ (ix3 b 0 0) (ix3 b 0 0) fun d => ?_
      match d with
      | ⟨0, _⟩ => show b.val = 0 + b.val; omega
      | ⟨1, _⟩ => rfl
      | ⟨2, _⟩ => rfl
  show Ideal.div (Ideal.hostReduceAdd reducesTo_S4_S_d0 y (Ideal.ofBits .f32 0x00000000#32) j) (Ideal.ofBits .f32 0x4C800000#32) = _
  rw [Ideal.hostReduceAdd_total reducesTo_S4_S_d0 (fun b => b.elim0) y _ j, Ideal.ofBits_zero_f32, zero_add, hsum]
  rfl

end Cert.KernelIdeal.KerValue

end
-- ==== Proof.KerValue.Total.lean ====
/-
  The kernel program's result is the specification's loss divided by the pair count, when every label is the
  marker or a proper group label: the four batches' blocks hold their 16 tiles' partial sums, each tile's partial
  sum is the specification's terms over its rows and all columns, and tiles and chunks together run over all pairs.
-/
import proofs.«414545_j15650860827299_3_alg».proof.Proof.KerValue.TileTerm
import proofs.«414545_j15650860827299_3_alg».proof.Proof.KerValue.Acc

set_option maxRecDepth 16384

noncomputable section

namespace Cert.KernelIdeal.KerValue

open Cert.KernelIdeal Cert.KernelIdeal.Gen Cert.KernelIdeal.Body
open Idealize.ShloMosaic Idealize.ShloMosaic.TcCoe Idealize.ShloMosaic.Tactic Idealize.SL.Sem
open Idealize.ShloMosaic.Pipeline (Dat)

variable {F : FTy → Type} [FloatOps F]

open ValueIdx

variable (m : (ℓ : Loc nD τ sig) → Buf (Elt Ideal) ℓ)

theorem kernel_total (c : Dev nD) (ht : Sgpn.InRange (labArg m c)) :
    hostTail (F := Ideal) (outArr m c) = fun _ => Ideal.div (Sgpn.total (featArg m c) (labArg m c)) Sgpn.count := by
  rw [hostTail_apply]
  funext _
  congr 1
  unfold Sgpn.total
  refine Finset.sum_congr rfl fun b _ => ?_
  rw [outArr_apply, ← Sgpn.sum_tiles (fun n n' => Sgpn.term (featArg m c) (labArg m c) b n n')]
  refine Finset.sum_congr rfl fun i _ => ?_
  rw [tileP_eq m c ht]
  have hb : bat (⟨16 * b.val + i.val, tile_pt_lt b i⟩ : Fin cfg0.N) = b :=
    Fin.ext (by show (16 * b.val + i.val) / 16 = b.val; have := i.isLt; omega)
  have hr : ∀ r : Fin 256, rowPt (⟨16 * b.val + i.val, tile_pt_lt b i⟩ : Fin cfg0.N) r = ⟨i.val * 256 + r.val, Sgpn.tile_lt_rows i r⟩ := fun r =>
    Fin.ext (by
      show (grid0.coords (⟨16 * b.val + i.val, tile_pt_lt b i⟩ : Fin cfg0.N) 1).val * 256 + r.val = i.val * 256 + r.val
      rw [tile_of_point]
      show (16 * b.val + i.val) % 16 * 256 + r.val = i.val * 256 + r.val
      have := i.isLt; omega)
  simp only [hb, hr]

end Cert.KernelIdeal.KerValue

end
-- ==== Proof.RefValue.lean ====
/-
  The reference's result is the loss of the specification, divided by the pair count.

  The reference builds the same-group indicator arithmetically: each label becomes a row of 50 zeros and
  ones (a one where the label, with the marker replaced by zero, equals the column), the row is zeroed
  when the label is the marker, and two points' rows are multiplied entry by entry and summed. That sum
  is one exactly when both labels are proper, equal and below 50, else zero; off the diagonal it is kept,
  on the diagonal it is replaced by one. With the indicator s in {0, 1} the blend
  s·D + (two·(1 − s))·h is D when s = 1 and two·h when s = 0, for all extended reals D, h:
  only 0·h = 0, D + 0 = D, 1 − 1 = 0 are used, so nothing need be finite.
-/
import proofs.«414545_j15650860827299_3_alg».proof.Proof.Gen.ReferenceIdeal.Run
import proofs.«414545_j15650860827299_3_alg».proof.Proof.Gen.ReferenceIdeal.Read
import proofs.«414545_j15650860827299_3_alg».proof.Proof.Sgpn.Spec
import Idealize.ShloMosaic.PureOps.Ideal
import Idealize.ShloMosaic.PureOps.Ideal.Laws
import Idealize.ShloMosaic.Lib.ValueIdx

noncomputable section

namespace Cert.ReferenceIdeal.RefValue

open Idealize.ShloMosaic Idealize.ShloMosaic.TcCoe Idealize.SL.Sem Cert.ReferenceIdeal Cert.ReferenceIdeal.Gen
open Idealize.ShloMosaic.ValueIdx Cert.ReferenceIdeal.Read

/-! ## Words and numbers -/

theorem ofBits_one_f32 : Ideal.ofBits .f32 0x3F800000#32 = 1 := by
  simp [Ideal.ofBits, Ideal.ieee, -EReal.coe_mul]; norm_num

theorem cmpi_ne_of_ne {a b : BitVec 32} (h : a ≠ b) : IntOp.cmpi .ne a b = 1#1 := by
  have e : (a != b) = true := by simpa using h
  unfold IntOp.cmpi
  rw [e]; rfl
theorem cmpi_ne_self (a : BitVec 32) : IntOp.cmpi .ne a a = 0#1 := by
  simp [IntOp.cmpi]
theorem cmpi_eq_of_eq {a b : BitVec 32} (h : a = b) : IntOp.cmpi .eq a b = 1#1 := by
  simp [IntOp.cmpi, h]
theorem cmpi_eq_of_ne {a b : BitVec 32} (h : a ≠ b) : IntOp.cmpi .eq a b = 0#1 := by
  have e : (a == b) = false := by simpa using h
  unfold IntOp.cmpi
  rw [e]; rfl

def bitNum (b : BitVec 1) : EReal := ((b.toNat : ℝ) : EReal)
theorem bitNum_one : bitNum 1#1 = 1 := by simp [bitNum]
theorem bitNum_zero : bitNum 0#1 = 0 := by simp [bitNum]

theorem one_sub_one : (1 : EReal) - 1 = 0 := by
  rw [← EReal.coe_one, ← EReal.coe_sub, sub_self, EReal.coe_zero]

def hot (t : BitVec 32) (g : Fin 50) : EReal :=
  bitNum (IntOp.cmpi .eq (Scalar.select (IntOp.cmpi .ne t 4294967295#32) t 0#32) (BitVec.ofNat 32 g.val))
    * bitNum (IntOp.cmpi .ne t 4294967295#32)

theorem hot_eq (t : BitVec 32) (g : Fin 50) :
    hot t g = if t ≠ 4294967295#32 ∧ t = BitVec.ofNat 32 g.val then 1 else 0 := by
  unfold hot
  by_cases ht : t = 4294967295#32
  · subst ht
    rw [cmpi_ne_self, bitNum_zero, mul_zero, if_neg (fun h => h.1 rfl)]
  · rw [cmpi_ne_of_ne ht, bitNum_one, mul_one, select_one]
    by_cases hg : t = BitVec.ofNat 32 g.val
    · rw [cmpi_eq_of_eq hg, bitNum_one, if_pos ⟨ht, hg⟩]
    · rw [cmpi_eq_of_ne hg, bitNum_zero, if_neg (fun h => hg h.2)]

theorem hot_dot_of (a b : BitVec 32)
    (h : a ≠ 4294967295#32 ∧ b ≠ 4294967295#32 ∧ a = b ∧ a.toNat < 50) :
    ∑ g : Fin 50, hot a g * hot b g = 1 := by
  obtain ⟨ha, _, rfl, hlt⟩ := h
  have key : ∀ g : Fin 50, hot a g * hot a g = if g = ⟨a.toNat, hlt⟩ then 1 else 0 := by
    intro g
    rw [hot_eq]
    by_cases hg : g = ⟨a.toNat, hlt⟩
    · have : a = BitVec.ofNat 32 g.val := by subst hg; simp
      rw [if_pos ⟨ha, this⟩, if_pos hg, mul_one]
    · have : ¬ a = BitVec.ofNat 32 g.val := by
        intro e
        apply hg
        apply Fin.ext
        have := congrArg BitVec.toNat e
        simp only [BitVec.toNat_ofNat] at this
        have hg50 := g.isLt
        show g.val = a.toNat
        omega
      rw [if_neg (fun h => this h.2), if_neg hg, mul_zero]
  rw [Finset.sum_congr rfl (fun g _ => key g), Finset.sum_ite_eq' (Finset.univ : Finset (Fin 50)) (⟨a.toNat, hlt⟩ : Fin 50) (fun _ => (1 : EReal)),
    if_pos (Finset.mem_univ _)]

theorem hot_dot_of_not (a b : BitVec 32)
    (h : ¬ (a ≠ 4294967295#32 ∧ b ≠ 4294967295#32 ∧ a = b ∧ a.toNat < 50)) :
    ∑ g : Fin 50, hot a g * hot b g = 0 := by
  refine Finset.sum_eq_zero fun g _ => ?_
  rw [hot_eq, hot_eq]
  by_cases h1 : a ≠ 4294967295#32 ∧ a = BitVec.ofNat 32 g.val
  · by_cases h2 : b ≠ 4294967295#32 ∧ b = BitVec.ofNat 32 g.val
    · exfalso
      apply h
      refine ⟨h1.1, h2.1, h1.2.trans h2.2.symm, ?_⟩
      have := congrArg BitVec.toNat h1.2
      simp only [BitVec.toNat_ofNat] at this
      have hg50 := g.isLt
      omega
    · rw [if_neg h2, mul_zero]
  · rw [if_neg h1, zero_mul]

/-- A rank-3 index set is the product of its three coordinate ranges. -/
def idxEquiv3 {n0 n1 n2 : Nat} : (⟨3, ![n0, n1, n2]⟩ : Shape).Idx ≃ Fin n0 × Fin n1 × Fin n2 where
  toFun i := (i 0, i 1, i 2)
  invFun p := ix3 p.1 p.2.1 p.2.2
  left_inv i := (eq_ix3 i).symm
  right_inv _ := rfl

theorem sum_idx3 {M : Type*} [AddCommMonoid M] {n0 n1 n2 : Nat} (f : (⟨3, ![n0, n1, n2]⟩ : Shape).Idx → M) :
    ∑ i, f i = ∑ a : Fin n0, ∑ b : Fin n1, ∑ c : Fin n2, f (ix3 a b c) := by
  rw [← Equiv.sum_comp (idxEquiv3 (n0 := n0) (n1 := n1) (n2 := n2)).symm f, Fintype.sum_prod_type]
  refine Finset.sum_congr rfl fun a _ => ?_
  rw [Fintype.sum_prod_type]
  rfl

theorem same_diag (d : EReal) : d * ((1 : EReal) - 1) + 1 = 1 := by
  rw [one_sub_one, mul_zero, zero_add]
theorem same_off (d : EReal) : d * ((1 : EReal) - 0) + 0 = d := by
  rw [sub_zero, mul_one, add_zero]
theorem blend_one (D h w : EReal) : (1 : EReal) * D + (w * ((1 : EReal) - 1)) * h = D := by
  rw [one_sub_one, mul_zero, zero_mul, add_zero, one_mul]
theorem blend_zero (D h w : EReal) : (0 : EReal) * D + (w * ((1 : EReal) - 0)) * h = w * h := by
  rw [sub_zero, mul_one, zero_mul, zero_add]

/-! ## The reference's stages read at coordinates -/

section Stages

variable (x1 : (⟨S4x64x4096, .f32⟩ : BufTy).Contents (Elt Ideal)) (x2 : (⟨S4x4096, .i32⟩ : BufTy).Contents (Elt Ideal))

/-- The specification's feature reader is the array at the coordinates. -/
theorem feat_ix (b : Fin 4) (c : Fin 64) (n : Fin 4096) : Sgpn.featOf x1 b c n = x1 (ix3 b c n) :=
  congrArg x1 (funext fun d => by match d with | ⟨0, _⟩ => rfl | ⟨1, _⟩ => rfl | ⟨2, _⟩ => rfl)

/-- The specification's label reader is the array at the coordinates. -/
theorem lab_ix (b : Fin 4) (n : Fin 4096) : Sgpn.labOf x2 b n = x2 (ix2 b n) :=
  congrArg x2 (funext fun d => by match d with | ⟨0, _⟩ => rfl | ⟨1, _⟩ => rfl)

/-- The squared norm of a point's feature vector. -/
theorem sq_read (b : Fin 4) (n : Fin 4096) :
    val_main_v1 (F := Ideal) x1 (ix2 b n) = Sgpn.sq (Sgpn.featOf x1) b n := by
  rw [val_main_v1_apply, val_main_cst_apply, Ideal.ofBits_def, Ideal.ofBits_zero_f32, zero_add]
  unfold Sgpn.sq
  refine Finset.sum_congr rfl fun k _ => ?_
  have e : idx_main_v1 (ix2 b n) k = ix3 b k n := funext fun a => Fin.ext (by match a with | ⟨0, _⟩ => rfl | ⟨1, _⟩ => rfl | ⟨2, _⟩ => rfl)
  rw [val_main_v0_apply, e, Ideal.mulf_def, feat_ix]

/-- The inner product of two points' feature vectors. -/
theorem gram_read (b : Fin 4) (n m : Fin 4096) :
    val_main_v2 (F := Ideal) x1 (ix3 b n m) = Sgpn.gram (Sgpn.featOf x1) b n m := by
  rw [val_main_v2_apply]
  unfold Sgpn.gram
  refine Finset.sum_congr rfl fun k _ => ?_
  have el : lidx_main_v2 (ix3 b n m) k = ix3 b k n := funext fun a => Fin.ext (by match a with | ⟨0, _⟩ => rfl | ⟨1, _⟩ => rfl | ⟨2, _⟩ => rfl)
  have er : ridx_main_v2 (ix3 b n m) k = ix3 b k m := funext fun a => Fin.ext (by match a with | ⟨0, _⟩ => rfl | ⟨1, _⟩ => rfl | ⟨2, _⟩ => rfl)
  rw [el, er, feat_ix, feat_ix]

/-- The clamped squared distance of two points. -/
theorem dist_read (b : Fin 4) (n m : Fin 4096) :
    val_main_v12 (F := Ideal) x1 (ix3 b n m) = Sgpn.dist (Sgpn.featOf x1) b n m := by
  have e5 : idx_main_v3 (idx_main_v5 (ix3 b n m)) = ix2 b n := funext fun a => Fin.ext (by match a with | ⟨0, _⟩ => rfl | ⟨1, _⟩ => rfl)
  have e6 : idx_main_v4 (idx_main_v6 (ix3 b n m)) = ix2 b m := funext fun a => Fin.ext (by match a with | ⟨0, _⟩ => rfl | ⟨1, _⟩ => rfl)
  rw [val_main_v12_apply, val_main_v10_apply, val_main_v7_apply, val_main_v5_apply, val_main_v3_apply, e5,
    val_main_v6_apply, val_main_v4_apply, e6, val_main_v9_apply, val_main_v8_apply, val_main_cst_0_apply,
    val_main_v11_apply, val_main_cst_1_apply, sq_read, sq_read, gram_read]
  simp only [Ideal.maximumf_def, Ideal.subf_def, Ideal.addf_def, Ideal.mulf_def, Ideal.ofBits_def, Ideal.ofBits_zero_f32]
  rfl

/-- The validity bit of a point's label. -/
theorem valid_read (b : Fin 4) (n : Fin 4096) :
    val_main_v14 (F := Ideal) x2 (ix2 b n) = IntOp.cmpi .ne (Sgpn.labOf x2 b n) 4294967295#32 := by
  rw [val_main_v14_apply, val_main_v13_apply, val_main_c_apply, lab_ix]

/-- The label with the marker replaced by zero. -/
theorem clean_read (b : Fin 4) (n : Fin 4096) :
    val_main_v15 (F := Ideal) x2 (ix2 b n)
      = Scalar.select (IntOp.cmpi .ne (Sgpn.labOf x2 b n) 4294967295#32) (Sgpn.labOf x2 b n) 0#32 := by
  rw [val_main_v15_apply, valid_read, val_main_call0_v1_apply, val_main_call0_v0_apply, val_main_c_2_apply, lab_ix]

/-- One entry of a point's masked one-hot row. -/
theorem hot_read (b : Fin 4) (n : Fin 4096) (g : Fin 50) :
    val_main_v20 (F := Ideal) x2 (ix3 b n g) = hot (Sgpn.labOf x2 b n) g := by
  have e2 : idx_main_call1_v0 (idx_main_call1_v2 (ix3 b n g)) = ix2 b n := funext fun a => Fin.ext (by match a with | ⟨0, _⟩ => rfl | ⟨1, _⟩ => rfl)
  have e19 : idx_main_v17 (idx_main_v19 (ix3 b n g)) = ix2 b n := funext fun a => Fin.ext (by match a with | ⟨0, _⟩ => rfl | ⟨1, _⟩ => rfl)
  rw [val_main_v20_apply, val_main_v16_apply, val_main_call1_v4_apply, val_main_call1_v2_apply, val_main_call1_v0_apply, e2,
    clean_read, val_main_call1_v3_apply, val_main_call1_v1_apply, val_main_v19_apply, val_main_v18_apply, val_main_v17_apply,
    e19, valid_read, Ideal.mulf_def]
  rfl

/-- The inner product of two points' masked one-hot rows. -/
theorem hotdot_read (b : Fin 4) (n m : Fin 4096) :
    val_main_v21 (F := Ideal) x2 (ix3 b n m)
      = ∑ g : Fin 50, hot (Sgpn.labOf x2 b n) g * hot (Sgpn.labOf x2 b m) g := by
  rw [val_main_v21_apply]
  refine Finset.sum_congr rfl fun g _ => ?_
  have el : lidx_main_v21 (ix3 b n m) g = ix3 b n g := funext fun a => Fin.ext (by match a with | ⟨0, _⟩ => rfl | ⟨1, _⟩ => rfl | ⟨2, _⟩ => rfl)
  have er : ridx_main_v21 (ix3 b n m) g = ix3 b m g := funext fun a => Fin.ext (by match a with | ⟨0, _⟩ => rfl | ⟨1, _⟩ => rfl | ⟨2, _⟩ => rfl)
  rw [el, er, hot_read, hot_read]

/-- The identity matrix's entry. -/
theorem eye_read (n m : Fin 4096) :
    val_main_v27 (F := Ideal) (ix2 n m) = bitNum (IntOp.cmpi .eq (BitVec.ofNat 32 n.val) (BitVec.ofNat 32 m.val)) := by
  rw [val_main_v27_apply, val_main_v26_apply, val_main_v25_apply, val_main_v22_apply, val_main_v24_apply, val_main_c_3_apply,
    val_main_v23_apply]
  show bitNum (IntOp.cmpi .eq (BitVec.ofNat 32 n.val + 0#32) (BitVec.ofNat 32 m.val)) = _
  rw [BitVec.add_zero]

theorem eye_diag (n : Fin 4096) : bitNum (IntOp.cmpi .eq (BitVec.ofNat 32 n.val) (BitVec.ofNat 32 n.val)) = 1 := by
  rw [cmpi_eq_of_eq rfl, bitNum_one]

theorem eye_off {n m : Fin 4096} (h : n ≠ m) :
    bitNum (IntOp.cmpi .eq (BitVec.ofNat 32 n.val) (BitVec.ofNat 32 m.val)) = 0 := by
  have hne : BitVec.ofNat 32 n.val ≠ BitVec.ofNat 32 m.val := by
    intro e
    apply h
    apply Fin.ext
    have := congrArg BitVec.toNat e
    simp only [BitVec.toNat_ofNat] at this
    have hn := n.isLt
    have hm := m.isLt
    omega
  rw [cmpi_eq_of_ne hne, bitNum_zero]

/-- The same-group indicator before it is evaluated: the one-hot inner product off the diagonal, one on it. -/
theorem same_expand (b : Fin 4) (n m : Fin 4096) :
    val_main_v35 (F := Ideal) x2 (ix3 b n m)
      = (∑ g : Fin 50, hot (Sgpn.labOf x2 b n) g * hot (Sgpn.labOf x2 b m) g)
          * ((1 : EReal) - bitNum (IntOp.cmpi .eq (BitVec.ofNat 32 n.val) (BitVec.ofNat 32 m.val)))
        + bitNum (IntOp.cmpi .eq (BitVec.ofNat 32 n.val) (BitVec.ofNat 32 m.val)) := by
  have e31 : idx_main_v30 (idx_main_v31 (ix3 b n m)) = ix2 n m := funext fun a => Fin.ext (by match a with | ⟨0, _⟩ => rfl | ⟨1, _⟩ => rfl)
  have e34 : idx_main_v33 (idx_main_v34 (ix3 b n m)) = ix2 n m := funext fun a => Fin.ext (by match a with | ⟨0, _⟩ => rfl | ⟨1, _⟩ => rfl)
  rw [val_main_v35_apply, val_main_v32_apply, hotdot_read, val_main_v31_apply, val_main_v30_apply, e31, val_main_v29_apply,
    val_main_v28_apply, val_main_cst_4_apply, val_main_v34_apply, val_main_v33_apply, e34, eye_read]
  simp only [Ideal.mulf_def, Ideal.addf_def, Ideal.subf_def, Ideal.ofBits_def, ofBits_one_f32]

theorem same_of (b : Fin 4) (n m : Fin 4096) (h : Sgpn.sameGroup (Sgpn.labOf x2) b n m) :
    val_main_v35 (F := Ideal) x2 (ix3 b n m) = 1 := by
  rw [same_expand]
  by_cases hnm : n = m
  · subst hnm
    rw [eye_diag, same_diag]
  · rw [eye_off hnm, same_off]
    unfold Sgpn.sameGroup at h
    rcases h with h | h
    · exact absurd h hnm
    · exact hot_dot_of _ _ h

theorem same_of_not (b : Fin 4) (n m : Fin 4096) (h : ¬ Sgpn.sameGroup (Sgpn.labOf x2) b n m) :
    val_main_v35 (F := Ideal) x2 (ix3 b n m) = 0 := by
  unfold Sgpn.sameGroup at h
  have hnm : n ≠ m := fun e => h (Or.inl e)
  rw [same_expand, eye_off hnm, same_off]
  exact hot_dot_of_not _ _ (fun hh => h (Or.inr hh))

/-- The pair's weight: the product of the two labels read as numbers. -/
theorem weight_read (b : Fin 4) (n m : Fin 4096) :
    val_main_v51 (F := Ideal) x2 (ix3 b n m) = Sgpn.weight (Sgpn.labOf x2) b n m := by
  have e49 : idx_main_v47 (idx_main_v49 (ix3 b n m)) = ix2 b n := funext fun a => Fin.ext (by match a with | ⟨0, _⟩ => rfl | ⟨1, _⟩ => rfl)
  have e50 : idx_main_v48 (idx_main_v50 (ix3 b n m)) = ix2 b m := funext fun a => Fin.ext (by match a with | ⟨0, _⟩ => rfl | ⟨1, _⟩ => rfl)
  rw [val_main_v51_apply, val_main_v49_apply, val_main_v47_apply, e49, val_main_v46_apply, val_main_v50_apply,
    val_main_v48_apply, e50, val_main_v46_apply, Ideal.mulf_def]
  unfold Sgpn.weight Sgpn.labNum
  rw [lab_ix x2 b n, lab_ix x2 b m]
  rfl

/-- One pair's contribution. -/
theorem term_read (b : Fin 4) (n m : Fin 4096) :
    val_main_v53 (F := Ideal) x1 x2 (ix3 b n m) = Sgpn.term (Sgpn.featOf x1) (Sgpn.labOf x2) b n m := by
  rw [val_main_v53_apply, val_main_v52_apply, val_main_v38_apply, val_main_v45_apply, val_main_v40_apply, val_main_v39_apply,
    val_main_cst_6_apply, val_main_v37_apply, val_main_v36_apply, val_main_cst_5_apply, val_main_v44_apply, val_main_v42_apply,
    val_main_v41_apply, val_main_cst_7_apply, val_main_v43_apply, val_main_cst_8_apply, dist_read, weight_read]
  simp only [Ideal.mulf_def, Ideal.addf_def, Ideal.subf_def, Ideal.maximumf_def, Ideal.ofBits_def, Ideal.ofBits_zero_f32,
    ofBits_one_f32]
  unfold Sgpn.term
  by_cases h : Sgpn.sameGroup (Sgpn.labOf x2) b n m
  · rw [if_pos h, same_of x2 b n m h, blend_one]
  · rw [if_neg h, same_of_not x2 b n m h, blend_zero]
    rfl

/-- The sum over every pair of every batch. -/
theorem total_read :
    ∑ j : S4x4096x4096.Idx, val_main_v53 (F := Ideal) x1 x2 j = Sgpn.total (Sgpn.featOf x1) (Sgpn.labOf x2) := by
  rw [sum_idx3]
  unfold Sgpn.total
  exact Finset.sum_congr rfl fun b _ => Finset.sum_congr rfl fun n _ => Finset.sum_congr rfl fun m _ =>
    term_read x1 x2 b n m

end Stages

/-- The reference run's result term, at the exact reals, is the specification's loss of the argument arrays
    divided by the pair count. -/
theorem result_eq (m : (ℓ : Loc nD τ sig) → Buf (Elt Ideal) ℓ) (c : Dev nD) :
    Cert.ReferenceIdeal.Value.res_out0 (F := Ideal) m c
      = fun _ => Ideal.div (Sgpn.total (Sgpn.featOf (m ((c.tc : Thread nD τ).loc main_arg1))) (Sgpn.labOf (m ((c.tc : Thread nD τ).loc main_arg2)))) Sgpn.count := by
  refine (val_main_v55_eq m c).trans ?_
  funext i
  rw [val_main_v55_apply, val_main_v54_apply, val_main_cst_9_apply, val_main_cst_10_apply, total_read]
  simp only [Ideal.hostDivf_def, Ideal.ofBits_def, Ideal.ofBits_zero_f32, zero_add]
  rfl

end Cert.ReferenceIdeal.RefValue

end
-- ==== Proof.PreRange.lean ====
/-
  From the stated precondition: every label is the marker −1 or a group label below 50.

  The precondition is a conjunction of four bits, each an "and" over all entries of an array of
  comparison bits.  The conjunction being 1 makes each of the four 1; an "and" over all entries
  being 1 makes every entry 1; and the last two arrays hold, at (b, n), the signed comparisons
  `label ≥ −1` and `label < 50` of the label against a constant array.
-/
import proofs.«414545_j15650860827299_3_alg».proof.Pre_finite_inputs
import proofs.«414545_j15650860827299_3_alg».proof.Proof.Sgpn.Spec
import Idealize.ShloMosaic.Lib.ReduceAll
import Idealize.ShloMosaic.Lib.StableHlo.Predicate

noncomputable section

namespace Cert.PreRange

open Idealize.ShloMosaic Cert.Pre_finite_inputs

variable {F : FTy → Type} [FloatOps F] [Cert.Pre_finite_inputs.Facts]

/-- The word of the marker reads −1 as a signed number. -/
theorem toInt_marker : (4294967295#32 : BitVec 32).toInt = -1 := by decide

/-- The word of the group count reads 50 as a signed number. -/
theorem toInt_fifty : (50#32 : BitVec 32).toInt = 50 := by decide

theorem labels_in_range (a0 : FVec F S4x4096x3 .f32) (a1 : FVec F S4x64x4096 .f32) (a2 : IVec S4x4096 32)
    (h : Cert.Pre_finite_inputs.fn (F := F) a0 a1 a2 = fun _ => 1#1) :
    ∀ (b : Fin 4) (n : Fin 4096), (-1 : ℤ) ≤ (Sgpn.labOf a2 b n).toInt ∧ (Sgpn.labOf a2 b n).toInt < 50 := by
  intro b n
  -- the scalar shape has exactly one index
  haveI : Subsingleton S_.Idx := ⟨fun _ _ => funext fun d => d.elim0⟩
  -- the one bit of the precondition, as the conjunction of its four parts
  have h0 := congrFun h (fun d => d.elim0)
  dsimp only [fn, fn_part1] at h0
  dsimp only [andi] at h0
  obtain ⟨h123, hlt⟩ := IntOp.andi_eq_one.1 h0
  obtain ⟨-, hge⟩ := IntOp.andi_eq_one.1 h123
  -- each "and over all entries" gives its entry at (b, n)
  have ege := Host.reduce_andi_all _ _ _ _ _ hge (fun d => match d with | ⟨0, _⟩ => b | ⟨1, _⟩ => n)
  have elt := Host.reduce_andi_all _ _ _ _ _ hlt (fun d => match d with | ⟨0, _⟩ => b | ⟨1, _⟩ => n)
  -- that entry is the signed comparison of the label with the constant
  have ege' : IntOp.cmpi .sge (Sgpn.labOf a2 b n) (4294967295#32) = 1#1 := ege
  have elt' : IntOp.cmpi .slt (Sgpn.labOf a2 b n) (50#32) = 1#1 := elt
  have hge' := IntOp.cmpi_sge.1 ege'
  have hlt' := IntOp.cmpi_slt.1 elt'
  rw [toInt_marker] at hge'
  rw [toInt_fifty] at hlt'
  exact ⟨hge', hlt'⟩

end Cert.PreRange

end
-- ==== Proof.lean ====
/-
  The certificate: a pairwise margin loss over point features, computed by a tiled kernel and by a plain reference.

  Both programs compute, for 4 batches of 4096 points with 64-channel features and integer group labels, the sum
  over all pairs of points of a loss term — the squared feature distance for a pair in the same group, twice the
  hinge `max (margin − distance) 0` otherwise, weighted by the product of the two labels — divided by the pair
  count. The reference forms every 4096 × 4096 intermediate; the kernel walks 16 row tiles by 8 column chunks per
  batch, keeping per batch a narrow-format copy of the features and their squared norms, and accumulates the
  tiles' partial sums. The two agree over the extended reals because a sum may be taken in any grouping, a change
  of float format is the identity there, and the kernel's test for "same group" — equal labels after the marker
  label −1 is replaced by a code unique to its position, or the same point — is the reference's one-hot test
  whenever every label is the marker or a group label below 50, which the stated domain of the labels gives.
  The frames: each program runs to its end and leaves its arguments unchanged; for the kernel programs through the
  pipeline's launch with the body run once per case (first row tile of a batch, later row tile).
-/
import proofs.«414545_j15650860827299_3_alg».proof.Defs
import proofs.«414545_j15650860827299_3_alg».proof.Proof.Gen.Kernel
import proofs.«414545_j15650860827299_3_alg».proof.Proof.Gen.KernelIdeal
import proofs.«414545_j15650860827299_3_alg».proof.Proof.Gen.ReferenceIdeal
import proofs.«414545_j15650860827299_3_alg».proof.Proof.Gen.Pre_finite_inputs
import proofs.«414545_j15650860827299_3_alg».proof.Proof.Gen.ReferenceIdeal.Run
import proofs.«414545_j15650860827299_3_alg».proof.Proof.BodyK.Frame
import proofs.«414545_j15650860827299_3_alg».proof.Proof.BodyKI.Frame
import proofs.«414545_j15650860827299_3_alg».proof.Proof.KerValue.Total
import proofs.«414545_j15650860827299_3_alg».proof.Proof.RefValue
import proofs.«414545_j15650860827299_3_alg».proof.Proof.PreRange
import Idealize.ShloMosaic.Adequacy
import Idealize.ShloMosaic.Init

noncomputable section

namespace Cert.Proof

open Idealize.ShloMosaic Idealize.SL.Sem

/-- The word-level kernel program runs and keeps its arguments. -/
theorem frame_k : Cert.frame_Kernel (hKernel := Cert.Kernel.Gen.facts) (hPre_finite_inputs := Cert.Pre_finite_inputs.Gen.facts) :=
  fun m ρ _ => Cert.Kernel.Body.frame m ρ

/-- So does its idealization. -/
theorem frame_ki : Cert.frame_KernelIdeal (hKernelIdeal := Cert.KernelIdeal.Gen.facts) (hPre_finite_inputs := Cert.Pre_finite_inputs.Gen.facts) :=
  fun m ρ _ => Cert.KernelIdeal.Body.frame m ρ

/-- The reference runs and keeps its arguments: its run with the result dropped. -/
theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- Over the extended reals both programs end with the specification's loss of the arguments divided by the pair
    count: the kernel by its tile sums (the labels being in their domain), the reference by its own operations. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' hpre hagree
  have ht : ∀ c, Sgpn.InRange (Cert.KernelIdeal.KerValue.labArg m c) := fun c =>
    Cert.PreRange.labels_in_range (F := Ideal) _ _ _ (hpre c)
  refine ⟨fun c => Cert.KernelIdeal.KerValue.hostTail (F := Ideal) (Cert.KernelIdeal.KerValue.outArr m c),
    Cert.KernelIdeal.KerValue.run_value m ρ, ?_⟩
  refine (θ_run Cert.ReferenceIdeal.defs _ _).mono (fun _ h c => ⟨(h c).1.trans ?_, (h c).2⟩)
    (Cert.ReferenceIdeal.Value.run (F := Ideal) m' ρ')
  have e := Cert.ReferenceIdeal.RefValue.result_eq m' c
  rw [(hagree c).2.1, (hagree c).2.2] at e
  exact e.trans (Cert.KernelIdeal.KerValue.kernel_total m c (ht c)).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
